-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S250000x16 : Shape := ⟨2, ![250000, 16]⟩
abbrev S2x2000000 : Shape := ⟨2, ![2, 2000000]⟩
abbrev S250000 : Shape := ⟨1, ![250000]⟩
abbrev S16x64 : Shape := ⟨2, ![16, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S250000x16 : S_.BroadcastsInDim S250000x16 (![] : Fin 0 → Fin S250000x16.rank)
  reducesTo_S250000x16_S_d0_1 : S250000x16.ReducesTo [0, 1] S_
  h_S_ : 0 < S_.numel
  bcast_S_S16x64 : S_.BroadcastsInDim S16x64 (![] : Fin 0 → Fin S16x64.rank)
  reducesTo_S16x64_S_d0_1 : S16x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg13 : FVec F S1 .f32) (main_v48 : IVec S_ 1) (main_v49 : FVec F S64x1 .f32) (main_v50 : FVec F S64x1 .f32) : IVec S_ 1 :=
  let main_v51 : IVec S64x1 1 := cmpf .olt main_v49 main_v50
  let main_c_19 : IVec S_ 1 := constantI S_ 1 1#1
  let main_v52 : IVec S_ 1 := (fun x v => Host.reduce IntOp.andi x v reducesTo_S64x1_S_d0_1 h_S_) main_v51 main_c_19
  let main_v53 : IVec S_ 1 := andi main_v48 main_v52
  let main_v54 : FVec F S1 .f32 := Host.absf main_arg13
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg9 : FVec F S64x64 .f32) (main_arg10 : FVec F S64 .f32) (main_arg11 : FVec F S64x64 .f32) (main_arg12 : FVec F S64x1 .f32) (main_arg13 : FVec F S1 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64x1 .f32 := Host.absf main_arg12
  let main_cst_18 : FVec F S_ .f32 := constant S_ .f32 0x7F800000#32
  let main_v50 : FVec F S64x1 .f32 := broadcastInDim S64x1 ![] bcast_S_S64x1 main_cst_18
  fn_part3 (F := F) main_arg13 main_v48 main_v49 main_v50

def fn_part1 {F : FTy → Type} [FloatOps F] (main_arg6 : FVec F S64x64 .f32) (main_arg7 : FVec F S64 .f32) (main_arg8 : FVec F S64x64 .f32) (main_arg9 : FVec F S64x64 .f32) (main_arg10 : FVec F S64 .f32) (main_arg11 : FVec F S64x64 .f32) (main_arg12 : FVec F S64x1 .f32) (main_arg13 : FVec F S1 .f32) (main_v13 : IVec S_ 1) (main_v16 : IVec S16x64 1) : IVec S_ 1 :=
  let main_c_5 : IVec S_ 1 := constantI S_ 1 1#1
  let main_v17 : IVec S_ 1 := (fun x v => Host.reduce IntOp.andi x v reducesTo_S16x64_S_d0_1 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S250000x16 .f32) (main_arg1 : IVec S2x2000000 32) (main_arg2 : IVec S250000 32) (main_arg3 : FVec F S16x64 .f32) (main_arg4 : FVec F S64 .f32) (main_arg5 : FVec F S16x64 .f32) (main_arg6 : FVec F S64x64 .f32) (main_arg7 : FVec F S64 .f32) (main_arg8 : FVec F S64x64 .f32) (main_arg9 : FVec F S64x64 .f32) (main_arg10 : FVec F S64 .f32) (main_arg11 : FVec F S64x64 .f32) (main_arg12 : FVec F S64x1 .f32) (main_arg13 : FVec F S1 .f32) : IVec S_ 1 :=
  let main_v0 : FVec F S250000x16 .f32 := Host.absf main_arg0
  let main_cst : FVec F S_ .f32 := constant S_ .f32 0x7F800000#32
  let main_v1 : FVec F S250000x16 .f32 := broadcastInDim S250000x16 ![] bcast_S_S250000x16 main_cst
  let main_v2 : IVec S250000x16 1 := cmpf .olt main_v0 main_v1
  let main_c : IVec S_ 1 := constantI S_ 1 1#1
  let main_v3 : IVec S_ 1 := (fun x v => Host.reduce IntOp.andi x v reducesTo_S250000x16_S_d0_1 h_S_) main_v2 main_c
  let main_v4 : FVec F S16x64 .f32 := Host.absf main_arg3
  let main_cst_0 : FVec F S_ .f32 := constant S_ .f32 0x7F800000#32
  let main_v5 : FVec F S16x64 .f32 := broadcastInDim S16x64 ![] bcast_S_S16x64 main_cst_0
  let main_v6 : IVec S16x64 1 := cmpf .olt main_v4 main_v5
  let main_c_1 : IVec S_ 1 := constantI S_ 1 1#1
  let main_v7 : IVec S_ 1 := (fun x v => Host.reduce IntOp.andi x v reducesTo_S16x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S16x64 .f32 := Host.absf main_arg5
  let main_cst_4 : FVec F S_ .f32 := constant S_ .f32 0x7F800000#32
  let main_v15 : FVec F S16x64 .f32 := broadcastInDim S16x64 ![] bcast_S_S16x64 main_cst_4
  let main_v16 : IVec S16x64 1 := cmpf .olt main_v14 main_v15
  fn_part1 (F := F) main_arg6 main_arg7 main_arg8 main_arg9 main_arg10 main_arg11 main_arg12 main_arg13 main_v13 main_v16
-- ==== Kernel.lean ====
abbrev S250000x16 : Shape := ⟨2, ![250000, 16]⟩
abbrev S2x2000000 : Shape := ⟨2, ![2, 2000000]⟩
abbrev S250000 : Shape := ⟨1, ![250000]⟩
abbrev S16x64 : Shape := ⟨2, ![16, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x2000000 : Shape := ⟨2, ![1, 2000000]⟩
abbrev S2000000 : Shape := ⟨1, ![2000000]⟩
abbrev S_ : Shape := ⟨0, ![]⟩
abbrev S2000000x1 : Shape := ⟨2, ![2000000, 1]⟩
abbrev S250000x1 : Shape := ⟨2, ![250000, 1]⟩
abbrev S2000000x16 : Shape := ⟨2, ![2000000, 16]⟩
abbrev S1x64 : Shape := ⟨2, ![1, 64]⟩
abbrev S250000x64 : Shape := ⟨2, ![250000, 64]⟩
abbrev S10000x16 : Shape := ⟨2, ![10000, 16]⟩
abbrev S10000x1 : Shape := ⟨2, ![10000, 1]⟩
abbrev S10000x64 : Shape := ⟨2, ![10000, 64]⟩
abbrev S2000000x64 : Shape := ⟨2, ![2000000, 64]⟩
abbrev S1x1 : Shape := ⟨2, ![1, 1]⟩

abbrev nBuf : Space → Nat
  | .hbm => 86
  | .vmem => 38
  | .smem => 0
  | _ => 0

abbrev bufTy : (tb : Table) → Fin (tcTables nBuf tb) → BufTy
  | .hbm, ⟨0, _⟩ => ⟨S250000x16, .f32⟩
  | .hbm, ⟨1, _⟩ => ⟨S2x2000000, .i32⟩
  | .hbm, ⟨2, _⟩ => ⟨S250000, .i32⟩
  | .hbm, ⟨3, _⟩ => ⟨S16x64, .f32⟩
  | .hbm, ⟨4, _⟩ => ⟨S64, .f32⟩
  | .hbm, ⟨5, _⟩ => ⟨S16x64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64x1, .f32⟩
  | .hbm, ⟨13, _⟩ => ⟨S1, .f32⟩
  | .hbm, ⟨14, _⟩ => ⟨S1x2000000, .i32⟩
  | .hbm, ⟨15, _⟩ => ⟨S2000000, .i32⟩
  | .hbm, ⟨16, _⟩ => ⟨S1x2000000, .i32⟩
  | .hbm, ⟨17, _⟩ => ⟨S2000000, .i32⟩
  | .hbm, ⟨18, _⟩ => ⟨S_, .f32⟩
  | .hbm, ⟨19, _⟩ => ⟨S2000000, .f32⟩
  | .hbm, ⟨20, _⟩ => ⟨S_, .f32⟩
  | .hbm, ⟨21, _⟩ => ⟨S250000, .f32⟩
  | .hbm, ⟨22, _⟩ => ⟨S2000000x1, .i32⟩
  | .hbm, ⟨23, _⟩ => ⟨S250000, .f32⟩
  | .hbm, ⟨24, _⟩ => ⟨S_, .f32⟩
  | .hbm, ⟨25, _⟩ => ⟨S250000, .f32⟩
  | .hbm, ⟨26, _⟩ => ⟨S250000, .i1⟩
  | .hbm, ⟨27, _⟩ => ⟨S_, .f32⟩
  | .hbm, ⟨28, _⟩ => ⟨S250000, .f32⟩
  | .hbm, ⟨29, _⟩ => ⟨S250000, .f32⟩
  | .hbm, ⟨30, _⟩ => ⟨S_, .f32⟩
  | .hbm, ⟨31, _⟩ => ⟨S250000, .f32⟩
  | .hbm, ⟨32, _⟩ => ⟨S250000, .f32⟩
  | .hbm, ⟨33, _⟩ => ⟨S_, .f32⟩
  | .hbm, ⟨34, _⟩ => ⟨S_, .f32⟩
  | .hbm, ⟨35, _⟩ => ⟨S250000, .f32⟩
  | .hbm, ⟨36, _⟩ => ⟨S250000, .f32⟩
  | .hbm, ⟨37, _⟩ => ⟨S250000x1, .f32⟩
  | .hbm, ⟨38, _⟩ => ⟨S_, .i32⟩
  | .hbm, ⟨39, _⟩ => ⟨S2000000, .i32⟩
  | .hbm, ⟨40, _⟩ => ⟨S2000000, .i1⟩
  | .hbm, ⟨41, _⟩ => ⟨S_, .i32⟩
  | .hbm, ⟨42, _⟩ => ⟨S2000000, .i32⟩
  | .hbm, ⟨43, _⟩ => ⟨S2000000, .i32⟩
  | .hbm, ⟨44, _⟩ => ⟨S2000000, .i32⟩
  | .hbm, ⟨45, _⟩ => ⟨S2000000x1, .i32⟩
  | .hbm, ⟨46, _⟩ => ⟨S2000000x16, .f32⟩
  | .hbm, ⟨47, _⟩ => ⟨S_, .f32⟩
  | .hbm, ⟨48, _⟩ => ⟨S250000x16, .f32⟩
  | .hbm, ⟨49, _⟩ => ⟨S2000000x1, .i32⟩
  | .hbm, ⟨50, _⟩ => ⟨S250000x16, .f32⟩
  | .hbm, ⟨51, _⟩ => ⟨S1x64, .f32⟩
  | .hbm, ⟨52, _⟩ => ⟨S250000x64, .f32⟩
  | .hbm, ⟨53, _⟩ => ⟨S_, .i32⟩
  | .hbm, ⟨54, _⟩ => ⟨S2000000, .i32⟩
  | .hbm, ⟨55, _⟩ => ⟨S2000000, .i1⟩
  | .hbm, ⟨56, _⟩ => ⟨S_, .i32⟩
  | .hbm, ⟨57, _⟩ => ⟨S2000000, .i32⟩
  | .hbm, ⟨58, _⟩ => ⟨S2000000, .i32⟩
  | .hbm, ⟨59, _⟩ => ⟨S2000000, .i32⟩
  | .hbm, ⟨60, _⟩ => ⟨S2000000x1, .i32⟩
  | .hbm, ⟨61, _⟩ => ⟨S2000000x64, .f32⟩
  | .hbm, ⟨62, _⟩ => ⟨S_, .f32⟩
  | .hbm, ⟨63, _⟩ => ⟨S250000x64, .f32⟩
  | .hbm, ⟨64, _⟩ => ⟨S2000000x1, .i32⟩
  | .hbm, ⟨65, _⟩ => ⟨S250000x64, .f32⟩
  | .hbm, ⟨66, _⟩ => ⟨S1x64, .f32⟩
  | .hbm, ⟨67, _⟩ => ⟨S250000x64, .f32⟩
  | .hbm, ⟨68, _⟩ => ⟨S_, .i32⟩
  | .hbm, ⟨69, _⟩ => ⟨S2000000, .i32⟩
  | .hbm, ⟨70, _⟩ => ⟨S2000000, .i1⟩
  | .hbm, ⟨71, _⟩ => ⟨S_, .i32⟩
  | .hbm, ⟨72, _⟩ => ⟨S2000000, .i32⟩
  | .hbm, ⟨73, _⟩ => ⟨S2000000, .i32⟩
  | .hbm, ⟨74, _⟩ => ⟨S2000000, .i32⟩
  | .hbm, ⟨75, _⟩ => ⟨S2000000x1, .i32⟩
  | .hbm, ⟨76, _⟩ => ⟨S2000000x64, .f32⟩
  | .hbm, ⟨77, _⟩ => ⟨S_, .f32⟩
  | .hbm, ⟨78, _⟩ => ⟨S250000x64, .f32⟩
  | .hbm, ⟨79, _⟩ => ⟨S2000000x1, .i32⟩
  | .hbm, ⟨80, _⟩ => ⟨S250000x64, .f32⟩
  | .hbm, ⟨81, _⟩ => ⟨S250000x1, .i32⟩
  | .hbm, ⟨82, _⟩ => ⟨S1x64, .f32⟩
  | .hbm, ⟨83, _⟩ => ⟨S1x1, .f32⟩
  | .hbm, ⟨84, _⟩ => ⟨S64x1, .f32⟩
  | .hbm, ⟨85, _⟩ => ⟨S64, .f32⟩
  | .local _ .vmem, ⟨0, _⟩ => ⟨S10000x16, .f32⟩
  | .local _ .vmem, ⟨1, _⟩ => ⟨S10000x16, .f32⟩
  | .local _ .vmem, ⟨2, _⟩ => ⟨S10000x1, .f32⟩
  | .local _ .vmem, ⟨3, _⟩ => ⟨S10000x1, .f32⟩
  | .local _ .vmem, ⟨4, _⟩ => ⟨S10000x16, .f32⟩
  | .local _ .vmem, ⟨5, _⟩ => ⟨S10000x16, .f32⟩
  | .local _ .vmem, ⟨6, _⟩ => ⟨S16x64, .f32⟩
  | .local _ .vmem, ⟨7, _⟩ => ⟨S1x64, .f32⟩
  | .local _ .vmem, ⟨8, _⟩ => ⟨S16x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S10000x1, .f32⟩
  | .local _ .vmem, ⟨14, _⟩ => ⟨S10000x1, .f32⟩
  | .local _ .vmem, ⟨15, _⟩ => ⟨S10000x64, .f32⟩
  | .local _ .vmem, ⟨16, _⟩ => ⟨S10000x64, .f32⟩
  | .local _ .vmem, ⟨17, _⟩ => ⟨S64x64, .f32⟩
  | .local _ .vmem, ⟨18, _⟩ => ⟨S1x64, .f32⟩
  | .local _ .vmem, ⟨19, _⟩ => ⟨S64x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x64, .f32⟩
  | .local _ .vmem, ⟨24, _⟩ => ⟨S10000x1, .f32⟩
  | .local _ .vmem, ⟨25, _⟩ => ⟨S10000x1, .f32⟩
  | .local _ .vmem, ⟨26, _⟩ => ⟨S10000x64, .f32⟩
  | .local _ .vmem, ⟨27, _⟩ => ⟨S10000x64, .f32⟩
  | .local _ .vmem, ⟨28, _⟩ => ⟨S64x64, .f32⟩
  | .local _ .vmem, ⟨29, _⟩ => ⟨S1x64, .f32⟩
  | .local _ .vmem, ⟨30, _⟩ => ⟨S64x64, .f32⟩
  | .local _ .vmem, ⟨31, _⟩ => ⟨S10000x1, .i32⟩
  | .local _ .vmem, ⟨32, _⟩ => ⟨S10000x1, .i32⟩
  | .local _ .vmem, ⟨33, _⟩ => ⟨S64x1, .f32⟩
  | .local _ .vmem, ⟨34, _⟩ => ⟨S1x1, .f32⟩
  | .local _ .vmem, ⟨35, _⟩ => ⟨S64x1, .f32⟩
  | .local _ .vmem, ⟨36, _⟩ => ⟨S64x64, .f32⟩
  | .local _ .vmem, ⟨37, _⟩ => ⟨S64x1, .f32⟩
  | _, _ => ⟨S250000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_cst_2 : Ref sig .tc := ⟨.hbm, 27, rfl⟩
abbrev main_v10 : Ref sig .tc := ⟨.hbm, 28, rfl⟩
abbrev main_v11 : Ref sig .tc := ⟨.hbm, 29, rfl⟩
abbrev main_cst_3 : Ref sig .tc := ⟨.hbm, 30, rfl⟩
abbrev main_v12 : Ref sig .tc := ⟨.hbm, 31, rfl⟩
abbrev main_v13 : Ref sig .tc := ⟨.hbm, 32, rfl⟩
abbrev main_cst_4 : Ref sig .tc := ⟨.hbm, 33, rfl⟩
abbrev main_call0_v0 : Ref sig .tc := ⟨.hbm, 34, rfl⟩
abbrev main_call0_v1 : Ref sig .tc := ⟨.hbm, 35, rfl⟩
abbrev main_v14 : Ref sig .tc := ⟨.hbm, 36, rfl⟩
abbrev main_v15 : Ref sig .tc := ⟨.hbm, 37, rfl⟩
abbrev main_c : Ref sig .tc := ⟨.hbm, 38, rfl⟩
abbrev main_v16 : Ref sig .tc := ⟨.hbm, 39, rfl⟩
abbrev main_v17 : Ref sig .tc := ⟨.hbm, 40, rfl⟩
abbrev main_c_5 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_cst_6 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_c_7 : Ref sig .tc := ⟨.hbm, 53, rfl⟩
abbrev main_v28 : Ref sig .tc := ⟨.hbm, 54, rfl⟩
abbrev main_v29 : Ref sig .tc := ⟨.hbm, 55, rfl⟩
abbrev main_c_8 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_9 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_c_10 : Ref sig .tc := ⟨.hbm, 68, rfl⟩
abbrev main_v40 : Ref sig .tc := ⟨.hbm, 69, rfl⟩
abbrev main_v41 : Ref sig .tc := ⟨.hbm, 70, rfl⟩
abbrev main_c_11 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_cst_12 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc2_stg7_0 : Ref sig .tc := ⟨.vmem, 33, rfl⟩
abbrev cc2_stg8_0 : Ref sig .tc := ⟨.vmem, 34, rfl⟩
abbrev cc2_stg9_0 : Ref sig .tc := ⟨.vmem, 35, rfl⟩
abbrev cc2_scratch0 : Ref sig .tc := ⟨.vmem, 36, rfl⟩
abbrev cc2_scratch1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32
abbrev cc2_sem7_0 : DmaSem sig := 33
abbrev cc2_sem8_0 : DmaSem sig := 34
abbrev cc2_sem9_0 : DmaSem sig := 35

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S10000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def k2_cond2 (i : grid2.Coords) : BitVec 1 :=
  let arg0 : BitVec 32 := BitVec.ofNat 32 (i 0).val
  let c24_i32 : BitVec 32 := 24#32
  let v40 : BitVec 1 := Scalar.cmpi .eq arg0 c24_i32
  let v41 : BitVec 32 := Scalar.extui v40
  let c0_i32_26 : BitVec 32 := 0#32
  let v42 : BitVec 1 := Scalar.cmpi .ne v41 c0_i32_26
  v42

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S10000x1 .i32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S64x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x1 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S64x1 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

class Facts₀ : Prop where
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  bcast_S_S2000000 : S_.BroadcastsInDim S2000000 (![] : Fin 0 → Fin S2000000.rank)
  bcast_S_S250000 : S_.BroadcastsInDim S250000 (![] : Fin 0 → Fin S250000.rank)
  bcast_S2000000_S2000000x1_0 : S2000000.BroadcastsInDim S2000000x1 (![0] : Fin 1 → Fin S2000000x1.rank)
  shapeCasts_S250000_S250000x1 : S250000.ShapeCasts S250000x1
  bcast_S_S250000x16 : S_.BroadcastsInDim S250000x16 (![] : Fin 0 → Fin S250000x16.rank)
  shapeCasts_S64_S1x64 : S64.ShapeCasts S1x64
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x16 : S10000x1.Broadcasts S10000x16
  inb_S16x64_S16x64_0_0 : ∀ a, (![0, 0] : Fin 2 → Nat) a + S16x64.size a ≤ S16x64.size a
  h_S16x64 : 0 < S16x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  bcast_S_S250000x64 : S_.BroadcastsInDim S250000x64 (![] : Fin 0 → Fin S250000x64.rank)
  shapeCasts_S10000x64_S10000x64 : S10000x64.ShapeCasts S10000x64
  broadcasts_S10000x1_S10000x64 : S10000x1.Broadcasts S10000x64
  inb_S64x64_S64x64_0_0 : ∀ a, (![0, 0] : Fin 2 → Nat) a + S64x64.size a ≤ S64x64.size a
  h_S64x64 : 0 < S64x64.numel
  shapeCasts_S1_S1x1 : S1.ShapeCasts S1x1
  shapeCasts_S64x64_S64x64 : S64x64.ShapeCasts S64x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  iota_S10000x64_d1_w32 : S10000x64.Iotas .tc 32 [1]
  natLt_1_32 : 1 < 32
  broadcasts_S64x1_S64x64 : S64x1.Broadcasts S64x64
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S64x1 : S1x1.Broadcasts S64x1
  shapeCasts_S64x1_S64 : S64x1.ShapeCasts S64
  scatter_S250000_S2000000x1_S2000000_n_0_0_1_wf : ScatterDims.WF S250000 S2000000x1 S2000000 [] [0] [0] 1
  gather_S250000x16_S2000000x1_S2000000x16_1_0_n_n_0_1_116_wf : GatherDims.WF S250000x16 S2000000x1 S2000000x16 [1] [0] [] [0] [] 1 ![1, 16]
  scatter_S250000x16_S2000000x1_S2000000x16_1_0_0_1_wf : ScatterDims.WF S250000x16 S2000000x1 S2000000x16 [1] [0] [0] 1
  dot_S10000x16_S16x64_S10000x64_1_0_0_1_n_n_wf : DotDims.WF S10000x16 S16x64 S10000x64 [1] [0] [0] [1] [] []
  gather_S250000x64_S2000000x1_S2000000x64_1_0_n_n_0_1_164_wf : GatherDims.WF S250000x64 S2000000x1 S2000000x64 [1] [0] [] [0] [] 1 ![1, 64]
  scatter_S250000x64_S2000000x1_S2000000x64_1_0_0_1_wf : ScatterDims.WF S250000x64 S2000000x1 S2000000x64 [1] [0] [0] 1
  dot_S10000x64_S64x64_S10000x64_1_0_0_1_n_n_wf : DotDims.WF S10000x64 S64x64 S10000x64 [1] [0] [0] [1] [] []
  dot_S10000x64_S10000x64_S64x64_0_0_1_1_n_n_wf : DotDims.WF S10000x64 S10000x64 S64x64 [0] [0] [1] [1] [] []
  dot_S10000x64_S10000x1_S64x1_0_0_1_1_n_n_wf : DotDims.WF S10000x64 S10000x1 S64x1 [0] [0] [1] [1] [] []
  dot_S64x64_S64x1_S64x1_1_0_0_1_n_n_wf : DotDims.WF S64x64 S64x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x16.size a ≤ S250000x16.size a
  hwx0_0 : ∀ i : grid0.Coords, EltTy.bits .f32 = 32 ∨ (Rect.block (s := S250000x16) S10000x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S250000x1.size a
  hwx0_1 : ∀ i : grid0.Coords, EltTy.bits .f32 = 32 ∨ (Rect.block (s := S250000x1) S10000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x16.size a ≤ S250000x16.size a
  hwx0_2 : ∀ i : grid0.Coords, EltTy.bits .f32 = 32 ∨ (Rect.block (s := S250000x16) S10000x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x64.size a ≤ S16x64.size a
  hwx0_3 : ∀ i : grid0.Coords, EltTy.bits .f32 = 32 ∨ (Rect.block (s := S16x64) S16x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x64.size a ≤ S16x64.size a
  hwx0_5 : ∀ i : grid0.Coords, EltTy.bits .f32 = 32 ∨ (Rect.block (s := S16x64) S16x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x64.size a ≤ S250000x64.size a
  hwx0_6 : ∀ i : grid0.Coords, EltTy.bits .f32 = 32 ∨ (Rect.block (s := S250000x64) S10000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S250000x64.size a
  hwx1_0 : ∀ i : grid1.Coords, EltTy.bits .f32 = 32 ∨ (Rect.block (s := S250000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S250000x1.size a
  hwx1_1 : ∀ i : grid1.Coords, EltTy.bits .f32 = 32 ∨ (Rect.block (s := S250000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S250000x64.size a
  hwx1_2 : ∀ i : grid1.Coords, EltTy.bits .f32 = 32 ∨ (Rect.block (s := S250000x64) S10000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x64.size a ≤ S250000x64.size a
  hwx1_6 : ∀ i : grid1.Coords, EltTy.bits .f32 = 32 ∨ (Rect.block (s := S250000x64) S10000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S250000x64.size a
  hwx2_0 : ∀ i : grid2.Coords, EltTy.bits .f32 = 32 ∨ (Rect.block (s := S250000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x1.size a ≤ S250000x1.size a
  hwx2_1 : ∀ i : grid2.Coords, EltTy.bits .f32 = 32 ∨ (Rect.block (s := S250000x1) S10000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S250000x64.size a
  hwx2_2 : ∀ i : grid2.Coords, EltTy.bits .f32 = 32 ∨ (Rect.block (s := S250000x64) S10000x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x64.size a ≤ S64x64.size a
  hwx2_5 : ∀ i : grid2.Coords, EltTy.bits .f32 = 32 ∨ (Rect.block (s := S64x64) S64x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S10000x1.size a ≤ S250000x1.size a
  hwx2_6 : ∀ i : grid2.Coords, EltTy.bits .i32 = 32 ∨ (Rect.block (s := S250000x1) S10000x1.size (cc2_transform_6 i) (hinb2_6 i)).WholeWords (EltTy.packing .i32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S64x1.size a ≤ S64x1.size a
  hwx2_7 : ∀ i : grid2.Coords, EltTy.bits .f32 = 32 ∨ (Rect.block (s := S64x1) S64x1.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x1.size a ≤ S1x1.size a
  hwx2_8 : ∀ i : grid2.Coords, EltTy.bits .f32 = 32 ∨ (Rect.block (s := S1x1) S1x1.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S64x1.size a ≤ S64x1.size a
  hwx2_9 : ∀ i : grid2.Coords, EltTy.bits .f32 = 32 ∨ (Rect.block (s := S64x1) S64x1.size (cc2_transform_9 i) (hinb2_9 i)).WholeWords (EltTy.packing .f32)

variable [Facts₀]

def scatter_S250000_S2000000x1_S2000000_n_0_0_1 : ScatterDims S250000 S2000000x1 S2000000 where
  updateWindowDims := []
  insertedWindowDims := [0]
  scatterDimsToOperandDims := [0]
  indexVectorDim := 1
  wf := scatter_S250000_S2000000x1_S2000000_n_0_0_1_wf
def gather_S250000x16_S2000000x1_S2000000x16_1_0_n_n_0_1_116 : GatherDims S250000x16 S2000000x1 S2000000x16 where
  offsetDims := [1]
  collapsedSliceDims := [0]
  operandBatchingDims := []
  startIndicesBatchingDims := []
  startIndexMap := [0]
  indexVectorDim := 1
  sliceSizes := ![1, 16]
  wf := gather_S250000x16_S2000000x1_S2000000x16_1_0_n_n_0_1_116_wf
def scatter_S250000x16_S2000000x1_S2000000x16_1_0_0_1 : ScatterDims S250000x16 S2000000x1 S2000000x16 where
  updateWindowDims := [1]
  insertedWindowDims := [0]
  scatterDimsToOperandDims := [0]
  indexVectorDim := 1
  wf := scatter_S250000x16_S2000000x1_S2000000x16_1_0_0_1_wf
def dot_S10000x16_S16x64_S10000x64_1_0_0_1_n_n : DotDims S10000x16 S16x64 S10000x64 where
  lhsContracting := [1]
  rhsContracting := [0]
  lhsNonContracting := [0]
  rhsNonContracting := [1]
  lhsBatch := []
  rhsBatch := []
  wf := dot_S10000x16_S16x64_S10000x64_1_0_0_1_n_n_wf
def gather_S250000x64_S2000000x1_S2000000x64_1_0_n_n_0_1_164 : GatherDims S250000x64 S2000000x1 S2000000x64 where
  offsetDims := [1]
  collapsedSliceDims := [0]
  operandBatchingDims := []
  startIndicesBatchingDims := []
  startIndexMap := [0]
  indexVectorDim := 1
  sliceSizes := ![1, 64]
  wf := gather_S250000x64_S2000000x1_S2000000x64_1_0_n_n_0_1_164_wf
def scatter_S250000x64_S2000000x1_S2000000x64_1_0_0_1 : ScatterDims S250000x64 S2000000x1 S2000000x64 where
  updateWindowDims := [1]
  insertedWindowDims := [0]
  scatterDimsToOperandDims := [0]
  indexVectorDim := 1
  wf := scatter_S250000x64_S2000000x1_S2000000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S10000x64_S64x64_0_0_1_1_n_n : DotDims S10000x64 S10000x64 S64x64 where
  lhsContracting := [0]
  rhsContracting := [0]
  lhsNonContracting := [1]
  rhsNonContracting := [1]
  lhsBatch := []
  rhsBatch := []
  wf := dot_S10000x64_S10000x64_S64x64_0_0_1_1_n_n_wf
def dot_S10000x64_S10000x1_S64x1_0_0_1_1_n_n : DotDims S10000x64 S10000x1 S64x1 where
  lhsContracting := [0]
  rhsContracting := [0]
  lhsNonContracting := [1]
  rhsNonContracting := [1]
  lhsBatch := []
  rhsBatch := []
  wf := dot_S10000x64_S10000x1_S64x1_0_0_1_1_n_n_wf
def dot_S64x64_S64x1_S64x1_1_0_0_1_n_n : DotDims S64x64 S64x1 S64x1 where
  lhsContracting := [1]
  rhsContracting := [0]
  lhsNonContracting := [0]
  rhsNonContracting := [1]
  lhsBatch := []
  rhsBatch := []
  wf := dot_S64x64_S64x1_S64x1_1_0_0_1_n_n_wf

abbrev win0_0 : Pipeline.Window sig grid0 :=
  Pipeline.Window.ofSpec (Memref.whole main_v25) S10000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S10000x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S16x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S16x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v27) S10000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v37) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S10000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v39) S10000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v49) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S10000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v39) S10000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v51) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg11) S64x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v50) S10000x1.size cc2_transform_6 reads2_6 false false 2 stage2_6 sem2_6
    hrank2 hreads2_6 hinb2_6 nbuf2_6 (Memref.isWhole_whole _) hwx2_6 hstage2_6

abbrev win2_7 : Pipeline.Window sig grid2 :=
  Pipeline.Window.ofSpec (Memref.whole main_arg12) S64x1.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v52) S1x1.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v53) S64x1.size cc2_transform_9 reads2_9 true true 1 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev idle2 : Fin 10 → grid2.Coords → Bool := fun | 0 => fun _ => false | 1 => fun _ => false | 2 => fun _ => false | 3 => fun _ => false | 4 => fun _ => false | 5 => fun _ => false | 6 => fun _ => false | 7 => fun _ => false | 8 => fun _ => false | 9 => fun i => !(k2_cond2 i == 1#1) | ⟨_ + 10, h⟩ => absurd h (Nat.not_lt.2 (Nat.le_add_left _ _))

class Facts : Prop extends Facts₀ where

variable [Facts]
-- ==== ReferenceIdeal.lean ====
abbrev S250000x16 : Shape := ⟨2, ![250000, 16]⟩
abbrev S2x2000000 : Shape := ⟨2, ![2, 2000000]⟩
abbrev S250000 : Shape := ⟨1, ![250000]⟩
abbrev S16x64 : Shape := ⟨2, ![16, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x2000000 : Shape := ⟨2, ![1, 2000000]⟩
abbrev S2000000 : Shape := ⟨1, ![2000000]⟩
abbrev S_ : Shape := ⟨0, ![]⟩
abbrev S2000000x1 : Shape := ⟨2, ![2000000, 1]⟩
abbrev S2000000x16 : Shape := ⟨2, ![2000000, 16]⟩
abbrev S250000x1 : Shape := ⟨2, ![250000, 1]⟩
abbrev S250000x64 : Shape := ⟨2, ![250000, 64]⟩
abbrev S1x64 : Shape := ⟨2, ![1, 64]⟩
abbrev S2000000x64 : Shape := ⟨2, ![2000000, 64]⟩
abbrev S1x1 : Shape := ⟨2, ![1, 1]⟩

abbrev nBuf : Space → Nat
  | .hbm => 130
  | .vmem => 0
  | .smem => 0
  | _ => 0

abbrev hbmTy0_0 (i : Nat) : BufTy := match i % 128 with
  | 0 => ⟨S250000x16, .f32⟩
  | 1 => ⟨S2x2000000, .i32⟩
  | 2 => ⟨S250000, .i32⟩
  | 3 => ⟨S16x64, .f32⟩
  | 4 => ⟨S64, .f32⟩
  | 5 => ⟨S16x64, .f32⟩
  | 6 => ⟨S64x64, .f32⟩
  | 7 => ⟨S64, .f32⟩
  | 8 => ⟨S64x64, .f32⟩
  | 9 => ⟨S64x64, .f32⟩
  | 10 => ⟨S64, .f32⟩
  | 11 => ⟨S64x64, .f32⟩
  | 12 => ⟨S64x1, .f32⟩
  | 13 => ⟨S1, .f32⟩
  | 14 => ⟨S1x2000000, .i32⟩
  | 15 => ⟨S2000000, .i32⟩
  | 16 => ⟨S1x2000000, .i32⟩
  | 17 => ⟨S2000000, .i32⟩
  | 18 => ⟨S_, .f32⟩
  | 19 => ⟨S2000000, .f32⟩
  | 20 => ⟨S_, .f32⟩
  | 21 => ⟨S250000, .f32⟩
  | 22 => ⟨S2000000x1, .i32⟩
  | 23 => ⟨S250000, .f32⟩
  | 24 => ⟨S_, .f32⟩
  | 25 => ⟨S250000, .f32⟩
  | 26 => ⟨S250000, .i1⟩
  | 27 => ⟨S_, .f32⟩
  | 28 => ⟨S250000, .f32⟩
  | 29 => ⟨S250000, .f32⟩
  | 30 => ⟨S_, .f32⟩
  | 31 => ⟨S250000, .f32⟩
  | 32 => ⟨S250000, .f32⟩
  | 33 => ⟨S_, .f32⟩
  | 34 => ⟨S_, .f32⟩
  | 35 => ⟨S250000, .f32⟩
  | 36 => ⟨S250000, .f32⟩
  | 37 => ⟨S_, .i32⟩
  | 38 => ⟨S2000000, .i32⟩
  | 39 => ⟨S2000000, .i1⟩
  | 40 => ⟨S_, .i32⟩
  | 41 => ⟨S2000000, .i32⟩
  | 42 => ⟨S2000000, .i32⟩
  | 43 => ⟨S2000000, .i32⟩
  | 44 => ⟨S2000000x1, .i32⟩
  | 45 => ⟨S2000000x16, .f32⟩
  | 46 => ⟨S_, .f32⟩
  | 47 => ⟨S250000x16, .f32⟩
  | 48 => ⟨S2000000x1, .i32⟩
  | 49 => ⟨S250000x16, .f32⟩
  | 50 => ⟨S250000x1, .f32⟩
  | 51 => ⟨S250000x16, .f32⟩
  | 52 => ⟨S250000x16, .f32⟩
  | 53 => ⟨S250000x64, .f32⟩
  | 54 => ⟨S1x64, .f32⟩
  | 55 => ⟨S250000x64, .f32⟩
  | 56 => ⟨S250000x64, .f32⟩
  | 57 => ⟨S250000x64, .f32⟩
  | 58 => ⟨S250000x64, .f32⟩
  | 59 => ⟨S_, .f32⟩
  | 60 => ⟨S250000x64, .f32⟩
  | 61 => ⟨S250000x64, .f32⟩
  | 62 => ⟨S_, .i32⟩
  | 63 => ⟨S2000000, .i32⟩
  | 64 => ⟨S2000000, .i1⟩
  | 65 => ⟨S_, .i32⟩
  | 66 => ⟨S2000000, .i32⟩
  | 67 => ⟨S2000000, .i32⟩
  | 68 => ⟨S2000000, .i32⟩
  | 69 => ⟨S2000000x1, .i32⟩
  | 70 => ⟨S2000000x64, .f32⟩
  | 71 => ⟨S_, .f32⟩
  | 72 => ⟨S250000x64, .f32⟩
  | 73 => ⟨S2000000x1, .i32⟩
  | 74 => ⟨S250000x64, .f32⟩
  | 75 => ⟨S250000x1, .f32⟩
  | 76 => ⟨S250000x64, .f32⟩
  | 77 => ⟨S250000x64, .f32⟩
  | 78 => ⟨S250000x64, .f32⟩
  | 79 => ⟨S1x64, .f32⟩
  | 80 => ⟨S250000x64, .f32⟩
  | 81 => ⟨S250000x64, .f32⟩
  | 82 => ⟨S250000x64, .f32⟩
  | 83 => ⟨S250000x64, .f32⟩
  | 84 => ⟨S_, .f32⟩
  | 85 => ⟨S250000x64, .f32⟩
  | 86 => ⟨S250000x64, .f32⟩
  | 87 => ⟨S_, .i32⟩
  | 88 => ⟨S2000000, .i32⟩
  | 89 => ⟨S2000000, .i1⟩
  | 90 => ⟨S_, .i32⟩
  | 91 => ⟨S2000000, .i32⟩
  | 92 => ⟨S2000000, .i32⟩
  | 93 => ⟨S2000000, .i32⟩
  | 94 => ⟨S2000000x1, .i32⟩
  | 95 => ⟨S2000000x64, .f32⟩
  | 96 => ⟨S_, .f32⟩
  | 97 => ⟨S250000x64, .f32⟩
  | 98 => ⟨S2000000x1, .i32⟩
  | 99 => ⟨S250000x64, .f32⟩
  | 100 => ⟨S250000x1, .f32⟩
  | 101 => ⟨S250000x64, .f32⟩
  | 102 => ⟨S250000x64, .f32⟩
  | 103 => ⟨S250000x64, .f32⟩
  | 104 => ⟨S1x64, .f32⟩
  | 105 => ⟨S250000x64, .f32⟩
  | 106 => ⟨S250000x64, .f32⟩
  | 107 => ⟨S250000x64, .f32⟩
  | 108 => ⟨S250000x64, .f32⟩
  | 109 => ⟨S_, .f32⟩
  | 110 => ⟨S64x64, .f32⟩
  | 111 => ⟨S250000x1, .i32⟩
  | 112 => ⟨S64x64, .f32⟩
  | 113 => ⟨S_, .f32⟩
  | 114 => ⟨S250000, .f32⟩
  | 115 => ⟨S_, .f32⟩
  | 116 => ⟨S64, .f32⟩
  | 117 => ⟨S250000x1, .i32⟩
  | 118 => ⟨S64, .f32⟩
  | 119 => ⟨S_, .f32⟩
  | 120 => ⟨S64, .f32⟩
  | 121 => ⟨S64, .f32⟩
  | 122 => ⟨S64x1, .f32⟩
  | 123 => ⟨S64x64, .f32⟩
  | 124 => ⟨S64x64, .f32⟩
  | 125 => ⟨S64x1, .f32⟩
  | 126 => ⟨S1x1, .f32⟩
  | 127 => ⟨S64x1, .f32⟩
  | _ => ⟨S250000x16, .f32⟩

abbrev hbmTy0_1 (i : Nat) : BufTy := match i % 128 with
  | 0 => ⟨S64x1, .f32⟩
  | 1 => ⟨S64, .f32⟩
  | _ => ⟨S250000x16, .f32⟩

abbrev hbmTy (i : Nat) : BufTy := match i / 128 with
  | 0 => hbmTy0_0 i
  | 1 => hbmTy0_1 i
  | _ => ⟨S250000x16, .f32⟩

abbrev bufTy : (tb : Table) → Fin (tcTables nBuf tb) → BufTy
  | .hbm, ⟨i, _⟩ => hbmTy i
  | _, _ => ⟨S250000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_cst_2 : Ref sig .tc := ⟨.hbm, 27, rfl⟩
abbrev main_v10 : Ref sig .tc := ⟨.hbm, 28, rfl⟩
abbrev main_v11 : Ref sig .tc := ⟨.hbm, 29, rfl⟩
abbrev main_cst_3 : Ref sig .tc := ⟨.hbm, 30, rfl⟩
abbrev main_v12 : Ref sig .tc := ⟨.hbm, 31, rfl⟩
abbrev main_v13 : Ref sig .tc := ⟨.hbm, 32, rfl⟩
abbrev main_cst_4 : Ref sig .tc := ⟨.hbm, 33, rfl⟩
abbrev main_call0_v0 : Ref sig .tc := ⟨.hbm, 34, rfl⟩
abbrev main_call0_v1 : Ref sig .tc := ⟨.hbm, 35, rfl⟩
abbrev main_v14 : Ref sig .tc := ⟨.hbm, 36, rfl⟩
abbrev main_c : Ref sig .tc := ⟨.hbm, 37, rfl⟩
abbrev main_v15 : Ref sig .tc := ⟨.hbm, 38, rfl⟩
abbrev main_v16 : Ref sig .tc := ⟨.hbm, 39, rfl⟩
abbrev main_c_5 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_6 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_call1_cst : Ref sig .tc := ⟨.hbm, 59, rfl⟩
abbrev main_call1_v0 : Ref sig .tc := ⟨.hbm, 60, rfl⟩
abbrev main_v34 : Ref sig .tc := ⟨.hbm, 61, rfl⟩
abbrev main_c_7 : Ref sig .tc := ⟨.hbm, 62, rfl⟩
abbrev main_v35 : Ref sig .tc := ⟨.hbm, 63, rfl⟩
abbrev main_v36 : Ref sig .tc := ⟨.hbm, 64, rfl⟩
abbrev main_c_8 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_9 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_call2_cst : Ref sig .tc := ⟨.hbm, 84, rfl⟩
abbrev main_call2_v0 : Ref sig .tc := ⟨.hbm, 85, rfl⟩
abbrev main_v54 : Ref sig .tc := ⟨.hbm, 86, rfl⟩
abbrev main_c_10 : Ref sig .tc := ⟨.hbm, 87, rfl⟩
abbrev main_v55 : Ref sig .tc := ⟨.hbm, 88, rfl⟩
abbrev main_v56 : Ref sig .tc := ⟨.hbm, 89, rfl⟩
abbrev main_c_11 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_cst_12 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_cst_13 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_cst_14 : Ref sig .tc := ⟨.hbm, 113, rfl⟩
abbrev main_v77 : Ref sig .tc := ⟨.hbm, 114, rfl⟩
abbrev main_cst_15 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_cst_16 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩

abbrev nD : Nat := 1
abbrev τ : Topo := Topo.v7x

variable {F : FTy → Type} [FloatOps F]

class Facts₀ : Prop where
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  bcast_S_S2000000 : S_.BroadcastsInDim S2000000 (![] : Fin 0 → Fin S2000000.rank)
  bcast_S_S250000 : S_.BroadcastsInDim S250000 (![] : Fin 0 → Fin S250000.rank)
  bcast_S2000000_S2000000x1_0 : S2000000.BroadcastsInDim S2000000x1 (![0] : Fin 1 → Fin S2000000x1.rank)
  bcast_S_S250000x16 : S_.BroadcastsInDim S250000x16 (![] : Fin 0 → Fin S250000x16.rank)
  bcast_S250000_S250000x1_0 : S250000.BroadcastsInDim S250000x1 (![0] : Fin 1 → Fin S250000x1.rank)
  bcast_S250000x1_S250000x16_0_1 : S250000x1.BroadcastsInDim S250000x16 (![0, 1] : Fin 2 → Fin S250000x16.rank)
  bcast_S64_S1x64_1 : S64.BroadcastsInDim S1x64 (![1] : Fin 1 → Fin S1x64.rank)
  bcast_S1x64_S250000x64_0_1 : S1x64.BroadcastsInDim S250000x64 (![0, 1] : Fin 2 → Fin S250000x64.rank)
  bcast_S_S250000x64 : S_.BroadcastsInDim S250000x64 (![] : Fin 0 → Fin S250000x64.rank)
  bcast_S250000x1_S250000x64_0_1 : S250000x1.BroadcastsInDim S250000x64 (![0, 1] : Fin 2 → Fin S250000x64.rank)
  bcast_S_S64x64 : S_.BroadcastsInDim S64x64 (![] : Fin 0 → Fin S64x64.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  shapeCasts_S64x1_S64 : S64x1.ShapeCasts S64
  scatter_S250000_S2000000x1_S2000000_n_0_0_1_wf : ScatterDims.WF S250000 S2000000x1 S2000000 [] [0] [0] 1
  gather_S250000x16_S2000000x1_S2000000x16_1_0_n_n_0_1_116_wf : GatherDims.WF S250000x16 S2000000x1 S2000000x16 [1] [0] [] [0] [] 1 ![1, 16]
  scatter_S250000x16_S2000000x1_S2000000x16_1_0_0_1_wf : ScatterDims.WF S250000x16 S2000000x1 S2000000x16 [1] [0] [0] 1
  dot_S250000x16_S16x64_S250000x64_1_0_0_1_n_n_wf : DotDims.WF S250000x16 S16x64 S250000x64 [1] [0] [0] [1] [] []
  gather_S250000x64_S2000000x1_S2000000x64_1_0_n_n_0_1_164_wf : GatherDims.WF S250000x64 S2000000x1 S2000000x64 [1] [0] [] [0] [] 1 ![1, 64]
  scatter_S250000x64_S2000000x1_S2000000x64_1_0_0_1_wf : ScatterDims.WF S250000x64 S2000000x1 S2000000x64 [1] [0] [0] 1
  dot_S250000x64_S64x64_S250000x64_1_0_0_1_n_n_wf : DotDims.WF S250000x64 S64x64 S250000x64 [1] [0] [0] [1] [] []
  scatter_S64x64_S250000x1_S250000x64_1_0_0_1_wf : ScatterDims.WF S64x64 S250000x1 S250000x64 [1] [0] [0] 1
  scatter_S64_S250000x1_S250000_n_0_0_1_wf : ScatterDims.WF S64 S250000x1 S250000 [] [0] [0] 1
  dot_S64x64_S64x1_S64x1_1_0_0_1_n_n_wf : DotDims.WF S64x64 S64x1 S64x1 [1] [0] [0] [1] [] []

variable [Facts₀]

def scatter_S250000_S2000000x1_S2000000_n_0_0_1 : ScatterDims S250000 S2000000x1 S2000000 where
  updateWindowDims := []
  insertedWindowDims := [0]
  scatterDimsToOperandDims := [0]
  indexVectorDim := 1
  wf := scatter_S250000_S2000000x1_S2000000_n_0_0_1_wf
def gather_S250000x16_S2000000x1_S2000000x16_1_0_n_n_0_1_116 : GatherDims S250000x16 S2000000x1 S2000000x16 where
  offsetDims := [1]
  collapsedSliceDims := [0]
  operandBatchingDims := []
  startIndicesBatchingDims := []
  startIndexMap := [0]
  indexVectorDim := 1
  sliceSizes := ![1, 16]
  wf := gather_S250000x16_S2000000x1_S2000000x16_1_0_n_n_0_1_116_wf
def scatter_S250000x16_S2000000x1_S2000000x16_1_0_0_1 : ScatterDims S250000x16 S2000000x1 S2000000x16 where
  updateWindowDims := [1]
  insertedWindowDims := [0]
  scatterDimsToOperandDims := [0]
  indexVectorDim := 1
  wf := scatter_S250000x16_S2000000x1_S2000000x16_1_0_0_1_wf
def dot_S250000x16_S16x64_S250000x64_1_0_0_1_n_n : DotDims S250000x16 S16x64 S250000x64 where
  lhsContracting := [1]
  rhsContracting := [0]
  lhsNonContracting := [0]
  rhsNonContracting := [1]
  lhsBatch := []
  rhsBatch := []
  wf := dot_S250000x16_S16x64_S250000x64_1_0_0_1_n_n_wf
def gather_S250000x64_S2000000x1_S2000000x64_1_0_n_n_0_1_164 : GatherDims S250000x64 S2000000x1 S2000000x64 where
  offsetDims := [1]
  collapsedSliceDims := [0]
  operandBatchingDims := []
  startIndicesBatchingDims := []
  startIndexMap := [0]
  indexVectorDim := 1
  sliceSizes := ![1, 64]
  wf := gather_S250000x64_S2000000x1_S2000000x64_1_0_n_n_0_1_164_wf
def scatter_S250000x64_S2000000x1_S2000000x64_1_0_0_1 : ScatterDims S250000x64 S2000000x1 S2000000x64 where
  updateWindowDims := [1]
  insertedWindowDims := [0]
  scatterDimsToOperandDims := [0]
  indexVectorDim := 1
  wf := scatter_S250000x64_S2000000x1_S2000000x64_1_0_0_1_wf
def dot_S250000x64_S64x64_S250000x64_1_0_0_1_n_n : DotDims S250000x64 S64x64 S250000x64 where
  lhsContracting := [1]
  rhsContracting := [0]
  lhsNonContracting := [0]
  rhsNonContracting := [1]
  lhsBatch := []
  rhsBatch := []
  wf := dot_S250000x64_S64x64_S250000x64_1_0_0_1_n_n_wf
def scatter_S64x64_S250000x1_S250000x64_1_0_0_1 : ScatterDims S64x64 S250000x1 S250000x64 where
  updateWindowDims := [1]
  insertedWindowDims := [0]
  scatterDimsToOperandDims := [0]
  indexVectorDim := 1
  wf := scatter_S64x64_S250000x1_S250000x64_1_0_0_1_wf
def scatter_S64_S250000x1_S250000_n_0_0_1 : ScatterDims S64 S250000x1 S250000 where
  updateWindowDims := []
  insertedWindowDims := [0]
  scatterDimsToOperandDims := [0]
  indexVectorDim := 1
  wf := scatter_S64_S250000x1_S250000_n_0_0_1_wf
def dot_S64x64_S64x1_S64x1_1_0_0_1_n_n : DotDims S64x64 S64x1 S64x1 where
  lhsContracting := [1]
  rhsContracting := [0]
  lhsNonContracting := [0]
  rhsNonContracting := [1]
  lhsBatch := []
  rhsBatch := []
  wf := dot_S64x64_S64x1_S64x1_1_0_0_1_n_n_wf

class Facts : Prop extends Facts₀ where

variable [Facts]
-- ==== Proof.Kernel.Region0.lean ====
/-
  The first-layer update as a pipelined region, at any contents `V` of the core's buffers when the region is entered.
  At grid point t the body reads rows 10000·t … 10000·t + 9999 of the aggregated messages, of the inverse degrees and of the
  node features, and the whole of both weight matrices and of the bias row; it writes the same rows of the result:
  max((msg · dinv) W_l + b + x W_r, 0). Every input block is left in place, the output block is stored whole, nothing is
  carried from one point to the next, so what the region leaves in the result array is decided block by block.
-/
import proofs.«429062_j38955353375020_2_alg».proof.Proof.Gen.Kernel.Launch
import proofs.«429062_j38955353375020_2_alg».proof.Proof.Gen.Kernel.Skeleton
import proofs.«429062_j38955353375020_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the point fetched it or not, for any
    proof data over these arrays whose body leaves the block in place: one statement per window, at the window's number. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- The whole of each buffer, as the rectangle the body loads and stores through. -/
abbrev r0_x : Rect S10000x16 := Rect.unit (s := S10000x16) ![0, 0] S10000x16.size inb_S10000x16_S10000x16_0_0
abbrev r0_d : Rect S10000x1 := Rect.unit (s := S10000x1) ![0, 0] S10000x1.size inb_S10000x1_S10000x1_0_0
abbrev r0_w : Rect S16x64 := Rect.unit (s := S16x64) ![0, 0] S16x64.size inb_S16x64_S16x64_0_0
abbrev r0_b : Rect S1x64 := Rect.unit (s := S1x64) ![0, 0] S1x64.size inb_S1x64_S1x64_0_0
abbrev r0_o : Rect S10000x64 := Rect.unit (s := S10000x64) ![0, 0] S10000x64.size inb_S10000x64_S10000x64_0_0

/-- What the body leaves in the output window's staging buffer, from the six input blocks: its one store. -/
def out0_6 (x0 : Vec F S10000x16 .f32) (x1 : Vec F S10000x1 .f32) (x2 : Vec F S10000x16 .f32) (x3 : Vec F S16x64 .f32) (x4 : Vec F S1x64 .f32) (x5 : Vec F S16x64 .f32) :
    Vec F S10000x64 .f32 :=
  View.canon [⟨r0_o, k0_pay1 (View.ld x0 r0_x) (View.ld x1 r0_d) (View.ld x3 r0_w) (View.ld x4 r0_b) (View.ld x2 r0_x) (View.ld x5 r0_w)⟩]

/-- The one store covers the buffer. -/
theorem cover0_6 (p0 : Vec F S10000x64 .f32) (y : S10000x64.Idx) :
    ∃ pc ∈ ([⟨r0_o, p0⟩] : List (View.Piece (Elt F) S10000x64 .f32)), y ∈ pc.1.set :=
  View.cover_of_tiled [⟨r0_o, p0⟩] S10000x64.size (by rfl) y

set_option maxHeartbeats 4000000 in
/-- The body on whole staging buffers, the inputs' at contents `x0 … x5` and the output's at anything: it runs, leaves the
    inputs as they were and the output at `out0_6` of them. -/
theorem sound_kernel0 (c : Dev nD) (E : Set ℕ) (i : grid0.Coords)
    (arg1 : Memref sig .tc .vmem S10000x16 .f32) (harg1 : arg1.IsWhole) (arg2 : Memref sig .tc .vmem S10000x1 .f32) (harg2 : arg2.IsWhole)
    (arg3 : Memref sig .tc .vmem S10000x16 .f32) (harg3 : arg3.IsWhole) (arg4 : Memref sig .tc .vmem S16x64 .f32) (harg4 : arg4.IsWhole)
    (arg5 : Memref sig .tc .vmem S1x64 .f32) (harg5 : arg5.IsWhole) (arg6 : Memref sig .tc .vmem S16x64 .f32) (harg6 : arg6.IsWhole)
    (arg7 : Memref sig .tc .vmem S10000x64 .f32) (harg7 : arg7.IsWhole)
    (x0 : Vec F S10000x16 .f32) (x1 : Vec F S10000x1 .f32) (x2 : Vec F S10000x16 .f32) (x3 : Vec F S16x64 .f32) (x4 : Vec F S1x64 .f32) (x5 : Vec F S16x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5)) -∗ K ⟨⟩))
      ⊢ wp frame (wpE (defs₀ (F := F)) Variants.none c none) E
          (cc0__sage_update_kernel i arg1 harg1 arg2 harg2 arg3 harg3 arg4 harg4 arg5 harg5 arg6 harg6 arg7 harg7) K := by
  simp only [cc0__sage_update_kernel_eq_skeleton]; unfold cc0__sage_update_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-- The proof data of this region on core `c`: the arrays as the region finds them; after the body at point `t` each input's
    buffer at its block and the output's at `out0_6` of the input blocks; nothing kept between points beyond what the
    pipeline itself keeps; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t
    = out0_6 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 4000000 in
/-- The body at any point: the inputs' buffers hold their blocks, so `sound_kernel0` applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of this region, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Fr

end
-- ==== Proof.Kernel.Region1.lean ====
/-
  The second-layer update as a pipelined region, at any contents `V` of the core's buffers when the region is entered.
  At grid point t the body reads rows 10000·t … 10000·t + 9999 of the aggregated messages, of the inverse degrees and of the
  node features, and the whole of both weight matrices and of the bias row; it writes the same rows of the result:
  max((msg · dinv) W_l + b + x W_r, 0). Every input block is left in place, the output block is stored whole, nothing is
  carried from one point to the next, so what the region leaves in the result array is decided block by block.
-/
import proofs.«429062_j38955353375020_2_alg».proof.Proof.Gen.Kernel.Launch
import proofs.«429062_j38955353375020_2_alg».proof.Proof.Gen.Kernel.Skeleton
import proofs.«429062_j38955353375020_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the point fetched it or not, for any
    proof data over these arrays whose body leaves the block in place: one statement per window, at the window's number. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The whole of each buffer, as the rectangle the body loads and stores through. -/
abbrev r1_x : Rect S10000x64 := Rect.unit (s := S10000x64) ![0, 0] S10000x64.size inb_S10000x64_S10000x64_0_0
abbrev r1_d : Rect S10000x1 := Rect.unit (s := S10000x1) ![0, 0] S10000x1.size inb_S10000x1_S10000x1_0_0
abbrev r1_w : Rect S64x64 := Rect.unit (s := S64x64) ![0, 0] S64x64.size inb_S64x64_S64x64_0_0
abbrev r1_b : Rect S1x64 := Rect.unit (s := S1x64) ![0, 0] S1x64.size inb_S1x64_S1x64_0_0
abbrev r1_o : Rect S10000x64 := Rect.unit (s := S10000x64) ![0, 0] S10000x64.size inb_S10000x64_S10000x64_0_0

/-- What the body leaves in the output window's staging buffer, from the six input blocks: its one store. -/
def out1_6 (x0 : Vec F S10000x64 .f32) (x1 : Vec F S10000x1 .f32) (x2 : Vec F S10000x64 .f32) (x3 : Vec F S64x64 .f32) (x4 : Vec F S1x64 .f32) (x5 : Vec F S64x64 .f32) :
    Vec F S10000x64 .f32 :=
  View.canon [⟨r1_o, k1_pay1 (View.ld x0 r1_x) (View.ld x1 r1_d) (View.ld x3 r1_w) (View.ld x4 r1_b) (View.ld x2 r1_x) (View.ld x5 r1_w)⟩]

/-- The one store covers the buffer. -/
theorem cover1_6 (p0 : Vec F S10000x64 .f32) (y : S10000x64.Idx) :
    ∃ pc ∈ ([⟨r1_o, p0⟩] : List (View.Piece (Elt F) S10000x64 .f32)), y ∈ pc.1.set :=
  View.cover_of_tiled [⟨r1_o, p0⟩] S10000x64.size (by rfl) y

set_option maxHeartbeats 4000000 in
/-- The body on whole staging buffers, the inputs' at contents `x0 … x5` and the output's at anything: it runs, leaves the
    inputs as they were and the output at `out1_6` of them. -/
theorem sound_kernel1 (c : Dev nD) (E : Set ℕ) (i : grid1.Coords)
    (arg1 : Memref sig .tc .vmem S10000x64 .f32) (harg1 : arg1.IsWhole) (arg2 : Memref sig .tc .vmem S10000x1 .f32) (harg2 : arg2.IsWhole)
    (arg3 : Memref sig .tc .vmem S10000x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S64x64 .f32) (harg6 : arg6.IsWhole)
    (arg7 : Memref sig .tc .vmem S10000x64 .f32) (harg7 : arg7.IsWhole)
    (x0 : Vec F S10000x64 .f32) (x1 : Vec F S10000x1 .f32) (x2 : Vec F S10000x64 .f32) (x3 : Vec F S64x64 .f32) (x4 : Vec F S1x64 .f32) (x5 : Vec F S64x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4 x5)) -∗ K ⟨⟩))
      ⊢ wp frame (wpE (defs₀ (F := F)) Variants.none c none) E
          (cc1__sage_update_kernel i arg1 harg1 arg2 harg2 arg3 harg3 arg4 harg4 arg5 harg5 arg6 harg6 arg7 harg7) K := by
  simp only [cc1__sage_update_kernel_eq_skeleton]; unfold cc1__sage_update_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-- The proof data of this region on core `c`: the arrays as the region finds them; after the body at point `t` each input's
    buffer at its block and the output's at `out1_6` of the input blocks; nothing kept between points beyond what the
    pipeline itself keeps; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t
    = out1_6 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

set_option maxHeartbeats 4000000 in
/-- The body at any point: the inputs' buffers hold their blocks, so `sound_kernel1` applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of this region, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Fr

end
-- ==== Proof.Kernel.Region2Data.lean ====
/-
  The pooling-and-head kernel as a pipelined region, at any contents `V` of the core's buffers when the region is entered:
  what it keeps from one grid point to the next, and the proof data of its pipeline.
  At point t the body forms the last layer's rows 10000·t … 10000·t + 9999, h2 = (msg · dinv) W_l + b + h W_r, and the
  one-hot matrix of those rows' graph ids against 0 … 63, and adds onehotᵀ h2 to a 64 × 64 accumulator and onehotᵀ 1 to a
  64 × 1 counter, both kept in scratch buffers of its own: reset to zero at the first point, carried unchanged between
  points. At the last point it divides the accumulator's rows by max(count, 1), multiplies by the head's weights, adds the
  head's bias and stores the 64 × 1 result; at every other point the result's buffer is left as found.
-/
import proofs.«429062_j38955353375020_2_alg».proof.Proof.Gen.Kernel.Launch
import proofs.«429062_j38955353375020_2_alg».proof.Proof.Gen.Kernel.Skeleton
import proofs.«429062_j38955353375020_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The accumulator after one more tile: the tile's last-layer rows, pooled by the one-hot of its graph ids, added to `a`. -/
def accStep2 (x0 : Vec F S10000x64 .f32) (x1 : Vec F S10000x1 .f32) (x2 : Vec F S10000x64 .f32) (x3 : Vec F S64x64 .f32) (x4 : Vec F S1x64 .f32)
    (x5 : Vec F S64x64 .f32) (x6 : Vec F S10000x1 .i32) (a : Vec F S64x64 .f32) : Vec F S64x64 .f32 :=
  k2_pay7 x0 x1 x3 x4 x2 x5 x6 a

/-- The counter after one more tile: the number of the tile's rows in each graph, added to `n`. -/
def cntStep2 (x6 : Vec F S10000x1 .i32) (n : Vec F S64x1 .f32) : Vec F S64x1 .f32 :=
  k2_pay1 (k2_pay5 x6) (k2_pay6 (F := F)) n

/-- The head on the finished sums: the accumulator's rows over max(count, 1), times the head's weights, plus its bias. -/
def head2 (a : Vec F S64x64 .f32) (n : Vec F S64x1 .f32) (x7 : Vec F S64x1 .f32) (x8 : Vec F S1x1 .f32) : Vec F S64x1 .f32 :=
  k2_pay2 a n x7 x8

/-- What the two scratch buffers hold after the body at position `n`: from zero at the first point, one tile more at each. -/
def sumsAt2 (c : Dev nD) : (n : ℕ) → n < cfg2.N → Vec F S64x64 .f32 × Vec F S64x1 .f32
  | 0, hn =>
    (accStep2 (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩)
        (iblk2 V c 6 ⟨0, hn⟩) (k2_pay3 (F := F)),
      cntStep2 (iblk2 V c 6 ⟨0, hn⟩) (k2_pay4 (F := F)))
  | n + 1, hn =>
    (accStep2 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩)
        (iblk2 V c 5 ⟨n + 1, hn⟩) (iblk2 V c 6 ⟨n + 1, hn⟩) (sumsAt2 c n (Nat.lt_of_succ_lt hn)).1,
      cntStep2 (iblk2 V c 6 ⟨n + 1, hn⟩) (sumsAt2 c n (Nat.lt_of_succ_lt hn)).2)

theorem sumsAt2_zero (c : Dev nD) (hn : 0 < cfg2.N) : sumsAt2 V c 0 hn =
    (accStep2 (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩)
        (iblk2 V c 6 ⟨0, hn⟩) (k2_pay3 (F := F)),
      cntStep2 (iblk2 V c 6 ⟨0, hn⟩) (k2_pay4 (F := F))) := rfl

theorem sumsAt2_succ (c : Dev nD) (n : ℕ) (hn : n + 1 < cfg2.N) : sumsAt2 V c (n + 1) hn =
    (accStep2 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩)
        (iblk2 V c 5 ⟨n + 1, hn⟩) (iblk2 V c 6 ⟨n + 1, hn⟩) (sumsAt2 V c n (Nat.lt_of_succ_lt hn)).1,
      cntStep2 (iblk2 V c 6 ⟨n + 1, hn⟩) (sumsAt2 V c n (Nat.lt_of_succ_lt hn)).2) := rfl

/-- The two scratch buffers of the kernel's own, whole. -/
abbrev scM2_0 : Memref sig .tc .vmem S64x64 .f32 := Memref.whole cc2_scratch0
abbrev scM2_1 : Memref sig .tc .vmem S64x1 .f32 := Memref.whole cc2_scratch1

/-- The core's scoped buffers that are neither a staging buffer of this region nor one of its two scratch buffers, each
    whole at some contents: the other two regions' staging buffers, which this region never touches. -/
def others2 (c : Dev nD) : sProp 𝕄 :=
  Pipeline.scopedRestBut (Ix := Unit) (Name := ℕ) (U := UR sig nD τ) (Lvl := ℕ) (Val := Elt F) spec2 c [cc2_scratch0, cc2_scratch1]

/-- The region's invariant before position `n`: before the first point what the launch hands every region; afterwards the
    untouched scoped buffers, the two scratch buffers at the sums the point before left, and the generator register. -/
def PhiS2 (c : Dev nD) : (n : ℕ) → n ≤ cfg2.N → sProp 𝕄
  | 0, _ => Pipeline.ΦA spec2 c
  | n + 1, hn => iprop(iprop(others2 (F := F) c ∗ owns (c : Thread nD τ) scM2_0 fullShare (sumsAt2 V c n hn).1
      ∗ owns (c : Thread nD τ) scM2_1 fullShare (sumsAt2 V c n hn).2) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(others2 (F := F) c ∗ owns (c : Thread nD τ) scM2_0 fullShare (sumsAt2 V c n hn).1
      ∗ owns (c : Thread nD τ) scM2_1 fullShare (sumsAt2 V c n hn).2) ∗ (∃ r, prngReg c r)) := rfl

theorem PhiS2_pos (c : Dev nD) (n : ℕ) (h : n ≤ cfg2.N) (hz : n ≠ 0) :
    PhiS2 V c n h = iprop(iprop(others2 (F := F) c ∗ owns (c : Thread nD τ) scM2_0 fullShare (sumsAt2 V c (n - 1) (by omega)).1
      ∗ owns (c : Thread nD τ) scM2_1 fullShare (sumsAt2 V c (n - 1) (by omega)).2) ∗ (∃ r, prngReg c r)) := by
  cases n with
  | zero => exact absurd rfl hz
  | succ n => rfl

/-- The proof data of this region on core `c`: the arrays as the region finds them; after the body at point `t` each input's
    buffer at its block, and the result's at the head of the sums so far (stored, and consulted, at the last point only);
    between points the invariant above; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => head2 (sumsAt2 V c t.val t.isLt).1 (sumsAt2 V c t.val t.isLt).2 (iblk2 V c 7 t) (iblk2 V c 8 t)
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t
    = head2 (sumsAt2 V c t.val t.isLt).1 (sumsAt2 V c t.val t.isLt).2 (iblk2 V c 7 t) (iblk2 V c 8 t) := by dsimp only [dat2]

end Region2

end Cert.Kernel.Fr

end
-- ==== Proof.Kernel.Fold.lean ====
/-
  The contents of the core's buffers at every boundary between two items of @main, as a fold from the launch memory:
  a stretch of host operations applies them; a kernel region leaves its arrays at what its pipeline's write-backs make of
  them and every other buffer as it was.
    W0 launch · W1, W2, W3 after the three host stretches before the first region (W3: region 0's entry) ·
    W4 after region 0 · W5 after the next host stretch (region 1's entry) · W6 after region 1 ·
    W7 (region 2's entry) · W8 after region 2 · W9 after the closing reshape: the program's end.
-/
import proofs.«429062_j38955353375020_2_alg».proof.Proof.Kernel.Region0
import proofs.«429062_j38955353375020_2_alg».proof.Proof.Kernel.Region1
import proofs.«429062_j38955353375020_2_alg».proof.Proof.Kernel.Region2Data

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev W0 : Dev nD → Valuation τ sig (Elt F) := fun c b => m ((c : Dev nD), b)
abbrev W1 : Dev nD → Valuation τ sig (Elt F) := fun c => StableHlo.after hostOps0 (W0 m c)
abbrev W2 : Dev nD → Valuation τ sig (Elt F) := fun c => StableHlo.after hostOps0_1 (W1 m c)
/-- Region 0's entry. -/
abbrev W3 : Dev nD → Valuation τ sig (Elt F) := fun c => StableHlo.after hostOps0_2 (W2 m c)
abbrev V3 : (c : Dev nD) → (b : Ref sig .tc) → Buf (Elt F) ((c : Thread nD τ).loc b) := fun c b => W3 m c b

/-- At region 0's exit: its arrays at what the pipeline leaves (the inputs as entered, each output's write-backs folded),
    every other buffer as entered. -/
def W4 (c : Dev nD) : Valuation τ sig (Elt F) :=
  Pipeline.withArrays spec0 c (W3 m c) fun w => (dat0 (V3 m) c).arrAt w cfg0.N
theorem W4_arr (c : Dev nD) (w : Fin cfg0.W) :
    W4 m c (Proc.devRef .tc (Pipeline.arrRef spec0 w)) = (dat0 (V3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
/-- The same read at the TensorCore's references. -/
abbrev V4 : (c : Dev nD) → (b : Ref sig .tc) → Buf (Elt F) ((c : Thread nD τ).loc b) := fun c b => W4 m c b
theorem hF0 (c : Dev nD) (w : Fin cfg0.W) : (dat0 (V3 m) c).arrAt w cfg0.N = V4 m c (Pipeline.arrRef spec0 w) :=
  (W4_arr m c w).symm
theorem hrest0 (c : Dev nD) : ∀ b, b ∉ Finset.univ.image (Pipeline.arrRef spec0) → V4 m c b = V3 m c b :=
  fun b hb => W4_of_ne m c b fun w e => hb (Finset.mem_image.mpr ⟨w, Finset.mem_univ _, e⟩)

/-- Region 1's entry. -/
abbrev W5 : Dev nD → Valuation τ sig (Elt F) := fun c => StableHlo.after hostOps1 (W4 m c)
abbrev V5 : (c : Dev nD) → (b : Ref sig .tc) → Buf (Elt F) ((c : Thread nD τ).loc b) := fun c b => W5 m c b

/-- At region 1's exit: its arrays at what the pipeline leaves (the inputs as entered, each output's write-backs folded),
    every other buffer as entered. -/
def W6 (c : Dev nD) : Valuation τ sig (Elt F) :=
  Pipeline.withArrays spec1 c (W5 m c) fun w => (dat1 (V5 m) c).arrAt w cfg1.N
theorem W6_arr (c : Dev nD) (w : Fin cfg1.W) :
    W6 m c (Proc.devRef .tc (Pipeline.arrRef spec1 w)) = (dat1 (V5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
/-- The same read at the TensorCore's references. -/
abbrev V6 : (c : Dev nD) → (b : Ref sig .tc) → Buf (Elt F) ((c : Thread nD τ).loc b) := fun c b => W6 m c b
theorem hF1 (c : Dev nD) (w : Fin cfg1.W) : (dat1 (V5 m) c).arrAt w cfg1.N = V6 m c (Pipeline.arrRef spec1 w) :=
  (W6_arr m c w).symm
theorem hrest1 (c : Dev nD) : ∀ b, b ∉ Finset.univ.image (Pipeline.arrRef spec1) → V6 m c b = V5 m c b :=
  fun b hb => W6_of_ne m c b fun w e => hb (Finset.mem_image.mpr ⟨w, Finset.mem_univ _, e⟩)

/-- Region 2's entry. -/
abbrev W7 : Dev nD → Valuation τ sig (Elt F) := fun c => StableHlo.after hostOps2 (W6 m c)
abbrev V7 : (c : Dev nD) → (b : Ref sig .tc) → Buf (Elt F) ((c : Thread nD τ).loc b) := fun c b => W7 m c b

/-- At region 2's exit: its arrays at what the pipeline leaves (the inputs as entered, each output's write-backs folded),
    every other buffer as entered. -/
def W8 (c : Dev nD) : Valuation τ sig (Elt F) :=
  Pipeline.withArrays spec2 c (W7 m c) fun w => (dat2 (V7 m) c).arrAt w cfg2.N
theorem W8_arr (c : Dev nD) (w : Fin cfg2.W) :
    W8 m c (Proc.devRef .tc (Pipeline.arrRef spec2 w)) = (dat2 (V7 m) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) := by
  unfold W8; exact Pipeline.withArrays_of_ne spec2 c _ _ b hb
/-- The same read at the TensorCore's references. -/
abbrev V8 : (c : Dev nD) → (b : Ref sig .tc) → Buf (Elt F) ((c : Thread nD τ).loc b) := fun c b => W8 m c b
theorem hF2 (c : Dev nD) (w : Fin cfg2.W) : (dat2 (V7 m) c).arrAt w cfg2.N = V8 m c (Pipeline.arrRef spec2 w) :=
  (W8_arr m c w).symm
theorem hrest2 (c : Dev nD) : ∀ b, b ∉ Finset.univ.image (Pipeline.arrRef spec2) → V8 m c b = V7 m c b :=
  fun b hb => W8_of_ne m c b fun w e => hb (Finset.mem_image.mpr ⟨w, Finset.mem_univ _, e⟩)

/-- The program's end. -/
abbrev W9 : Dev nD → Valuation τ sig (Elt F) := fun c => StableHlo.after hostOps3 (W8 m c)

end Cert.Kernel.Fr

end
-- ==== Proof.Kernel.FoldArgs.lean ====
/-
  Every argument of the program ends holding what it was launched with: read at an argument's buffer, the fold of the
  buffer contents through the host stretches and the three regions (W0 … W9) collapses to the launch memory.
-/
import proofs.«429062_j38955353375020_2_alg».proof.Proof.Kernel.Fold
import proofs.«429062_j38955353375020_2_alg».proof.Proof.Gen.Kernel.Regions

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## One boundary back

A stretch of host operations changes only the buffers its operations write; a region changes only its result's array:
an input window's array is read block by block and never written back, and a buffer that is no window's array is not
touched at all. -/

theorem W1_of (c : Dev nD) (r : Ref sig .tc) (h : r ∉ hostOps0_W) :
    W1 m c (Proc.devRef .tc r) = W0 m c (Proc.devRef .tc r) :=
  StableHlo.after_of_writes_sub hostOps0 _ hostOps0_writes h
theorem W2_of (c : Dev nD) (r : Ref sig .tc) (h : r ∉ hostOps0_1_W) :
    W2 m c (Proc.devRef .tc r) = W1 m c (Proc.devRef .tc r) :=
  StableHlo.after_of_writes_sub hostOps0_1 _ hostOps0_1_writes h
theorem W3_of (c : Dev nD) (r : Ref sig .tc) (h : r ∉ hostOps0_2_W) :
    W3 m c (Proc.devRef .tc r) = W2 m c (Proc.devRef .tc r) :=
  StableHlo.after_of_writes_sub hostOps0_2 _ hostOps0_2_writes h
theorem W5_of (c : Dev nD) (r : Ref sig .tc) (h : r ∉ hostOps1_W) :
    W5 m c (Proc.devRef .tc r) = W4 m c (Proc.devRef .tc r) :=
  StableHlo.after_of_writes_sub hostOps1 _ hostOps1_writes h
theorem W7_of (c : Dev nD) (r : Ref sig .tc) (h : r ∉ hostOps2_W) :
    W7 m c (Proc.devRef .tc r) = W6 m c (Proc.devRef .tc r) :=
  StableHlo.after_of_writes_sub hostOps2 _ hostOps2_writes h
theorem W9_of (c : Dev nD) (r : Ref sig .tc) (h : r ∉ hostOps3_W) :
    W9 m c (Proc.devRef .tc r) = W8 m c (Proc.devRef .tc r) :=
  StableHlo.after_of_writes_sub hostOps3 _ hostOps3_writes h

/-- The first region leaves an input window's array as it found it. -/
theorem W4_in (c : Dev nD) (w : Fin cfg0.W) (hin : (cfg0.win w).isOut = false) :
    W4 m c (Proc.devRef .tc (Pipeline.arrRef spec0 w)) = W3 m c (Proc.devRef .tc (Pipeline.arrRef spec0 w)) :=
  (W4_arr m c w).trans (((dat0 (V3 m) c).arrAt_in w hin _).trans (A_eq0 (V3 m) c w))
/-- The second region leaves an input window's array as it found it. -/
theorem W6_in (c : Dev nD) (w : Fin cfg1.W) (hin : (cfg1.win w).isOut = false) :
    W6 m c (Proc.devRef .tc (Pipeline.arrRef spec1 w)) = W5 m c (Proc.devRef .tc (Pipeline.arrRef spec1 w)) :=
  (W6_arr m c w).trans (((dat1 (V5 m) c).arrAt_in w hin _).trans (A_eq1 (V5 m) c w))
/-- The third region leaves an input window's array as it found it. -/
theorem W8_in (c : Dev nD) (w : Fin cfg2.W) (hin : (cfg2.win w).isOut = false) :
    W8 m c (Proc.devRef .tc (Pipeline.arrRef spec2 w)) = W7 m c (Proc.devRef .tc (Pipeline.arrRef spec2 w)) :=
  (W8_arr m c w).trans (((dat2 (V7 m) c).arrAt_in w hin _).trans (A_eq2 (V7 m) c w))

/-! ## The arguments end as launched

No host operation writes an argument, and a region reads an argument, if at all, through an input window; so at an
argument's buffer the fold walks back, boundary by boundary, to the launch memory. -/

/-- The node features: the first region reads them through its third window. -/
theorem W9_main_arg0 (c : Dev nD) : W9 m c (Proc.devRef .tc main_arg0) = m ((c : Thread nD τ).loc main_arg0) :=
  (W9_of m c main_arg0 (by decide)).trans <| (W8_of_ne m c main_arg0 (by decide)).trans <|
  (W7_of m c main_arg0 (by decide)).trans <| (W6_of_ne m c main_arg0 (by decide)).trans <|
  (W5_of m c main_arg0 (by decide)).trans <| (W4_in m c 2 rfl).trans <|
  (W3_of m c main_arg0 (by decide)).trans <| (W2_of m c main_arg0 (by decide)).trans <| W1_of m c main_arg0 (by decide)

/-- The edge list: only host operations read it. -/
theorem W9_main_arg1 (c : Dev nD) : W9 m c (Proc.devRef .tc main_arg1) = m ((c : Thread nD τ).loc main_arg1) :=
  (W9_of m c main_arg1 (by decide)).trans <| (W8_of_ne m c main_arg1 (by decide)).trans <|
  (W7_of m c main_arg1 (by decide)).trans <| (W6_of_ne m c main_arg1 (by decide)).trans <|
  (W5_of m c main_arg1 (by decide)).trans <| (W4_of_ne m c main_arg1 (by decide)).trans <|
  (W3_of m c main_arg1 (by decide)).trans <| (W2_of m c main_arg1 (by decide)).trans <| W1_of m c main_arg1 (by decide)

/-- The graph ids: the third region reads a reshaped copy, never the argument itself. -/
theorem W9_main_arg2 (c : Dev nD) : W9 m c (Proc.devRef .tc main_arg2) = m ((c : Thread nD τ).loc main_arg2) :=
  (W9_of m c main_arg2 (by decide)).trans <| (W8_of_ne m c main_arg2 (by decide)).trans <|
  (W7_of m c main_arg2 (by decide)).trans <| (W6_of_ne m c main_arg2 (by decide)).trans <|
  (W5_of m c main_arg2 (by decide)).trans <| (W4_of_ne m c main_arg2 (by decide)).trans <|
  (W3_of m c main_arg2 (by decide)).trans <| (W2_of m c main_arg2 (by decide)).trans <| W1_of m c main_arg2 (by decide)

/-- The first layer's neighbour weights: the first region's fourth window. -/
theorem W9_main_arg3 (c : Dev nD) : W9 m c (Proc.devRef .tc main_arg3) = m ((c : Thread nD τ).loc main_arg3) :=
  (W9_of m c main_arg3 (by decide)).trans <| (W8_of_ne m c main_arg3 (by decide)).trans <|
  (W7_of m c main_arg3 (by decide)).trans <| (W6_of_ne m c main_arg3 (by decide)).trans <|
  (W5_of m c main_arg3 (by decide)).trans <| (W4_in m c 3 rfl).trans <|
  (W3_of m c main_arg3 (by decide)).trans <| (W2_of m c main_arg3 (by decide)).trans <| W1_of m c main_arg3 (by decide)

/-- The first layer's bias: the first region reads a reshaped copy. -/
theorem W9_main_arg4 (c : Dev nD) : W9 m c (Proc.devRef .tc main_arg4) = m ((c : Thread nD τ).loc main_arg4) :=
  (W9_of m c main_arg4 (by decide)).trans <| (W8_of_ne m c main_arg4 (by decide)).trans <|
  (W7_of m c main_arg4 (by decide)).trans <| (W6_of_ne m c main_arg4 (by decide)).trans <|
  (W5_of m c main_arg4 (by decide)).trans <| (W4_of_ne m c main_arg4 (by decide)).trans <|
  (W3_of m c main_arg4 (by decide)).trans <| (W2_of m c main_arg4 (by decide)).trans <| W1_of m c main_arg4 (by decide)

/-- The first layer's self weights: the first region's sixth window. -/
theorem W9_main_arg5 (c : Dev nD) : W9 m c (Proc.devRef .tc main_arg5) = m ((c : Thread nD τ).loc main_arg5) :=
  (W9_of m c main_arg5 (by decide)).trans <| (W8_of_ne m c main_arg5 (by decide)).trans <|
  (W7_of m c main_arg5 (by decide)).trans <| (W6_of_ne m c main_arg5 (by decide)).trans <|
  (W5_of m c main_arg5 (by decide)).trans <| (W4_in m c 5 rfl).trans <|
  (W3_of m c main_arg5 (by decide)).trans <| (W2_of m c main_arg5 (by decide)).trans <| W1_of m c main_arg5 (by decide)

/-- The second layer's neighbour weights: the second region's fourth window. -/
theorem W9_main_arg6 (c : Dev nD) : W9 m c (Proc.devRef .tc main_arg6) = m ((c : Thread nD τ).loc main_arg6) :=
  (W9_of m c main_arg6 (by decide)).trans <| (W8_of_ne m c main_arg6 (by decide)).trans <|
  (W7_of m c main_arg6 (by decide)).trans <| (W6_in m c 3 rfl).trans <|
  (W5_of m c main_arg6 (by decide)).trans <| (W4_of_ne m c main_arg6 (by decide)).trans <|
  (W3_of m c main_arg6 (by decide)).trans <| (W2_of m c main_arg6 (by decide)).trans <| W1_of m c main_arg6 (by decide)

/-- The second layer's bias: the second region reads a reshaped copy. -/
theorem W9_main_arg7 (c : Dev nD) : W9 m c (Proc.devRef .tc main_arg7) = m ((c : Thread nD τ).loc main_arg7) :=
  (W9_of m c main_arg7 (by decide)).trans <| (W8_of_ne m c main_arg7 (by decide)).trans <|
  (W7_of m c main_arg7 (by decide)).trans <| (W6_of_ne m c main_arg7 (by decide)).trans <|
  (W5_of m c main_arg7 (by decide)).trans <| (W4_of_ne m c main_arg7 (by decide)).trans <|
  (W3_of m c main_arg7 (by decide)).trans <| (W2_of m c main_arg7 (by decide)).trans <| W1_of m c main_arg7 (by decide)

/-- The second layer's self weights: the second region's sixth window. -/
theorem W9_main_arg8 (c : Dev nD) : W9 m c (Proc.devRef .tc main_arg8) = m ((c : Thread nD τ).loc main_arg8) :=
  (W9_of m c main_arg8 (by decide)).trans <| (W8_of_ne m c main_arg8 (by decide)).trans <|
  (W7_of m c main_arg8 (by decide)).trans <| (W6_in m c 5 rfl).trans <|
  (W5_of m c main_arg8 (by decide)).trans <| (W4_of_ne m c main_arg8 (by decide)).trans <|
  (W3_of m c main_arg8 (by decide)).trans <| (W2_of m c main_arg8 (by decide)).trans <| W1_of m c main_arg8 (by decide)

/-- The third layer's neighbour weights: the third region's fourth window. -/
theorem W9_main_arg9 (c : Dev nD) : W9 m c (Proc.devRef .tc main_arg9) = m ((c : Thread nD τ).loc main_arg9) :=
  (W9_of m c main_arg9 (by decide)).trans <| (W8_in m c 3 rfl).trans <|
  (W7_of m c main_arg9 (by decide)).trans <| (W6_of_ne m c main_arg9 (by decide)).trans <|
  (W5_of m c main_arg9 (by decide)).trans <| (W4_of_ne m c main_arg9 (by decide)).trans <|
  (W3_of m c main_arg9 (by decide)).trans <| (W2_of m c main_arg9 (by decide)).trans <| W1_of m c main_arg9 (by decide)

/-- The third layer's bias: the third region reads a reshaped copy. -/
theorem W9_main_arg10 (c : Dev nD) : W9 m c (Proc.devRef .tc main_arg10) = m ((c : Thread nD τ).loc main_arg10) :=
  (W9_of m c main_arg10 (by decide)).trans <| (W8_of_ne m c main_arg10 (by decide)).trans <|
  (W7_of m c main_arg10 (by decide)).trans <| (W6_of_ne m c main_arg10 (by decide)).trans <|
  (W5_of m c main_arg10 (by decide)).trans <| (W4_of_ne m c main_arg10 (by decide)).trans <|
  (W3_of m c main_arg10 (by decide)).trans <| (W2_of m c main_arg10 (by decide)).trans <| W1_of m c main_arg10 (by decide)

/-- The third layer's self weights: the third region's sixth window. -/
theorem W9_main_arg11 (c : Dev nD) : W9 m c (Proc.devRef .tc main_arg11) = m ((c : Thread nD τ).loc main_arg11) :=
  (W9_of m c main_arg11 (by decide)).trans <| (W8_in m c 5 rfl).trans <|
  (W7_of m c main_arg11 (by decide)).trans <| (W6_of_ne m c main_arg11 (by decide)).trans <|
  (W5_of m c main_arg11 (by decide)).trans <| (W4_of_ne m c main_arg11 (by decide)).trans <|
  (W3_of m c main_arg11 (by decide)).trans <| (W2_of m c main_arg11 (by decide)).trans <| W1_of m c main_arg11 (by decide)

/-- The head's weights: the third region's eighth window. -/
theorem W9_main_arg12 (c : Dev nD) : W9 m c (Proc.devRef .tc main_arg12) = m ((c : Thread nD τ).loc main_arg12) :=
  (W9_of m c main_arg12 (by decide)).trans <| (W8_in m c 7 rfl).trans <|
  (W7_of m c main_arg12 (by decide)).trans <| (W6_of_ne m c main_arg12 (by decide)).trans <|
  (W5_of m c main_arg12 (by decide)).trans <| (W4_of_ne m c main_arg12 (by decide)).trans <|
  (W3_of m c main_arg12 (by decide)).trans <| (W2_of m c main_arg12 (by decide)).trans <| W1_of m c main_arg12 (by decide)

/-- The head's bias: the third region reads a reshaped copy. -/
theorem W9_main_arg13 (c : Dev nD) : W9 m c (Proc.devRef .tc main_arg13) = m ((c : Thread nD τ).loc main_arg13) :=
  (W9_of m c main_arg13 (by decide)).trans <| (W8_of_ne m c main_arg13 (by decide)).trans <|
  (W7_of m c main_arg13 (by decide)).trans <| (W6_of_ne m c main_arg13 (by decide)).trans <|
  (W5_of m c main_arg13 (by decide)).trans <| (W4_of_ne m c main_arg13 (by decide)).trans <|
  (W3_of m c main_arg13 (by decide)).trans <| (W2_of m c main_arg13 (by decide)).trans <| W1_of m c main_arg13 (by decide)

end Cert.Kernel.Fr

end
-- ==== Proof.Kernel.Region2Runs.lean ====
/-
  The pooling-and-head kernel's body as three runs, one per control case of its two branches on the grid coordinate.
  The body resets the two sums (a 64 × 64 accumulator and a 64 × 1 counter, kept in two buffers of its own) at the
  first point, then at every point adds the tile's pooled last-layer rows to the accumulator and the tile's one-hot column
  counts to the counter, and at the last point stores the head of the finished sums into the result's buffer.
  Each run is stated on whole buffers at named contents: the nine inputs are read and left as they were, the two sums are
  left one tile further, and the result's buffer is either left as found (first and middle points) or filled (last point).
-/
import proofs.«429062_j38955353375020_2_alg».proof.Proof.Kernel.Region2Data
import Idealize.ShloMosaic.Lib.Pipeline.Value

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first branch condition (the reset of the two sums), from the grid coordinates. -/
abbrev cond2_0 (i : grid2.Coords) : Prop :=
  (Scalar.cmpi .ne (Scalar.extui (Scalar.cmpi .eq (BitVec.ofNat 32 (i 0).val) 0#32)) 0#32) = 1#1
/-- It holds at the first of the 25 points only. -/
theorem hcond2_0 : ∀ t : Fin cfg2.N, cond2_0 (grid2.coords t) ↔ t.val % 25 = 0 :=
  (by decide +kernel : ∀ t : Fin grid2.N, cond2_0 (grid2.coords t) ↔ t.val % 25 = 0)
/-- The body's second branch condition (the head's store), from the grid coordinates. -/
abbrev cond2_1 (i : grid2.Coords) : Prop := k2_cond2 i = 1#1
/-- It holds at the last of the 25 points only. -/
theorem hcond2_1 : ∀ t : Fin cfg2.N, cond2_1 (grid2.coords t) ↔ t.val % 25 = 24 :=
  (by decide +kernel : ∀ t : Fin grid2.N, cond2_1 (grid2.coords t) ↔ t.val % 25 = 24)

section Whole
variable {Val : EltTy → Type} [∀ e, Nonempty (Val e)] {S : Shape} {e : EltTy} {κ : Kind} {sp : Space}

/-- The offsets `![0, 0]` are the zero offsets. -/
theorem hz2 : (![0, 0] : Fin 2 → Nat) = fun _ => 0 := funext fun a => by fin_cases a <;> rfl

/-- A load of a whole buffer, through the rectangle of the buffer's own extents at zero offsets, reads its contents. -/
theorem readAt_unit_zero (v : View sig κ sp S e) (f : v.ty.Contents Val) {off : Fin S.rank → Nat} (h : off = fun _ => 0)
    (inb : ∀ a, off a + S.size a ≤ S.size a) :
    v.readAt Val (Rect.unit off S.size inb).toLoadRect f = v.read Val f := by
  rw [View.readAt_eq_ld, View.ld_unit_zero h]

/-- After a store through that rectangle, whatever was stored before it, the buffer reads as the stored value. -/
theorem read_writes_cons_unit_zero (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩),
    View.canon_cons_unit_zero h]

end Whole

set_option maxHeartbeats 4000000 in
/-- The first point: whatever the two sums' buffers held, the body zeroes them and adds this tile; the result's buffer is
    not touched. -/
theorem sound_kernel2_A (c : Dev nD) (E : Set ℕ) (i : grid2.Coords) (hc0 : cond2_0 i) (hc1 : ¬cond2_1 i)
    (arg1 : Memref sig .tc .vmem S10000x64 .f32) (harg1 : arg1.IsWhole) (arg2 : Memref sig .tc .vmem S10000x1 .f32) (harg2 : arg2.IsWhole)
    (arg3 : Memref sig .tc .vmem S10000x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S64x64 .f32) (harg6 : arg6.IsWhole)
    (arg7 : Memref sig .tc .vmem S10000x1 .i32) (harg7 : arg7.IsWhole) (arg8 : Memref sig .tc .vmem S64x1 .f32) (harg8 : arg8.IsWhole)
    (arg9 : Memref sig .tc .vmem S1x1 .f32) (harg9 : arg9.IsWhole) (arg10 : Memref sig .tc .vmem S64x1 .f32) (harg10 : arg10.IsWhole)
    (arg11 : Memref sig .tc .vmem S64x64 .f32) (harg11 : arg11.IsWhole) (arg12 : Memref sig .tc .vmem S64x1 .f32) (harg12 : arg12.IsWhole)
    (x0 : Vec F S10000x64 .f32) (x1 : Vec F S10000x1 .f32) (x2 : Vec F S10000x64 .f32) (x3 : Vec F S64x64 .f32) (x4 : Vec F S1x64 .f32)
    (x5 : Vec F S64x64 .f32) (x6 : Vec F S10000x1 .i32) (x7 : Vec F S64x1 .f32) (x8 : Vec F S1x1 .f32)
    (y : Vec F S64x1 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ owns (c : Thread nD τ) arg10 fullShare y ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
            ∗ owns (c : Thread nD τ) arg10 fullShare y ∗ owns (c : Thread nD τ) arg11 fullShare (accStep2 x0 x1 x2 x3 x4 x5 x6 (k2_pay3 (F := F)))
            ∗ owns (c : Thread nD τ) arg12 fullShare (cntStep2 x6 (k2_pay4 (F := F)))) -∗ K ⟨⟩))
      ⊢ wp frame (wpE (defs₀ (F := F)) Variants.none c none) E
          (cc2__pool_head_kernel i arg1 harg1 arg2 harg2 arg3 harg3 arg4 harg4 arg5 harg5 arg6 harg6 arg7 harg7 arg8 harg8 arg9 harg9 arg10 harg10 arg11 harg11 arg12 harg12) K := by
  simp only [cc2__pool_head_kernel_eq_skeleton]; unfold cc2__pool_head_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, Hk⟩
  subst hf0; subst hf1; subst hf2; subst hf3; subst hf4; subst hf5; subst hf6; subst hf7; subst hf8; subst hf9
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    sl_unfold_words
    rw [read_writes_cons_unit_zero (S := S64x64) _ _ hz2]
    dsimp only
    rw [readAt_unit_zero arg1.view f0 hz2, readAt_unit_zero arg2.view f1 hz2, readAt_unit_zero arg3.view f2 hz2, readAt_unit_zero arg4.view f3 hz2,
      readAt_unit_zero arg5.view f4 hz2, readAt_unit_zero arg6.view f5 hz2, readAt_unit_zero arg7.view f6 hz2]
    rw [View.readCov_unit_zero (S := S64x64) _ hz2]
    rfl
  iexists _; isplitr
  swap; · iexact H11
  ipureintro
  sl_unfold_words
  rw [read_writes_cons_unit_zero (S := S64x1) _ _ hz2]
  dsimp only
  rw [readAt_unit_zero arg7.view f6 hz2, View.readCov_unit_zero (S := S64x1) _ hz2]
  rfl

set_option maxHeartbeats 4000000 in
/-- A middle point: the two sums' buffers, at `a` and `n`, are each left one tile further; the result's buffer is not touched. -/
theorem sound_kernel2_B (c : Dev nD) (E : Set ℕ) (i : grid2.Coords) (hc0 : ¬cond2_0 i) (hc1 : ¬cond2_1 i)
    (arg1 : Memref sig .tc .vmem S10000x64 .f32) (harg1 : arg1.IsWhole) (arg2 : Memref sig .tc .vmem S10000x1 .f32) (harg2 : arg2.IsWhole)
    (arg3 : Memref sig .tc .vmem S10000x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S64x64 .f32) (harg6 : arg6.IsWhole)
    (arg7 : Memref sig .tc .vmem S10000x1 .i32) (harg7 : arg7.IsWhole) (arg8 : Memref sig .tc .vmem S64x1 .f32) (harg8 : arg8.IsWhole)
    (arg9 : Memref sig .tc .vmem S1x1 .f32) (harg9 : arg9.IsWhole) (arg10 : Memref sig .tc .vmem S64x1 .f32) (harg10 : arg10.IsWhole)
    (arg11 : Memref sig .tc .vmem S64x64 .f32) (harg11 : arg11.IsWhole) (arg12 : Memref sig .tc .vmem S64x1 .f32) (harg12 : arg12.IsWhole)
    (x0 : Vec F S10000x64 .f32) (x1 : Vec F S10000x1 .f32) (x2 : Vec F S10000x64 .f32) (x3 : Vec F S64x64 .f32) (x4 : Vec F S1x64 .f32)
    (x5 : Vec F S64x64 .f32) (x6 : Vec F S10000x1 .i32) (x7 : Vec F S64x1 .f32) (x8 : Vec F S1x1 .f32)
    (y : Vec F S64x1 .f32) (a : Vec F S64x64 .f32) (n : Vec F S64x1 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ owns (c : Thread nD τ) arg10 fullShare y ∗ owns (c : Thread nD τ) arg11 fullShare a ∗ owns (c : Thread nD τ) arg12 fullShare n
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
            ∗ owns (c : Thread nD τ) arg10 fullShare y ∗ owns (c : Thread nD τ) arg11 fullShare (accStep2 x0 x1 x2 x3 x4 x5 x6 a)
            ∗ owns (c : Thread nD τ) arg12 fullShare (cntStep2 x6 n)) -∗ K ⟨⟩))
      ⊢ wp frame (wpE (defs₀ (F := F)) Variants.none c none) E
          (cc2__pool_head_kernel i arg1 harg1 arg2 harg2 arg3 harg3 arg4 harg4 arg5 harg5 arg6 harg6 arg7 harg7 arg8 harg8 arg9 harg9 arg10 harg10 arg11 harg11 arg12 harg12) K := by
  simp only [cc2__pool_head_kernel_eq_skeleton]; unfold cc2__pool_head_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  subst hf0; subst hf1; subst hf2; subst hf3; subst hf4; subst hf5; subst hf6; subst hf7; subst hf8; subst hf9; subst hf10; subst hf11
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    rw [read_writes_cons_unit_zero (S := S64x64) _ _ hz2]
    dsimp only
    rw [readAt_unit_zero arg1.view f0 hz2, readAt_unit_zero arg2.view f1 hz2, readAt_unit_zero arg3.view f2 hz2, readAt_unit_zero arg4.view f3 hz2,
      readAt_unit_zero arg5.view f4 hz2, readAt_unit_zero arg6.view f5 hz2, readAt_unit_zero arg7.view f6 hz2]
    rw [readAt_unit_zero arg11.view f10 hz2]
    rfl
  iexists _; isplitr
  swap; · iexact H11
  ipureintro
  rw [read_writes_cons_unit_zero (S := S64x1) _ _ hz2]
  dsimp only
  rw [readAt_unit_zero arg7.view f6 hz2, readAt_unit_zero arg12.view f11 hz2]
  rfl

set_option maxHeartbeats 4000000 in
/-- The last point: the two sums are left one tile further and the result's buffer, whatever it held, is left at the head of
    those finished sums. -/
theorem sound_kernel2_C (c : Dev nD) (E : Set ℕ) (i : grid2.Coords) (hc0 : ¬cond2_0 i) (hc1 : cond2_1 i)
    (arg1 : Memref sig .tc .vmem S10000x64 .f32) (harg1 : arg1.IsWhole) (arg2 : Memref sig .tc .vmem S10000x1 .f32) (harg2 : arg2.IsWhole)
    (arg3 : Memref sig .tc .vmem S10000x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S64x64 .f32) (harg6 : arg6.IsWhole)
    (arg7 : Memref sig .tc .vmem S10000x1 .i32) (harg7 : arg7.IsWhole) (arg8 : Memref sig .tc .vmem S64x1 .f32) (harg8 : arg8.IsWhole)
    (arg9 : Memref sig .tc .vmem S1x1 .f32) (harg9 : arg9.IsWhole) (arg10 : Memref sig .tc .vmem S64x1 .f32) (harg10 : arg10.IsWhole)
    (arg11 : Memref sig .tc .vmem S64x64 .f32) (harg11 : arg11.IsWhole) (arg12 : Memref sig .tc .vmem S64x1 .f32) (harg12 : arg12.IsWhole)
    (x0 : Vec F S10000x64 .f32) (x1 : Vec F S10000x1 .f32) (x2 : Vec F S10000x64 .f32) (x3 : Vec F S64x64 .f32) (x4 : Vec F S1x64 .f32)
    (x5 : Vec F S64x64 .f32) (x6 : Vec F S10000x1 .i32) (x7 : Vec F S64x1 .f32) (x8 : Vec F S1x1 .f32)
    (a : Vec F S64x64 .f32) (n : Vec F S64x1 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ (∃ d, owns (c : Thread nD τ) arg10 fullShare d) ∗ owns (c : Thread nD τ) arg11 fullShare a ∗ owns (c : Thread nD τ) arg12 fullShare n
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
            ∗ owns (c : Thread nD τ) arg10 fullShare (head2 (accStep2 x0 x1 x2 x3 x4 x5 x6 a) (cntStep2 x6 n) x7 x8) ∗ owns (c : Thread nD τ) arg11 fullShare (accStep2 x0 x1 x2 x3 x4 x5 x6 a)
            ∗ owns (c : Thread nD τ) arg12 fullShare (cntStep2 x6 n)) -∗ K ⟨⟩))
      ⊢ wp frame (wpE (defs₀ (F := F)) Variants.none c none) E
          (cc2__pool_head_kernel i arg1 harg1 arg2 harg2 arg3 harg3 arg4 harg4 arg5 harg5 arg6 harg6 arg7 harg7 arg8 harg8 arg9 harg9 arg10 harg10 arg11 harg11 arg12 harg12) K := by
  simp only [cc2__pool_head_kernel_eq_skeleton]; unfold cc2__pool_head_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, Hk⟩
  subst hf0; subst hf1; subst hf2; subst hf3; subst hf4; subst hf5; subst hf6; subst hf7; subst hf8; subst hf10; subst hf11
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    sl_unfold_words
    rw [read_writes_cons_unit_zero (S := S64x1) _ _ hz2]
    rw [View.readCov_unit_zero (S := S64x64) _ hz2, View.readCov_unit_zero (S := S64x1) _ hz2]
    dsimp only
    rw [readAt_unit_zero arg1.view f0 hz2, readAt_unit_zero arg2.view f1 hz2, readAt_unit_zero arg3.view f2 hz2, readAt_unit_zero arg4.view f3 hz2,
      readAt_unit_zero arg5.view f4 hz2, readAt_unit_zero arg6.view f5 hz2, readAt_unit_zero arg7.view f6 hz2]
    rw [readAt_unit_zero arg8.view f7 hz2, readAt_unit_zero arg9.view f8 hz2, readAt_unit_zero arg11.view f10 hz2, readAt_unit_zero arg12.view f11 hz2]
    rfl
  isplitl [H10]
  · iexists _; isplitr
    swap; · iexact H10
    ipureintro
    sl_unfold_words
    rw [read_writes_cons_unit_zero (S := S64x64) _ _ hz2]
    dsimp only
    rw [readAt_unit_zero arg1.view f0 hz2, readAt_unit_zero arg2.view f1 hz2, readAt_unit_zero arg3.view f2 hz2, readAt_unit_zero arg4.view f3 hz2,
      readAt_unit_zero arg5.view f4 hz2, readAt_unit_zero arg6.view f5 hz2, readAt_unit_zero arg7.view f6 hz2]
    rw [readAt_unit_zero arg11.view f10 hz2]
    rfl
  iexists _; isplitr
  swap; · iexact H11
  ipureintro
  sl_unfold_words
  rw [read_writes_cons_unit_zero (S := S64x1) _ _ hz2]
  dsimp only
  rw [readAt_unit_zero arg7.view f6 hz2, readAt_unit_zero arg12.view f11 hz2]
  rfl

end Cert.Kernel.Fr

end
-- ==== Proof.Kernel.Region2.lean ====
/-
  The pooling-and-head region's body obligation: at every grid point the body, handed the invariant before the point and
  every window's current buffer, runs and hands back the invariant after the point and every buffer at what the proof data
  says (the result's buffer untouched at every point but the last).
-/
import proofs.«429062_j38955353375020_2_alg».proof.Proof.Kernel.Region2Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

/-- An input window's current staging buffer holds its block at every point, whether the point fetched it or not, for any
    proof data over these arrays whose body leaves the block in place: one statement per window, at the window's number. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d

/-- The nine input windows are live at every point. -/
theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
theorem liveAt2_3 : ∀ t : Fin cfg2.N, cfg2.idle 3 (grid2.coords t) = false := fun _ => rfl
theorem liveAt2_4 : ∀ t : Fin cfg2.N, cfg2.idle 4 (grid2.coords t) = false := fun _ => rfl
theorem liveAt2_5 : ∀ t : Fin cfg2.N, cfg2.idle 5 (grid2.coords t) = false := fun _ => rfl
theorem liveAt2_6 : ∀ t : Fin cfg2.N, cfg2.idle 6 (grid2.coords t) = false := fun _ => rfl
theorem liveAt2_7 : ∀ t : Fin cfg2.N, cfg2.idle 7 (grid2.coords t) = false := fun _ => rfl
theorem liveAt2_8 : ∀ t : Fin cfg2.N, cfg2.idle 8 (grid2.coords t) = false := fun _ => rfl
/-- Away from the last point the result's window is idle and its block is not written back; -/
theorem idleAt2_9 : ∀ t : Fin cfg2.N, ¬cond2_1 (grid2.coords t) → cfg2.idle 9 (grid2.coords t) = true := by decide +kernel
theorem noFlush2_9 : ∀ t : Fin cfg2.N, ¬cond2_1 (grid2.coords t) → (cfg2.win 9).flush t = false := by decide +kernel
/-- at the last point it is live. -/
theorem liveAt2_9 : ∀ t : Fin cfg2.N, cond2_1 (grid2.coords t) → cfg2.idle 9 (grid2.coords t) = false := by decide +kernel

/-- What the launch hands the region, with the two buffers of the sums split off the core's other scoped buffers: each of
    the two whole at some contents, the others unopened, and the generator register. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ others2 (F := F) c) ∗ (∃ r, prngReg c r)) := by
  unfold Pipeline.ΦA others2
  rw [Pipeline.scopedRest_split_of_list spec2 c [cc2_scratch0, cc2_scratch1] (by decide) (by decide)]
  simp only [bigSepL, scM2_0, scM2_1, owns_whole]; try rfl

/-- The sums after the first point: zero plus the first tile. -/
theorem sumsAt2_first (c : Dev nD) (t : Fin cfg2.N) (hz : t.val = 0) : sumsAt2 V c t.val t.isLt =
    (accStep2 (iblk2 V c 0 t) (iblk2 V c 1 t) (iblk2 V c 2 t) (iblk2 V c 3 t) (iblk2 V c 4 t) (iblk2 V c 5 t) (iblk2 V c 6 t) (k2_pay3 (F := F)),
      cntStep2 (iblk2 V c 6 t) (k2_pay4 (F := F))) := by
  obtain ⟨n, hn⟩ := t
  cases n with
  | zero => rfl
  | succ n => exact absurd hz (Nat.succ_ne_zero n)

/-- The sums after any later point: the point before's plus this tile. -/
theorem sumsAt2_step (c : Dev nD) (t : Fin cfg2.N) (hz : t.val ≠ 0) : sumsAt2 V c t.val t.isLt =
    (accStep2 (iblk2 V c 0 t) (iblk2 V c 1 t) (iblk2 V c 2 t) (iblk2 V c 3 t) (iblk2 V c 4 t) (iblk2 V c 5 t) (iblk2 V c 6 t)
        (sumsAt2 V c (t.val - 1) (Nat.lt_of_le_of_lt (Nat.sub_le _ _) t.isLt)).1,
      cntStep2 (iblk2 V c 6 t) (sumsAt2 V c (t.val - 1) (Nat.lt_of_le_of_lt (Nat.sub_le _ _) t.isLt)).2) := by
  obtain ⟨n, hn⟩ := t
  cases n with
  | zero => exact absurd rfl hz
  | succ n => rfl

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t
    ∗ (dat2 V c).leavesExact 9 t)

set_option maxHeartbeats 8000000 in
/-- The body at any point. The inputs' buffers hold their blocks; the point is the first, the last, or neither, which
    decides the body's two branches; the invariant hands over the two sums' buffers (at anything at the first point, at the
    point before's sums afterwards) and takes them back at this point's sums; the result's buffer is handed back as found
    except at the last point, where it is left at the head of the finished sums; what the core owes passes through. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8]
  rw [show (dat2 V c).owesAt () t.succ = (dat2 V c).owesAt () t.castSucc from rfl]
  rw [show (dat2 V c).Φ t.succ = PhiS2 V c (t.val + 1) t.isLt from rfl, PhiS2_succ]
  have hN : t.val < 25 := lt_of_lt_of_eq t.isLt (show cfg2.N = 25 from N_2)
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  rw [show (dat2 V c).leavesExact 2 t = owns (c : Thread nD τ) (st2_2 t) fullShare ((dat2 V c).after 2 t) from by
    unfold Dat.leavesExact; rw [liveAt2_2 t], after2_2]
  rw [show (dat2 V c).leavesExact 3 t = owns (c : Thread nD τ) (st2_3 t) fullShare ((dat2 V c).after 3 t) from by
    unfold Dat.leavesExact; rw [liveAt2_3 t], after2_3]
  rw [show (dat2 V c).leavesExact 4 t = owns (c : Thread nD τ) (st2_4 t) fullShare ((dat2 V c).after 4 t) from by
    unfold Dat.leavesExact; rw [liveAt2_4 t], after2_4]
  rw [show (dat2 V c).leavesExact 5 t = owns (c : Thread nD τ) (st2_5 t) fullShare ((dat2 V c).after 5 t) from by
    unfold Dat.leavesExact; rw [liveAt2_5 t], after2_5]
  rw [show (dat2 V c).leavesExact 6 t = owns (c : Thread nD τ) (st2_6 t) fullShare ((dat2 V c).after 6 t) from by
    unfold Dat.leavesExact; rw [liveAt2_6 t], after2_6]
  rw [show (dat2 V c).leavesExact 7 t = owns (c : Thread nD τ) (st2_7 t) fullShare ((dat2 V c).after 7 t) from by
    unfold Dat.leavesExact; rw [liveAt2_7 t], after2_7]
  rw [show (dat2 V c).leavesExact 8 t = owns (c : Thread nD τ) (st2_8 t) fullShare ((dat2 V c).after 8 t) from by
    unfold Dat.leavesExact; rw [liveAt2_8 t], after2_8]
  by_cases h0 : t.val % 25 = 0
  · have hz : t.val = 0 := by omega
    have h1 : ¬t.val % 25 = 24 := by omega
    have hc0 : cond2_0 (grid2.coords t) := (hcond2_0 t).mpr h0
    have hc1 : ¬cond2_1 (grid2.coords t) := fun h => h1 ((hcond2_1 t).mp h)
    rw [Dat.leavesExact_idle (dat2 V c) 9 t (idleAt2_9 t hc1) (noFlush2_9 t hc1)]
    rw [sumsAt2_first V c t hz]; dsimp only
    rw [PhiS2_castSucc V c t, PhiS2_zero V c _ _ hz, PhiA2_eq]
    iintro ⟨⟨⟨⟨HS0, HS1⟩, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (sound_kernel2_A c Set.univ (grid2.coords t) hc0 hc1 _ _ _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS0]; · iexact HS0
    isplitl [HS1]; · iexact HS1
    iintro ⟨H0, H1, H2, H3, H4, H5, H6, H7, H8, H9, HS0, HS1⟩
    isplitl [Hoth HS0 HS1 Hg]
    · isplitl [Hoth HS0 HS1]
      · isplitl [Hoth]; · iexact Hoth
        isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists _; iexact H9
  · have hz : t.val ≠ 0 := by omega
    have hc0 : ¬cond2_0 (grid2.coords t) := fun h => h0 ((hcond2_0 t).mp h)
    rw [sumsAt2_step V c t hz]; dsimp only
    rw [PhiS2_castSucc V c t, PhiS2_pos V c _ _ hz]
    by_cases h1 : t.val % 25 = 24
    · have hc1 : cond2_1 (grid2.coords t) := (hcond2_1 t).mpr h1
      rw [show (dat2 V c).leavesExact 9 t = owns (c : Thread nD τ) (st2_9 t) fullShare ((dat2 V c).after 9 t) from by
        unfold Dat.leavesExact; rw [liveAt2_9 t hc1], after2_9]
      rw [sumsAt2_step V c t hz]; dsimp only
      iintro ⟨⟨⟨Hoth, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (sound_kernel2_C c Set.univ (grid2.coords t) hc0 hc1 _ _ _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [HS0]; · iexact HS0
      isplitl [HS1]; · iexact HS1
      iintro ⟨H0, H1, H2, H3, H4, H5, H6, H7, H8, H9, HS0, HS1⟩
      isplitl [Hoth HS0 HS1 Hg]
      · isplitl [Hoth HS0 HS1]
        · isplitl [Hoth]; · iexact Hoth
          isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · have hc1 : ¬cond2_1 (grid2.coords t) := fun h => h1 ((hcond2_1 t).mp h)
      rw [Dat.leavesExact_idle (dat2 V c) 9 t (idleAt2_9 t hc1) (noFlush2_9 t hc1)]
      iintro ⟨⟨⟨Hoth, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (sound_kernel2_B c Set.univ (grid2.coords t) hc0 hc1 _ _ _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) _ _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      isplitl [HS1]; · iexact HS1
      iintro ⟨H0, H1, H2, H3, H4, H5, H6, H7, H8, H9, HS0, HS1⟩
      isplitl [Hoth HS0 HS1 Hg]
      · isplitl [Hoth HS0 HS1]
        · isplitl [Hoth]; · iexact Hoth
          isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexists _; iexact H9

/-- The body obligation of this region, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 (F := F) V c).Φ 0 := by
  rw [show (dat2 V c).Φ 0 = PhiS2 V c 0 (Nat.zero_le _) from rfl, PhiS2_zero V c 0 _ rfl]

/-- After the last point the invariant gives back what the launch handed over: the sums' values are forgotten. -/
theorem hout2 (c : Dev nD) : (dat2 (F := F) V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 25 := N_2; omega), PhiA2_eq]
  iintro ⟨⟨Hoth, HS0, HS1⟩, Hg⟩
  isplitl [Hoth HS0 HS1]
  · isplitr [Hoth]
    · isplitl [HS0]
      · iexists _; iexact HS0
      iexists _; iexact HS1
    iexact Hoth
  iexact Hg

end Region2

end Cert.Kernel.Fr

end
-- ==== Proof.Kernel.Run.lean ====
/-
  The whole program as one run. The core executes, in order: three stretches of host operations (degrees and inverse
  degrees, the where-selection, the first layer's neighbour sums), the first update region, a stretch (the second layer's
  neighbour sums), the second update region, a stretch (the third layer's neighbour sums and the reshaped operands), the
  pooling-and-head region, and the closing reshape. Between two items the core holds every unscoped buffer whole at the
  contents the fold W0 … W9 names, its generator register at some state, and owes nothing. Each item carries that state
  from one boundary to the next, so every execution terminates and every final memory holds, in each unscoped buffer, what
  W9 says: in particular every argument as launched and the result at W9's value.
-/
import proofs.«429062_j38955353375020_2_alg».proof.Proof.Kernel.FoldArgs
import proofs.«429062_j38955353375020_2_alg».proof.Proof.Kernel.Region2

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data of the three pipelines, and what a core holds between items -/

/-- Each pipeline's proof data at the contents its region is entered with: the fold at W3, W5 and W7. -/
def pdats : (p : Fin 3) → (c : Dev nD) → Dat τ (Elt F) Unit ℕ (UR sig nD τ) ℕ (Pipeline.pin (pcfgs (F := F)) adm p) c
  | ⟨0, _⟩ => fun c => dat0 (V3 m) c
  | ⟨1, _⟩ => fun c => dat1 (V5 m) c
  | ⟨2, _⟩ => fun c => dat2 (V7 m) c

abbrev 𝒱₀ : Variants := Variants.none
/-- No core waits on another: no level is assigned anywhere. -/
abbrev L : GSem nD τ sig → Finset Unit := fun _ => ∅
abbrev lv : GSem nD τ sig → Unit → ℕ := fun _ _ => 0

/-- The generator register at some state. -/
abbrev rng (c : Dev nD) : sProp 𝕄 := iprop(∃ r, prngReg c r)
/-- The core owes nothing. -/
abbrev quit (c : Dev nD) : sProp 𝕄 := iprop(∃ W, owes (c : Thread nD τ) (0 : CellTallies nD τ sig Unit) W)
/-- What rides beside the buffers through every item. -/
abbrev R (c : Dev nD) : sProp 𝕄 := iprop(rng (F := F) c ∗ quit (F := F) c)
/-- The core's state at a boundary whose contents are `W`: every unscoped buffer whole at `W c`, and `R c`. -/
abbrev at_ (W : Dev nD → Valuation τ sig (Elt F)) (c : Dev nD) : sProp 𝕄 :=
  iprop(StableHlo.held (c : Thread nD τ) (Pipeline.ucRefs τ sig) (W c) ∗ R (F := F) c)

/-- A stretch of host operations as an item: from the boundary at `W` to the boundary at `W` after the operations. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W (R (F := F))

/-- An unscoped reference of the core is among the buffers the state holds. -/
theorem mem_uc (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-- What the core holds at the end, the debt apart. -/
abbrev Tₙ (c : Dev nD) : sProp 𝕄 :=
  iprop(StableHlo.held (c : Thread nD τ) (Pipeline.ucRefs τ sig) (W9 m c) ∗ rng (F := F) c)

/-- The last boundary's state regrouped: the buffers and the register on one side, the empty debt on the other. -/
theorem at_end (c : Dev nD) : at_ (W9 m) c ⊢ iprop(Tₙ m c ∗ quit (F := F) c) := by
  iintro ⟨Hbufs, Hg, Hq⟩
  isplitl [Hbufs Hg]
  · isplitl [Hbufs] <;> iassumption
  iexact Hq

/-! ## The three regions as items -/

set_option backward.isDefEq.respectTransparency.types false in
/-- The first update region: entered at W3, left at W4. On entry its seven arrays are taken out of the unscoped buffers at
    the contents the proof data starts from, the generator register goes into the pipeline's invariant and the other
    unscoped buffers wait beside it; on exit the arrays come back at what the write-backs left, which is W4. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m) c).loose
  hwaits := Pipeline.hwaits_of_owed_zero _ _ _ _ L lv 0 fun _ _ => rfl
  pre := at_ (W3 m)
  post := at_ (W4 m)
  X := rng
  Y := rng
  Z c := Pipeline.unscopedRest (Ix := Unit) (Name := ℕ) (U := UR sig nD τ) (Lvl := ℕ) spec0 c (V3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V3 m c) fun _ => rfl
    rw [Pipeline.unscopedBufs_held] at hsplit
    iintro ⟨⟨Hbufs, Hg, Hq⟩, -, -⟩
    ihave H := hsplit $$ Hbufs
    icases H with ⟨Harr, Hrest⟩
    imodintro
    isplitl [Harr]; · iexact Harr
    isplitr
    · unfold Pipeline.prefHeld; rw [show (Finset.univ : Finset (Fin 0)) = ∅ from rfl, BI.bigSep_empty]; iempintro
    isplitl [Hq]
    · unfold Pipeline.Dat.owesAt Pipeline.owesWithin
      icases Hq with ⟨%W, Hq⟩; iexists W
      isplitr; · ipureintro; exact fun _ _ => Or.inl trivial
      iexact Hq
    isplitl [Hg]; · iexact Hg
    iexact Hrest
  hin c := by
    rw [show (pdats m 0 c).Φ 0 = Pipeline.ΦA spec0 c from rfl]; unfold Pipeline.ΦA
    iintro ⟨Hg, -, Hsc⟩
    isplitl [Hsc]; · iexact Hsc
    iexact Hg
  hout c := by
    rw [Pipeline.ownSems0_none, show (pdats m 0 c).Φ (Fin.last _) = Pipeline.ΦA spec0 c from rfl]; unfold Pipeline.ΦA
    iintro ⟨Hsc, Hg⟩
    isplitl [Hg]; · iexact Hg
    isplitr; · iempintro
    iexact Hsc
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V3 m c) (V4 m c) ((pdats m 0 c).arrAt · cfg0.N) (hF0 m c) (hrest0 m c)
    rw [Pipeline.unscopedBufs_held] at hjoin
    iintro ⟨Harr, Hq, Hg, Hrest⟩
    imodintro
    isplitl [Harr Hrest]
    · iapply hjoin; isplitl [Harr] <;> iassumption
    isplitl [Hg]; · iexact Hg
    unfold Pipeline.Dat.owesAt Pipeline.owesWithin
    icases Hq with ⟨%W, -, Hq⟩; iexists W; iexact Hq

set_option backward.isDefEq.respectTransparency.types false in
/-- The second update region: entered at W5, left at W6, in the same way. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m) c).loose
  hwaits := Pipeline.hwaits_of_owed_zero _ _ _ _ L lv 1 fun _ _ => rfl
  pre := at_ (W5 m)
  post := at_ (W6 m)
  X := rng
  Y := rng
  Z c := Pipeline.unscopedRest (Ix := Unit) (Name := ℕ) (U := UR sig nD τ) (Lvl := ℕ) spec1 c (V5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V5 m c) fun _ => rfl
    rw [Pipeline.unscopedBufs_held] at hsplit
    iintro ⟨⟨Hbufs, Hg, Hq⟩, -, -⟩
    ihave H := hsplit $$ Hbufs
    icases H with ⟨Harr, Hrest⟩
    imodintro
    isplitl [Harr]; · iexact Harr
    isplitr
    · unfold Pipeline.prefHeld; rw [show (Finset.univ : Finset (Fin 0)) = ∅ from rfl, BI.bigSep_empty]; iempintro
    isplitl [Hq]
    · unfold Pipeline.Dat.owesAt Pipeline.owesWithin
      icases Hq with ⟨%W, Hq⟩; iexists W
      isplitr; · ipureintro; exact fun _ _ => Or.inl trivial
      iexact Hq
    isplitl [Hg]; · iexact Hg
    iexact Hrest
  hin c := by
    rw [show (pdats m 1 c).Φ 0 = Pipeline.ΦA spec1 c from rfl]; unfold Pipeline.ΦA
    iintro ⟨Hg, -, Hsc⟩
    isplitl [Hsc]; · iexact Hsc
    iexact Hg
  hout c := by
    rw [Pipeline.ownSems0_none, show (pdats m 1 c).Φ (Fin.last _) = Pipeline.ΦA spec1 c from rfl]; unfold Pipeline.ΦA
    iintro ⟨Hsc, Hg⟩
    isplitl [Hg]; · iexact Hg
    isplitr; · iempintro
    iexact Hsc
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V5 m c) (V6 m c) ((pdats m 1 c).arrAt · cfg1.N) (hF1 m c) (hrest1 m c)
    rw [Pipeline.unscopedBufs_held] at hjoin
    iintro ⟨Harr, Hq, Hg, Hrest⟩
    imodintro
    isplitl [Harr Hrest]
    · iapply hjoin; isplitl [Harr] <;> iassumption
    isplitl [Hg]; · iexact Hg
    unfold Pipeline.Dat.owesAt Pipeline.owesWithin
    icases Hq with ⟨%W, -, Hq⟩; iexists W; iexact Hq

set_option backward.isDefEq.respectTransparency.types false in
/-- The pooling-and-head region: entered at W7, left at W8. Its invariant is its own (the two running sums live in scratch
    buffers between points): what the launch hands every region makes it before the first point, and after the last point
    it gives that back, the sums forgotten. The arrays and the other buffers are handled as in the update regions. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m) c).loose
  hwaits := Pipeline.hwaits_of_owed_zero _ _ _ _ L lv 2 fun _ _ => rfl
  pre := at_ (W7 m)
  post := at_ (W8 m)
  X := rng
  Y := rng
  Z c := Pipeline.unscopedRest (Ix := Unit) (Name := ℕ) (U := UR sig nD τ) (Lvl := ℕ) spec2 c (V7 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V7 m c) fun _ => rfl
    rw [Pipeline.unscopedBufs_held] at hsplit
    iintro ⟨⟨Hbufs, Hg, Hq⟩, -, -⟩
    ihave H := hsplit $$ Hbufs
    icases H with ⟨Harr, Hrest⟩
    imodintro
    isplitl [Harr]; · iexact Harr
    isplitr
    · unfold Pipeline.prefHeld; rw [show (Finset.univ : Finset (Fin 0)) = ∅ from rfl, BI.bigSep_empty]; iempintro
    isplitl [Hq]
    · unfold Pipeline.Dat.owesAt Pipeline.owesWithin
      icases Hq with ⟨%W, Hq⟩; iexists W
      isplitr; · ipureintro; exact fun _ _ => Or.inl trivial
      iexact Hq
    isplitl [Hg]; · iexact Hg
    iexact Hrest
  hin c := by
    refine BIBase.Entails.trans ?_ (hin2 (V7 m) c)
    unfold Pipeline.ΦA
    iintro ⟨Hg, -, Hsc⟩
    isplitl [Hsc]; · iexact Hsc
    iexact Hg
  hout c := by
    refine (hout2 (V7 m) c).trans ?_
    rw [Pipeline.ownSems0_none]; unfold Pipeline.ΦA
    iintro ⟨Hsc, Hg⟩
    isplitl [Hg]; · iexact Hg
    isplitr; · iempintro
    iexact Hsc
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V7 m c) (V8 m c) ((pdats m 2 c).arrAt · cfg2.N) (hF2 m c) (hrest2 m c)
    rw [Pipeline.unscopedBufs_held] at hjoin
    iintro ⟨Harr, Hq, Hg, Hrest⟩
    imodintro
    isplitl [Harr Hrest]
    · iapply hjoin; isplitl [Harr] <;> iassumption
    isplitl [Hg]; · iexact Hg
    unfold Pipeline.Dat.owesAt Pipeline.owesWithin
    icases Hq with ⟨%W, -, Hq⟩; iexists W; iexact Hq

/-! ## The program as its items, and the run -/

/-- The nine items in program order, each host stretch from the contents of the boundary before it. -/
abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m),
    .host (hseg hostOps2 hostOps2_sub hostOps2_fresh (W6 m)),
    .region (reg2 m),
    .host (hseg hostOps3 hostOps3_sub hostOps3_fresh (W8 m)) ]

/-- The program is the run of its items: it is the chain of the same nine fragments, and the two spellings of that chain
    agree by unfolding. -/
theorem main_run (c : Dev nD) : main (F := F) c = Pipeline.Seg.run (segs m) := (main_chain c).trans (by chain_rfl)

set_option backward.isDefEq.respectTransparency.types false in
/-- From any memory, with all counters at zero, every fair execution of the program on the cores ends, and in every final
    memory each unscoped buffer of each core holds what the fold says at the end, W9. The launch gives each core its
    unscoped buffers at the launch memory (W0), its generator register and no debt; the items carry that state along the
    boundaries W0, W1, …, W9; the last state is read off against the final memory. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W9 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := at_ (W0 m)) (Tₙ := Tₙ m)
    (hch := ⟨fun _ => .rfl, fun _ => .rfl, fun _ => .rfl, fun _ => .rfl, fun _ => .rfl, fun _ => .rfl, fun _ => .rfl,
      fun _ => .rfl, fun _ => .rfl, fun c => at_end m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hbufs, -, Hq, -, Hg, -⟩, -⟩
      imodintro
      isplitl [Hbufs]; · iexact Hbufs
      isplitl [Hg]; · iexists _; iexact Hg
      iexists ∅; iexact Hq)
    (QY := fun c s => ∀ b ∈ Pipeline.ucRefs τ sig, s.mem (((c : Thread nD τ)).1, b) = W9 m c b)
    (hfin := fun c s' => by
      iintro ⟨⟨Hbufs, -⟩, HSI⟩
      unfold StableHlo.held
      imodintro
      iapply (pointsTo_read_all (Pipeline.ucRefs τ sig) (fun b => (((c : Thread nD τ)).1, b)) (W9 m c) s')
      isplitl [Hbufs] <;> iassumption)
    (hQ := fun s h => h)

/-- Every argument ends as launched: each argument's buffer is unscoped, so the run names its final contents, W9's, and at
    an argument the fold collapses to the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c =>
    ⟨(h c _ (mem_uc main_arg0 (by decide))).trans (W9_main_arg0 m c),
     (h c _ (mem_uc main_arg1 (by decide))).trans (W9_main_arg1 m c),
     (h c _ (mem_uc main_arg2 (by decide))).trans (W9_main_arg2 m c),
     (h c _ (mem_uc main_arg3 (by decide))).trans (W9_main_arg3 m c),
     (h c _ (mem_uc main_arg4 (by decide))).trans (W9_main_arg4 m c),
     (h c _ (mem_uc main_arg5 (by decide))).trans (W9_main_arg5 m c),
     (h c _ (mem_uc main_arg6 (by decide))).trans (W9_main_arg6 m c),
     (h c _ (mem_uc main_arg7 (by decide))).trans (W9_main_arg7 m c),
     (h c _ (mem_uc main_arg8 (by decide))).trans (W9_main_arg8 m c),
     (h c _ (mem_uc main_arg9 (by decide))).trans (W9_main_arg9 m c),
     (h c _ (mem_uc main_arg10 (by decide))).trans (W9_main_arg10 m c),
     (h c _ (mem_uc main_arg11 (by decide))).trans (W9_main_arg11 m c),
     (h c _ (mem_uc main_arg12 (by decide))).trans (W9_main_arg12 m c),
     (h c _ (mem_uc main_arg13 (by decide))).trans (W9_main_arg13 m c)⟩) (run_all m ρ)

/-- The same run, read at the result as well: the result's buffer ends at W9's value, and every argument as launched. -/
theorem run_value : θ_run defs (onTc (τ := τ) (main (F := F))) ⟨m, fun _ => 0, ρ⟩ (fun r => ∀ c : Dev nD,
      r.2.mem ((c.tc : Thread nD τ).loc main_v54) = W9 m c (Proc.devRef .tc main_v54)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c =>
    ⟨h c _ (mem_uc main_v54 (by decide)),
     (h c _ (mem_uc main_arg0 (by decide))).trans (W9_main_arg0 m c),
     (h c _ (mem_uc main_arg1 (by decide))).trans (W9_main_arg1 m c),
     (h c _ (mem_uc main_arg2 (by decide))).trans (W9_main_arg2 m c),
     (h c _ (mem_uc main_arg3 (by decide))).trans (W9_main_arg3 m c),
     (h c _ (mem_uc main_arg4 (by decide))).trans (W9_main_arg4 m c),
     (h c _ (mem_uc main_arg5 (by decide))).trans (W9_main_arg5 m c),
     (h c _ (mem_uc main_arg6 (by decide))).trans (W9_main_arg6 m c),
     (h c _ (mem_uc main_arg7 (by decide))).trans (W9_main_arg7 m c),
     (h c _ (mem_uc main_arg8 (by decide))).trans (W9_main_arg8 m c),
     (h c _ (mem_uc main_arg9 (by decide))).trans (W9_main_arg9 m c),
     (h c _ (mem_uc main_arg10 (by decide))).trans (W9_main_arg10 m c),
     (h c _ (mem_uc main_arg11 (by decide))).trans (W9_main_arg11 m c),
     (h c _ (mem_uc main_arg12 (by decide))).trans (W9_main_arg12 m c),
     (h c _ (mem_uc main_arg13 (by decide))).trans (W9_main_arg13 m c)⟩) (run_all m ρ)

end Cert.Kernel.Fr

end
-- ==== Proof.KernelIdeal.Region0.lean ====
/-
  The first-layer update as a pipelined region, at any contents `V` of the core's buffers when the region is entered.
  At grid point t the body reads rows 10000·t … 10000·t + 9999 of the aggregated messages, of the inverse degrees and of the
  node features, and the whole of both weight matrices and of the bias row; it writes the same rows of the result:
  max((msg · dinv) W_l + b + x W_r, 0). Every input block is left in place, the output block is stored whole, nothing is
  carried from one point to the next, so what the region leaves in the result array is decided block by block.
-/
import proofs.«429062_j38955353375020_2_alg».proof.Proof.Gen.KernelIdeal.Launch
import proofs.«429062_j38955353375020_2_alg».proof.Proof.Gen.KernelIdeal.Skeleton
import proofs.«429062_j38955353375020_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the point fetched it or not, for any
    proof data over these arrays whose body leaves the block in place: one statement per window, at the window's number. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- The whole of each buffer, as the rectangle the body loads and stores through. -/
abbrev r0_x : Rect S10000x16 := Rect.unit (s := S10000x16) ![0, 0] S10000x16.size inb_S10000x16_S10000x16_0_0
abbrev r0_d : Rect S10000x1 := Rect.unit (s := S10000x1) ![0, 0] S10000x1.size inb_S10000x1_S10000x1_0_0
abbrev r0_w : Rect S16x64 := Rect.unit (s := S16x64) ![0, 0] S16x64.size inb_S16x64_S16x64_0_0
abbrev r0_b : Rect S1x64 := Rect.unit (s := S1x64) ![0, 0] S1x64.size inb_S1x64_S1x64_0_0
abbrev r0_o : Rect S10000x64 := Rect.unit (s := S10000x64) ![0, 0] S10000x64.size inb_S10000x64_S10000x64_0_0

/-- What the body leaves in the output window's staging buffer, from the six input blocks: its one store. -/
def out0_6 (x0 : Vec F S10000x16 .f32) (x1 : Vec F S10000x1 .f32) (x2 : Vec F S10000x16 .f32) (x3 : Vec F S16x64 .f32) (x4 : Vec F S1x64 .f32) (x5 : Vec F S16x64 .f32) :
    Vec F S10000x64 .f32 :=
  View.canon [⟨r0_o, k0_pay1 (View.ld x0 r0_x) (View.ld x1 r0_d) (View.ld x3 r0_w) (View.ld x4 r0_b) (View.ld x2 r0_x) (View.ld x5 r0_w)⟩]

/-- The one store covers the buffer. -/
theorem cover0_6 (p0 : Vec F S10000x64 .f32) (y : S10000x64.Idx) :
    ∃ pc ∈ ([⟨r0_o, p0⟩] : List (View.Piece (Elt F) S10000x64 .f32)), y ∈ pc.1.set :=
  View.cover_of_tiled [⟨r0_o, p0⟩] S10000x64.size (by rfl) y

set_option maxHeartbeats 4000000 in
/-- The body on whole staging buffers, the inputs' at contents `x0 … x5` and the output's at anything: it runs, leaves the
    inputs as they were and the output at `out0_6` of them. -/
theorem sound_kernel0 (c : Dev nD) (E : Set ℕ) (i : grid0.Coords)
    (arg1 : Memref sig .tc .vmem S10000x16 .f32) (harg1 : arg1.IsWhole) (arg2 : Memref sig .tc .vmem S10000x1 .f32) (harg2 : arg2.IsWhole)
    (arg3 : Memref sig .tc .vmem S10000x16 .f32) (harg3 : arg3.IsWhole) (arg4 : Memref sig .tc .vmem S16x64 .f32) (harg4 : arg4.IsWhole)
    (arg5 : Memref sig .tc .vmem S1x64 .f32) (harg5 : arg5.IsWhole) (arg6 : Memref sig .tc .vmem S16x64 .f32) (harg6 : arg6.IsWhole)
    (arg7 : Memref sig .tc .vmem S10000x64 .f32) (harg7 : arg7.IsWhole)
    (x0 : Vec F S10000x16 .f32) (x1 : Vec F S10000x1 .f32) (x2 : Vec F S10000x16 .f32) (x3 : Vec F S16x64 .f32) (x4 : Vec F S1x64 .f32) (x5 : Vec F S16x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5)) -∗ K ⟨⟩))
      ⊢ wp frame (wpE (defs₀ (F := F)) Variants.none c none) E
          (cc0__sage_update_kernel i arg1 harg1 arg2 harg2 arg3 harg3 arg4 harg4 arg5 harg5 arg6 harg6 arg7 harg7) K := by
  simp only [cc0__sage_update_kernel_eq_skeleton]; unfold cc0__sage_update_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-- The proof data of this region on core `c`: the arrays as the region finds them; after the body at point `t` each input's
    buffer at its block and the output's at `out0_6` of the input blocks; nothing kept between points beyond what the
    pipeline itself keeps; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t
    = out0_6 (iblk0 V c 0 t) (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 4000000 in
/-- The body at any point: the inputs' buffers hold their blocks, so `sound_kernel0` applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of this region, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Fr

end
-- ==== Proof.KernelIdeal.Region1.lean ====
/-
  The second-layer update as a pipelined region, at any contents `V` of the core's buffers when the region is entered.
  At grid point t the body reads rows 10000·t … 10000·t + 9999 of the aggregated messages, of the inverse degrees and of the
  node features, and the whole of both weight matrices and of the bias row; it writes the same rows of the result:
  max((msg · dinv) W_l + b + x W_r, 0). Every input block is left in place, the output block is stored whole, nothing is
  carried from one point to the next, so what the region leaves in the result array is decided block by block.
-/
import proofs.«429062_j38955353375020_2_alg».proof.Proof.Gen.KernelIdeal.Launch
import proofs.«429062_j38955353375020_2_alg».proof.Proof.Gen.KernelIdeal.Skeleton
import proofs.«429062_j38955353375020_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the point fetched it or not, for any
    proof data over these arrays whose body leaves the block in place: one statement per window, at the window's number. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The whole of each buffer, as the rectangle the body loads and stores through. -/
abbrev r1_x : Rect S10000x64 := Rect.unit (s := S10000x64) ![0, 0] S10000x64.size inb_S10000x64_S10000x64_0_0
abbrev r1_d : Rect S10000x1 := Rect.unit (s := S10000x1) ![0, 0] S10000x1.size inb_S10000x1_S10000x1_0_0
abbrev r1_w : Rect S64x64 := Rect.unit (s := S64x64) ![0, 0] S64x64.size inb_S64x64_S64x64_0_0
abbrev r1_b : Rect S1x64 := Rect.unit (s := S1x64) ![0, 0] S1x64.size inb_S1x64_S1x64_0_0
abbrev r1_o : Rect S10000x64 := Rect.unit (s := S10000x64) ![0, 0] S10000x64.size inb_S10000x64_S10000x64_0_0

/-- What the body leaves in the output window's staging buffer, from the six input blocks: its one store. -/
def out1_6 (x0 : Vec F S10000x64 .f32) (x1 : Vec F S10000x1 .f32) (x2 : Vec F S10000x64 .f32) (x3 : Vec F S64x64 .f32) (x4 : Vec F S1x64 .f32) (x5 : Vec F S64x64 .f32) :
    Vec F S10000x64 .f32 :=
  View.canon [⟨r1_o, k1_pay1 (View.ld x0 r1_x) (View.ld x1 r1_d) (View.ld x3 r1_w) (View.ld x4 r1_b) (View.ld x2 r1_x) (View.ld x5 r1_w)⟩]

/-- The one store covers the buffer. -/
theorem cover1_6 (p0 : Vec F S10000x64 .f32) (y : S10000x64.Idx) :
    ∃ pc ∈ ([⟨r1_o, p0⟩] : List (View.Piece (Elt F) S10000x64 .f32)), y ∈ pc.1.set :=
  View.cover_of_tiled [⟨r1_o, p0⟩] S10000x64.size (by rfl) y

set_option maxHeartbeats 4000000 in
/-- The body on whole staging buffers, the inputs' at contents `x0 … x5` and the output's at anything: it runs, leaves the
    inputs as they were and the output at `out1_6` of them. -/
theorem sound_kernel1 (c : Dev nD) (E : Set ℕ) (i : grid1.Coords)
    (arg1 : Memref sig .tc .vmem S10000x64 .f32) (harg1 : arg1.IsWhole) (arg2 : Memref sig .tc .vmem S10000x1 .f32) (harg2 : arg2.IsWhole)
    (arg3 : Memref sig .tc .vmem S10000x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S64x64 .f32) (harg6 : arg6.IsWhole)
    (arg7 : Memref sig .tc .vmem S10000x64 .f32) (harg7 : arg7.IsWhole)
    (x0 : Vec F S10000x64 .f32) (x1 : Vec F S10000x1 .f32) (x2 : Vec F S10000x64 .f32) (x3 : Vec F S64x64 .f32) (x4 : Vec F S1x64 .f32) (x5 : Vec F S64x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4 x5)) -∗ K ⟨⟩))
      ⊢ wp frame (wpE (defs₀ (F := F)) Variants.none c none) E
          (cc1__sage_update_kernel i arg1 harg1 arg2 harg2 arg3 harg3 arg4 harg4 arg5 harg5 arg6 harg6 arg7 harg7) K := by
  simp only [cc1__sage_update_kernel_eq_skeleton]; unfold cc1__sage_update_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-- The proof data of this region on core `c`: the arrays as the region finds them; after the body at point `t` each input's
    buffer at its block and the output's at `out1_6` of the input blocks; nothing kept between points beyond what the
    pipeline itself keeps; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t
    = out1_6 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

set_option maxHeartbeats 4000000 in
/-- The body at any point: the inputs' buffers hold their blocks, so `sound_kernel1` applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of this region, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Fr

end
-- ==== Proof.KernelIdeal.Region2Data.lean ====
/-
  The pooling-and-head kernel as a pipelined region, at any contents `V` of the core's buffers when the region is entered:
  what it keeps from one grid point to the next, and the proof data of its pipeline.
  At point t the body forms the last layer's rows 10000·t … 10000·t + 9999, h2 = (msg · dinv) W_l + b + h W_r, and the
  one-hot matrix of those rows' graph ids against 0 … 63, and adds onehotᵀ h2 to a 64 × 64 accumulator and onehotᵀ 1 to a
  64 × 1 counter, both kept in scratch buffers of its own: reset to zero at the first point, carried unchanged between
  points. At the last point it divides the accumulator's rows by max(count, 1), multiplies by the head's weights, adds the
  head's bias and stores the 64 × 1 result; at every other point the result's buffer is left as found.
-/
import proofs.«429062_j38955353375020_2_alg».proof.Proof.Gen.KernelIdeal.Launch
import proofs.«429062_j38955353375020_2_alg».proof.Proof.Gen.KernelIdeal.Skeleton
import proofs.«429062_j38955353375020_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The accumulator after one more tile: the tile's last-layer rows, pooled by the one-hot of its graph ids, added to `a`. -/
def accStep2 (x0 : Vec F S10000x64 .f32) (x1 : Vec F S10000x1 .f32) (x2 : Vec F S10000x64 .f32) (x3 : Vec F S64x64 .f32) (x4 : Vec F S1x64 .f32)
    (x5 : Vec F S64x64 .f32) (x6 : Vec F S10000x1 .i32) (a : Vec F S64x64 .f32) : Vec F S64x64 .f32 :=
  k2_pay7 x0 x1 x3 x4 x2 x5 x6 a

/-- The counter after one more tile: the number of the tile's rows in each graph, added to `n`. -/
def cntStep2 (x6 : Vec F S10000x1 .i32) (n : Vec F S64x1 .f32) : Vec F S64x1 .f32 :=
  k2_pay1 (k2_pay5 x6) (k2_pay6 (F := F)) n

/-- The head on the finished sums: the accumulator's rows over max(count, 1), times the head's weights, plus its bias. -/
def head2 (a : Vec F S64x64 .f32) (n : Vec F S64x1 .f32) (x7 : Vec F S64x1 .f32) (x8 : Vec F S1x1 .f32) : Vec F S64x1 .f32 :=
  k2_pay2 a n x7 x8

/-- What the two scratch buffers hold after the body at position `n`: from zero at the first point, one tile more at each. -/
def sumsAt2 (c : Dev nD) : (n : ℕ) → n < cfg2.N → Vec F S64x64 .f32 × Vec F S64x1 .f32
  | 0, hn =>
    (accStep2 (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩)
        (iblk2 V c 6 ⟨0, hn⟩) (k2_pay3 (F := F)),
      cntStep2 (iblk2 V c 6 ⟨0, hn⟩) (k2_pay4 (F := F)))
  | n + 1, hn =>
    (accStep2 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩)
        (iblk2 V c 5 ⟨n + 1, hn⟩) (iblk2 V c 6 ⟨n + 1, hn⟩) (sumsAt2 c n (Nat.lt_of_succ_lt hn)).1,
      cntStep2 (iblk2 V c 6 ⟨n + 1, hn⟩) (sumsAt2 c n (Nat.lt_of_succ_lt hn)).2)

theorem sumsAt2_zero (c : Dev nD) (hn : 0 < cfg2.N) : sumsAt2 V c 0 hn =
    (accStep2 (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩)
        (iblk2 V c 6 ⟨0, hn⟩) (k2_pay3 (F := F)),
      cntStep2 (iblk2 V c 6 ⟨0, hn⟩) (k2_pay4 (F := F))) := rfl

theorem sumsAt2_succ (c : Dev nD) (n : ℕ) (hn : n + 1 < cfg2.N) : sumsAt2 V c (n + 1) hn =
    (accStep2 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩)
        (iblk2 V c 5 ⟨n + 1, hn⟩) (iblk2 V c 6 ⟨n + 1, hn⟩) (sumsAt2 V c n (Nat.lt_of_succ_lt hn)).1,
      cntStep2 (iblk2 V c 6 ⟨n + 1, hn⟩) (sumsAt2 V c n (Nat.lt_of_succ_lt hn)).2) := rfl

/-- The two scratch buffers of the kernel's own, whole. -/
abbrev scM2_0 : Memref sig .tc .vmem S64x64 .f32 := Memref.whole cc2_scratch0
abbrev scM2_1 : Memref sig .tc .vmem S64x1 .f32 := Memref.whole cc2_scratch1

/-- The core's scoped buffers that are neither a staging buffer of this region nor one of its two scratch buffers, each
    whole at some contents: the other two regions' staging buffers, which this region never touches. -/
def others2 (c : Dev nD) : sProp 𝕄 :=
  Pipeline.scopedRestBut (Ix := Unit) (Name := ℕ) (U := UR sig nD τ) (Lvl := ℕ) (Val := Elt F) spec2 c [cc2_scratch0, cc2_scratch1]

/-- The region's invariant before position `n`: before the first point what the launch hands every region; afterwards the
    untouched scoped buffers, the two scratch buffers at the sums the point before left, and the generator register. -/
def PhiS2 (c : Dev nD) : (n : ℕ) → n ≤ cfg2.N → sProp 𝕄
  | 0, _ => Pipeline.ΦA spec2 c
  | n + 1, hn => iprop(iprop(others2 (F := F) c ∗ owns (c : Thread nD τ) scM2_0 fullShare (sumsAt2 V c n hn).1
      ∗ owns (c : Thread nD τ) scM2_1 fullShare (sumsAt2 V c n hn).2) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(others2 (F := F) c ∗ owns (c : Thread nD τ) scM2_0 fullShare (sumsAt2 V c n hn).1
      ∗ owns (c : Thread nD τ) scM2_1 fullShare (sumsAt2 V c n hn).2) ∗ (∃ r, prngReg c r)) := rfl

theorem PhiS2_pos (c : Dev nD) (n : ℕ) (h : n ≤ cfg2.N) (hz : n ≠ 0) :
    PhiS2 V c n h = iprop(iprop(others2 (F := F) c ∗ owns (c : Thread nD τ) scM2_0 fullShare (sumsAt2 V c (n - 1) (by omega)).1
      ∗ owns (c : Thread nD τ) scM2_1 fullShare (sumsAt2 V c (n - 1) (by omega)).2) ∗ (∃ r, prngReg c r)) := by
  cases n with
  | zero => exact absurd rfl hz
  | succ n => rfl

/-- The proof data of this region on core `c`: the arrays as the region finds them; after the body at point `t` each input's
    buffer at its block, and the result's at the head of the sums so far (stored, and consulted, at the last point only);
    between points the invariant above; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => head2 (sumsAt2 V c t.val t.isLt).1 (sumsAt2 V c t.val t.isLt).2 (iblk2 V c 7 t) (iblk2 V c 8 t)
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t
    = head2 (sumsAt2 V c t.val t.isLt).1 (sumsAt2 V c t.val t.isLt).2 (iblk2 V c 7 t) (iblk2 V c 8 t) := by dsimp only [dat2]

end Region2

end Cert.KernelIdeal.Fr

end
-- ==== Proof.KernelIdeal.Fold.lean ====
/-
  The contents of the core's buffers at every boundary between two items of @main, as a fold from the launch memory:
  a stretch of host operations applies them; a kernel region leaves its arrays at what its pipeline's write-backs make of
  them and every other buffer as it was.
    W0 launch · W1, W2, W3 after the three host stretches before the first region (W3: region 0's entry) ·
    W4 after region 0 · W5 after the next host stretch (region 1's entry) · W6 after region 1 ·
    W7 (region 2's entry) · W8 after region 2 · W9 after the closing reshape: the program's end.
-/
import proofs.«429062_j38955353375020_2_alg».proof.Proof.KernelIdeal.Region0
import proofs.«429062_j38955353375020_2_alg».proof.Proof.KernelIdeal.Region1
import proofs.«429062_j38955353375020_2_alg».proof.Proof.KernelIdeal.Region2Data

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev W0 : Dev nD → Valuation τ sig (Elt F) := fun c b => m ((c : Dev nD), b)
abbrev W1 : Dev nD → Valuation τ sig (Elt F) := fun c => StableHlo.after hostOps0 (W0 m c)
abbrev W2 : Dev nD → Valuation τ sig (Elt F) := fun c => StableHlo.after hostOps0_1 (W1 m c)
/-- Region 0's entry. -/
abbrev W3 : Dev nD → Valuation τ sig (Elt F) := fun c => StableHlo.after hostOps0_2 (W2 m c)
abbrev V3 : (c : Dev nD) → (b : Ref sig .tc) → Buf (Elt F) ((c : Thread nD τ).loc b) := fun c b => W3 m c b

/-- At region 0's exit: its arrays at what the pipeline leaves (the inputs as entered, each output's write-backs folded),
    every other buffer as entered. -/
def W4 (c : Dev nD) : Valuation τ sig (Elt F) :=
  Pipeline.withArrays spec0 c (W3 m c) fun w => (dat0 (V3 m) c).arrAt w cfg0.N
theorem W4_arr (c : Dev nD) (w : Fin cfg0.W) :
    W4 m c (Proc.devRef .tc (Pipeline.arrRef spec0 w)) = (dat0 (V3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
/-- The same read at the TensorCore's references. -/
abbrev V4 : (c : Dev nD) → (b : Ref sig .tc) → Buf (Elt F) ((c : Thread nD τ).loc b) := fun c b => W4 m c b
theorem hF0 (c : Dev nD) (w : Fin cfg0.W) : (dat0 (V3 m) c).arrAt w cfg0.N = V4 m c (Pipeline.arrRef spec0 w) :=
  (W4_arr m c w).symm
theorem hrest0 (c : Dev nD) : ∀ b, b ∉ Finset.univ.image (Pipeline.arrRef spec0) → V4 m c b = V3 m c b :=
  fun b hb => W4_of_ne m c b fun w e => hb (Finset.mem_image.mpr ⟨w, Finset.mem_univ _, e⟩)

/-- Region 1's entry. -/
abbrev W5 : Dev nD → Valuation τ sig (Elt F) := fun c => StableHlo.after hostOps1 (W4 m c)
abbrev V5 : (c : Dev nD) → (b : Ref sig .tc) → Buf (Elt F) ((c : Thread nD τ).loc b) := fun c b => W5 m c b

/-- At region 1's exit: its arrays at what the pipeline leaves (the inputs as entered, each output's write-backs folded),
    every other buffer as entered. -/
def W6 (c : Dev nD) : Valuation τ sig (Elt F) :=
  Pipeline.withArrays spec1 c (W5 m c) fun w => (dat1 (V5 m) c).arrAt w cfg1.N
theorem W6_arr (c : Dev nD) (w : Fin cfg1.W) :
    W6 m c (Proc.devRef .tc (Pipeline.arrRef spec1 w)) = (dat1 (V5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
/-- The same read at the TensorCore's references. -/
abbrev V6 : (c : Dev nD) → (b : Ref sig .tc) → Buf (Elt F) ((c : Thread nD τ).loc b) := fun c b => W6 m c b
theorem hF1 (c : Dev nD) (w : Fin cfg1.W) : (dat1 (V5 m) c).arrAt w cfg1.N = V6 m c (Pipeline.arrRef spec1 w) :=
  (W6_arr m c w).symm
theorem hrest1 (c : Dev nD) : ∀ b, b ∉ Finset.univ.image (Pipeline.arrRef spec1) → V6 m c b = V5 m c b :=
  fun b hb => W6_of_ne m c b fun w e => hb (Finset.mem_image.mpr ⟨w, Finset.mem_univ _, e⟩)

/-- Region 2's entry. -/
abbrev W7 : Dev nD → Valuation τ sig (Elt F) := fun c => StableHlo.after hostOps2 (W6 m c)
abbrev V7 : (c : Dev nD) → (b : Ref sig .tc) → Buf (Elt F) ((c : Thread nD τ).loc b) := fun c b => W7 m c b

/-- At region 2's exit: its arrays at what the pipeline leaves (the inputs as entered, each output's write-backs folded),
    every other buffer as entered. -/
def W8 (c : Dev nD) : Valuation τ sig (Elt F) :=
  Pipeline.withArrays spec2 c (W7 m c) fun w => (dat2 (V7 m) c).arrAt w cfg2.N
theorem W8_arr (c : Dev nD) (w : Fin cfg2.W) :
    W8 m c (Proc.devRef .tc (Pipeline.arrRef spec2 w)) = (dat2 (V7 m) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) := by
  unfold W8; exact Pipeline.withArrays_of_ne spec2 c _ _ b hb
/-- The same read at the TensorCore's references. -/
abbrev V8 : (c : Dev nD) → (b : Ref sig .tc) → Buf (Elt F) ((c : Thread nD τ).loc b) := fun c b => W8 m c b
theorem hF2 (c : Dev nD) (w : Fin cfg2.W) : (dat2 (V7 m) c).arrAt w cfg2.N = V8 m c (Pipeline.arrRef spec2 w) :=
  (W8_arr m c w).symm
theorem hrest2 (c : Dev nD) : ∀ b, b ∉ Finset.univ.image (Pipeline.arrRef spec2) → V8 m c b = V7 m c b :=
  fun b hb => W8_of_ne m c b fun w e => hb (Finset.mem_image.mpr ⟨w, Finset.mem_univ _, e⟩)

/-- The program's end. -/
abbrev W9 : Dev nD → Valuation τ sig (Elt F) := fun c => StableHlo.after hostOps3 (W8 m c)

end Cert.KernelIdeal.Fr

end
-- ==== Proof.KernelIdeal.FoldArgs.lean ====
/-
  Every argument of the program ends holding what it was launched with: read at an argument's buffer, the fold of the
  buffer contents through the host stretches and the three regions (W0 … W9) collapses to the launch memory.
-/
import proofs.«429062_j38955353375020_2_alg».proof.Proof.KernelIdeal.Fold
import proofs.«429062_j38955353375020_2_alg».proof.Proof.Gen.KernelIdeal.Regions

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## One boundary back

A stretch of host operations changes only the buffers its operations write; a region changes only its result's array:
an input window's array is read block by block and never written back, and a buffer that is no window's array is not
touched at all. -/

theorem W1_of (c : Dev nD) (r : Ref sig .tc) (h : r ∉ hostOps0_W) :
    W1 m c (Proc.devRef .tc r) = W0 m c (Proc.devRef .tc r) :=
  StableHlo.after_of_writes_sub hostOps0 _ hostOps0_writes h
theorem W2_of (c : Dev nD) (r : Ref sig .tc) (h : r ∉ hostOps0_1_W) :
    W2 m c (Proc.devRef .tc r) = W1 m c (Proc.devRef .tc r) :=
  StableHlo.after_of_writes_sub hostOps0_1 _ hostOps0_1_writes h
theorem W3_of (c : Dev nD) (r : Ref sig .tc) (h : r ∉ hostOps0_2_W) :
    W3 m c (Proc.devRef .tc r) = W2 m c (Proc.devRef .tc r) :=
  StableHlo.after_of_writes_sub hostOps0_2 _ hostOps0_2_writes h
theorem W5_of (c : Dev nD) (r : Ref sig .tc) (h : r ∉ hostOps1_W) :
    W5 m c (Proc.devRef .tc r) = W4 m c (Proc.devRef .tc r) :=
  StableHlo.after_of_writes_sub hostOps1 _ hostOps1_writes h
theorem W7_of (c : Dev nD) (r : Ref sig .tc) (h : r ∉ hostOps2_W) :
    W7 m c (Proc.devRef .tc r) = W6 m c (Proc.devRef .tc r) :=
  StableHlo.after_of_writes_sub hostOps2 _ hostOps2_writes h
theorem W9_of (c : Dev nD) (r : Ref sig .tc) (h : r ∉ hostOps3_W) :
    W9 m c (Proc.devRef .tc r) = W8 m c (Proc.devRef .tc r) :=
  StableHlo.after_of_writes_sub hostOps3 _ hostOps3_writes h

/-- The first region leaves an input window's array as it found it. -/
theorem W4_in (c : Dev nD) (w : Fin cfg0.W) (hin : (cfg0.win w).isOut = false) :
    W4 m c (Proc.devRef .tc (Pipeline.arrRef spec0 w)) = W3 m c (Proc.devRef .tc (Pipeline.arrRef spec0 w)) :=
  (W4_arr m c w).trans (((dat0 (V3 m) c).arrAt_in w hin _).trans (A_eq0 (V3 m) c w))
/-- The second region leaves an input window's array as it found it. -/
theorem W6_in (c : Dev nD) (w : Fin cfg1.W) (hin : (cfg1.win w).isOut = false) :
    W6 m c (Proc.devRef .tc (Pipeline.arrRef spec1 w)) = W5 m c (Proc.devRef .tc (Pipeline.arrRef spec1 w)) :=
  (W6_arr m c w).trans (((dat1 (V5 m) c).arrAt_in w hin _).trans (A_eq1 (V5 m) c w))
/-- The third region leaves an input window's array as it found it. -/
theorem W8_in (c : Dev nD) (w : Fin cfg2.W) (hin : (cfg2.win w).isOut = false) :
    W8 m c (Proc.devRef .tc (Pipeline.arrRef spec2 w)) = W7 m c (Proc.devRef .tc (Pipeline.arrRef spec2 w)) :=
  (W8_arr m c w).trans (((dat2 (V7 m) c).arrAt_in w hin _).trans (A_eq2 (V7 m) c w))

/-! ## The arguments end as launched

No host operation writes an argument, and a region reads an argument, if at all, through an input window; so at an
argument's buffer the fold walks back, boundary by boundary, to the launch memory. -/

/-- The node features: the first region reads them through its third window. -/
theorem W9_main_arg0 (c : Dev nD) : W9 m c (Proc.devRef .tc main_arg0) = m ((c : Thread nD τ).loc main_arg0) :=
  (W9_of m c main_arg0 (by decide)).trans <| (W8_of_ne m c main_arg0 (by decide)).trans <|
  (W7_of m c main_arg0 (by decide)).trans <| (W6_of_ne m c main_arg0 (by decide)).trans <|
  (W5_of m c main_arg0 (by decide)).trans <| (W4_in m c 2 rfl).trans <|
  (W3_of m c main_arg0 (by decide)).trans <| (W2_of m c main_arg0 (by decide)).trans <| W1_of m c main_arg0 (by decide)

/-- The edge list: only host operations read it. -/
theorem W9_main_arg1 (c : Dev nD) : W9 m c (Proc.devRef .tc main_arg1) = m ((c : Thread nD τ).loc main_arg1) :=
  (W9_of m c main_arg1 (by decide)).trans <| (W8_of_ne m c main_arg1 (by decide)).trans <|
  (W7_of m c main_arg1 (by decide)).trans <| (W6_of_ne m c main_arg1 (by decide)).trans <|
  (W5_of m c main_arg1 (by decide)).trans <| (W4_of_ne m c main_arg1 (by decide)).trans <|
  (W3_of m c main_arg1 (by decide)).trans <| (W2_of m c main_arg1 (by decide)).trans <| W1_of m c main_arg1 (by decide)

/-- The graph ids: the third region reads a reshaped copy, never the argument itself. -/
theorem W9_main_arg2 (c : Dev nD) : W9 m c (Proc.devRef .tc main_arg2) = m ((c : Thread nD τ).loc main_arg2) :=
  (W9_of m c main_arg2 (by decide)).trans <| (W8_of_ne m c main_arg2 (by decide)).trans <|
  (W7_of m c main_arg2 (by decide)).trans <| (W6_of_ne m c main_arg2 (by decide)).trans <|
  (W5_of m c main_arg2 (by decide)).trans <| (W4_of_ne m c main_arg2 (by decide)).trans <|
  (W3_of m c main_arg2 (by decide)).trans <| (W2_of m c main_arg2 (by decide)).trans <| W1_of m c main_arg2 (by decide)

/-- The first layer's neighbour weights: the first region's fourth window. -/
theorem W9_main_arg3 (c : Dev nD) : W9 m c (Proc.devRef .tc main_arg3) = m ((c : Thread nD τ).loc main_arg3) :=
  (W9_of m c main_arg3 (by decide)).trans <| (W8_of_ne m c main_arg3 (by decide)).trans <|
  (W7_of m c main_arg3 (by decide)).trans <| (W6_of_ne m c main_arg3 (by decide)).trans <|
  (W5_of m c main_arg3 (by decide)).trans <| (W4_in m c 3 rfl).trans <|
  (W3_of m c main_arg3 (by decide)).trans <| (W2_of m c main_arg3 (by decide)).trans <| W1_of m c main_arg3 (by decide)

/-- The first layer's bias: the first region reads a reshaped copy. -/
theorem W9_main_arg4 (c : Dev nD) : W9 m c (Proc.devRef .tc main_arg4) = m ((c : Thread nD τ).loc main_arg4) :=
  (W9_of m c main_arg4 (by decide)).trans <| (W8_of_ne m c main_arg4 (by decide)).trans <|
  (W7_of m c main_arg4 (by decide)).trans <| (W6_of_ne m c main_arg4 (by decide)).trans <|
  (W5_of m c main_arg4 (by decide)).trans <| (W4_of_ne m c main_arg4 (by decide)).trans <|
  (W3_of m c main_arg4 (by decide)).trans <| (W2_of m c main_arg4 (by decide)).trans <| W1_of m c main_arg4 (by decide)

/-- The first layer's self weights: the first region's sixth window. -/
theorem W9_main_arg5 (c : Dev nD) : W9 m c (Proc.devRef .tc main_arg5) = m ((c : Thread nD τ).loc main_arg5) :=
  (W9_of m c main_arg5 (by decide)).trans <| (W8_of_ne m c main_arg5 (by decide)).trans <|
  (W7_of m c main_arg5 (by decide)).trans <| (W6_of_ne m c main_arg5 (by decide)).trans <|
  (W5_of m c main_arg5 (by decide)).trans <| (W4_in m c 5 rfl).trans <|
  (W3_of m c main_arg5 (by decide)).trans <| (W2_of m c main_arg5 (by decide)).trans <| W1_of m c main_arg5 (by decide)

/-- The second layer's neighbour weights: the second region's fourth window. -/
theorem W9_main_arg6 (c : Dev nD) : W9 m c (Proc.devRef .tc main_arg6) = m ((c : Thread nD τ).loc main_arg6) :=
  (W9_of m c main_arg6 (by decide)).trans <| (W8_of_ne m c main_arg6 (by decide)).trans <|
  (W7_of m c main_arg6 (by decide)).trans <| (W6_in m c 3 rfl).trans <|
  (W5_of m c main_arg6 (by decide)).trans <| (W4_of_ne m c main_arg6 (by decide)).trans <|
  (W3_of m c main_arg6 (by decide)).trans <| (W2_of m c main_arg6 (by decide)).trans <| W1_of m c main_arg6 (by decide)

/-- The second layer's bias: the second region reads a reshaped copy. -/
theorem W9_main_arg7 (c : Dev nD) : W9 m c (Proc.devRef .tc main_arg7) = m ((c : Thread nD τ).loc main_arg7) :=
  (W9_of m c main_arg7 (by decide)).trans <| (W8_of_ne m c main_arg7 (by decide)).trans <|
  (W7_of m c main_arg7 (by decide)).trans <| (W6_of_ne m c main_arg7 (by decide)).trans <|
  (W5_of m c main_arg7 (by decide)).trans <| (W4_of_ne m c main_arg7 (by decide)).trans <|
  (W3_of m c main_arg7 (by decide)).trans <| (W2_of m c main_arg7 (by decide)).trans <| W1_of m c main_arg7 (by decide)

/-- The second layer's self weights: the second region's sixth window. -/
theorem W9_main_arg8 (c : Dev nD) : W9 m c (Proc.devRef .tc main_arg8) = m ((c : Thread nD τ).loc main_arg8) :=
  (W9_of m c main_arg8 (by decide)).trans <| (W8_of_ne m c main_arg8 (by decide)).trans <|
  (W7_of m c main_arg8 (by decide)).trans <| (W6_in m c 5 rfl).trans <|
  (W5_of m c main_arg8 (by decide)).trans <| (W4_of_ne m c main_arg8 (by decide)).trans <|
  (W3_of m c main_arg8 (by decide)).trans <| (W2_of m c main_arg8 (by decide)).trans <| W1_of m c main_arg8 (by decide)

/-- The third layer's neighbour weights: the third region's fourth window. -/
theorem W9_main_arg9 (c : Dev nD) : W9 m c (Proc.devRef .tc main_arg9) = m ((c : Thread nD τ).loc main_arg9) :=
  (W9_of m c main_arg9 (by decide)).trans <| (W8_in m c 3 rfl).trans <|
  (W7_of m c main_arg9 (by decide)).trans <| (W6_of_ne m c main_arg9 (by decide)).trans <|
  (W5_of m c main_arg9 (by decide)).trans <| (W4_of_ne m c main_arg9 (by decide)).trans <|
  (W3_of m c main_arg9 (by decide)).trans <| (W2_of m c main_arg9 (by decide)).trans <| W1_of m c main_arg9 (by decide)

/-- The third layer's bias: the third region reads a reshaped copy. -/
theorem W9_main_arg10 (c : Dev nD) : W9 m c (Proc.devRef .tc main_arg10) = m ((c : Thread nD τ).loc main_arg10) :=
  (W9_of m c main_arg10 (by decide)).trans <| (W8_of_ne m c main_arg10 (by decide)).trans <|
  (W7_of m c main_arg10 (by decide)).trans <| (W6_of_ne m c main_arg10 (by decide)).trans <|
  (W5_of m c main_arg10 (by decide)).trans <| (W4_of_ne m c main_arg10 (by decide)).trans <|
  (W3_of m c main_arg10 (by decide)).trans <| (W2_of m c main_arg10 (by decide)).trans <| W1_of m c main_arg10 (by decide)

/-- The third layer's self weights: the third region's sixth window. -/
theorem W9_main_arg11 (c : Dev nD) : W9 m c (Proc.devRef .tc main_arg11) = m ((c : Thread nD τ).loc main_arg11) :=
  (W9_of m c main_arg11 (by decide)).trans <| (W8_in m c 5 rfl).trans <|
  (W7_of m c main_arg11 (by decide)).trans <| (W6_of_ne m c main_arg11 (by decide)).trans <|
  (W5_of m c main_arg11 (by decide)).trans <| (W4_of_ne m c main_arg11 (by decide)).trans <|
  (W3_of m c main_arg11 (by decide)).trans <| (W2_of m c main_arg11 (by decide)).trans <| W1_of m c main_arg11 (by decide)

/-- The head's weights: the third region's eighth window. -/
theorem W9_main_arg12 (c : Dev nD) : W9 m c (Proc.devRef .tc main_arg12) = m ((c : Thread nD τ).loc main_arg12) :=
  (W9_of m c main_arg12 (by decide)).trans <| (W8_in m c 7 rfl).trans <|
  (W7_of m c main_arg12 (by decide)).trans <| (W6_of_ne m c main_arg12 (by decide)).trans <|
  (W5_of m c main_arg12 (by decide)).trans <| (W4_of_ne m c main_arg12 (by decide)).trans <|
  (W3_of m c main_arg12 (by decide)).trans <| (W2_of m c main_arg12 (by decide)).trans <| W1_of m c main_arg12 (by decide)

/-- The head's bias: the third region reads a reshaped copy. -/
theorem W9_main_arg13 (c : Dev nD) : W9 m c (Proc.devRef .tc main_arg13) = m ((c : Thread nD τ).loc main_arg13) :=
  (W9_of m c main_arg13 (by decide)).trans <| (W8_of_ne m c main_arg13 (by decide)).trans <|
  (W7_of m c main_arg13 (by decide)).trans <| (W6_of_ne m c main_arg13 (by decide)).trans <|
  (W5_of m c main_arg13 (by decide)).trans <| (W4_of_ne m c main_arg13 (by decide)).trans <|
  (W3_of m c main_arg13 (by decide)).trans <| (W2_of m c main_arg13 (by decide)).trans <| W1_of m c main_arg13 (by decide)

end Cert.KernelIdeal.Fr

end
-- ==== Proof.KernelIdeal.Region2Runs.lean ====
/-
  The pooling-and-head kernel's body as three runs, one per control case of its two branches on the grid coordinate.
  The body resets the two sums (a 64 × 64 accumulator and a 64 × 1 counter, kept in two buffers of its own) at the
  first point, then at every point adds the tile's pooled last-layer rows to the accumulator and the tile's one-hot column
  counts to the counter, and at the last point stores the head of the finished sums into the result's buffer.
  Each run is stated on whole buffers at named contents: the nine inputs are read and left as they were, the two sums are
  left one tile further, and the result's buffer is either left as found (first and middle points) or filled (last point).
-/
import proofs.«429062_j38955353375020_2_alg».proof.Proof.KernelIdeal.Region2Data
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first branch condition (the reset of the two sums), from the grid coordinates. -/
abbrev cond2_0 (i : grid2.Coords) : Prop :=
  (Scalar.cmpi .ne (Scalar.extui (Scalar.cmpi .eq (BitVec.ofNat 32 (i 0).val) 0#32)) 0#32) = 1#1
/-- It holds at the first of the 25 points only. -/
theorem hcond2_0 : ∀ t : Fin cfg2.N, cond2_0 (grid2.coords t) ↔ t.val % 25 = 0 :=
  (by decide +kernel : ∀ t : Fin grid2.N, cond2_0 (grid2.coords t) ↔ t.val % 25 = 0)
/-- The body's second branch condition (the head's store), from the grid coordinates. -/
abbrev cond2_1 (i : grid2.Coords) : Prop := k2_cond2 i = 1#1
/-- It holds at the last of the 25 points only. -/
theorem hcond2_1 : ∀ t : Fin cfg2.N, cond2_1 (grid2.coords t) ↔ t.val % 25 = 24 :=
  (by decide +kernel : ∀ t : Fin grid2.N, cond2_1 (grid2.coords t) ↔ t.val % 25 = 24)

section Whole
variable {Val : EltTy → Type} [∀ e, Nonempty (Val e)] {S : Shape} {e : EltTy} {κ : Kind} {sp : Space}

/-- The offsets `![0, 0]` are the zero offsets. -/
theorem hz2 : (![0, 0] : Fin 2 → Nat) = fun _ => 0 := funext fun a => by fin_cases a <;> rfl

/-- A load of a whole buffer, through the rectangle of the buffer's own extents at zero offsets, reads its contents. -/
theorem readAt_unit_zero (v : View sig κ sp S e) (f : v.ty.Contents Val) {off : Fin S.rank → Nat} (h : off = fun _ => 0)
    (inb : ∀ a, off a + S.size a ≤ S.size a) :
    v.readAt Val (Rect.unit off S.size inb).toLoadRect f = v.read Val f := by
  rw [View.readAt_eq_ld, View.ld_unit_zero h]

/-- After a store through that rectangle, whatever was stored before it, the buffer reads as the stored value. -/
theorem read_writes_cons_unit_zero (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩),
    View.canon_cons_unit_zero h]

end Whole

set_option maxHeartbeats 4000000 in
/-- The first point: whatever the two sums' buffers held, the body zeroes them and adds this tile; the result's buffer is
    not touched. -/
theorem sound_kernel2_A (c : Dev nD) (E : Set ℕ) (i : grid2.Coords) (hc0 : cond2_0 i) (hc1 : ¬cond2_1 i)
    (arg1 : Memref sig .tc .vmem S10000x64 .f32) (harg1 : arg1.IsWhole) (arg2 : Memref sig .tc .vmem S10000x1 .f32) (harg2 : arg2.IsWhole)
    (arg3 : Memref sig .tc .vmem S10000x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S64x64 .f32) (harg6 : arg6.IsWhole)
    (arg7 : Memref sig .tc .vmem S10000x1 .i32) (harg7 : arg7.IsWhole) (arg8 : Memref sig .tc .vmem S64x1 .f32) (harg8 : arg8.IsWhole)
    (arg9 : Memref sig .tc .vmem S1x1 .f32) (harg9 : arg9.IsWhole) (arg10 : Memref sig .tc .vmem S64x1 .f32) (harg10 : arg10.IsWhole)
    (arg11 : Memref sig .tc .vmem S64x64 .f32) (harg11 : arg11.IsWhole) (arg12 : Memref sig .tc .vmem S64x1 .f32) (harg12 : arg12.IsWhole)
    (x0 : Vec F S10000x64 .f32) (x1 : Vec F S10000x1 .f32) (x2 : Vec F S10000x64 .f32) (x3 : Vec F S64x64 .f32) (x4 : Vec F S1x64 .f32)
    (x5 : Vec F S64x64 .f32) (x6 : Vec F S10000x1 .i32) (x7 : Vec F S64x1 .f32) (x8 : Vec F S1x1 .f32)
    (y : Vec F S64x1 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ owns (c : Thread nD τ) arg10 fullShare y ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
            ∗ owns (c : Thread nD τ) arg10 fullShare y ∗ owns (c : Thread nD τ) arg11 fullShare (accStep2 x0 x1 x2 x3 x4 x5 x6 (k2_pay3 (F := F)))
            ∗ owns (c : Thread nD τ) arg12 fullShare (cntStep2 x6 (k2_pay4 (F := F)))) -∗ K ⟨⟩))
      ⊢ wp frame (wpE (defs₀ (F := F)) Variants.none c none) E
          (cc2__pool_head_kernel i arg1 harg1 arg2 harg2 arg3 harg3 arg4 harg4 arg5 harg5 arg6 harg6 arg7 harg7 arg8 harg8 arg9 harg9 arg10 harg10 arg11 harg11 arg12 harg12) K := by
  simp only [cc2__pool_head_kernel_eq_skeleton]; unfold cc2__pool_head_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, Hk⟩
  subst hf0; subst hf1; subst hf2; subst hf3; subst hf4; subst hf5; subst hf6; subst hf7; subst hf8; subst hf9
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    sl_unfold_words
    rw [read_writes_cons_unit_zero (S := S64x64) _ _ hz2]
    dsimp only
    rw [readAt_unit_zero arg1.view f0 hz2, readAt_unit_zero arg2.view f1 hz2, readAt_unit_zero arg3.view f2 hz2, readAt_unit_zero arg4.view f3 hz2,
      readAt_unit_zero arg5.view f4 hz2, readAt_unit_zero arg6.view f5 hz2, readAt_unit_zero arg7.view f6 hz2]
    rw [View.readCov_unit_zero (S := S64x64) _ hz2]
    rfl
  iexists _; isplitr
  swap; · iexact H11
  ipureintro
  sl_unfold_words
  rw [read_writes_cons_unit_zero (S := S64x1) _ _ hz2]
  dsimp only
  rw [readAt_unit_zero arg7.view f6 hz2, View.readCov_unit_zero (S := S64x1) _ hz2]
  rfl

set_option maxHeartbeats 4000000 in
/-- A middle point: the two sums' buffers, at `a` and `n`, are each left one tile further; the result's buffer is not touched. -/
theorem sound_kernel2_B (c : Dev nD) (E : Set ℕ) (i : grid2.Coords) (hc0 : ¬cond2_0 i) (hc1 : ¬cond2_1 i)
    (arg1 : Memref sig .tc .vmem S10000x64 .f32) (harg1 : arg1.IsWhole) (arg2 : Memref sig .tc .vmem S10000x1 .f32) (harg2 : arg2.IsWhole)
    (arg3 : Memref sig .tc .vmem S10000x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S64x64 .f32) (harg6 : arg6.IsWhole)
    (arg7 : Memref sig .tc .vmem S10000x1 .i32) (harg7 : arg7.IsWhole) (arg8 : Memref sig .tc .vmem S64x1 .f32) (harg8 : arg8.IsWhole)
    (arg9 : Memref sig .tc .vmem S1x1 .f32) (harg9 : arg9.IsWhole) (arg10 : Memref sig .tc .vmem S64x1 .f32) (harg10 : arg10.IsWhole)
    (arg11 : Memref sig .tc .vmem S64x64 .f32) (harg11 : arg11.IsWhole) (arg12 : Memref sig .tc .vmem S64x1 .f32) (harg12 : arg12.IsWhole)
    (x0 : Vec F S10000x64 .f32) (x1 : Vec F S10000x1 .f32) (x2 : Vec F S10000x64 .f32) (x3 : Vec F S64x64 .f32) (x4 : Vec F S1x64 .f32)
    (x5 : Vec F S64x64 .f32) (x6 : Vec F S10000x1 .i32) (x7 : Vec F S64x1 .f32) (x8 : Vec F S1x1 .f32)
    (y : Vec F S64x1 .f32) (a : Vec F S64x64 .f32) (n : Vec F S64x1 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ owns (c : Thread nD τ) arg10 fullShare y ∗ owns (c : Thread nD τ) arg11 fullShare a ∗ owns (c : Thread nD τ) arg12 fullShare n
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
            ∗ owns (c : Thread nD τ) arg10 fullShare y ∗ owns (c : Thread nD τ) arg11 fullShare (accStep2 x0 x1 x2 x3 x4 x5 x6 a)
            ∗ owns (c : Thread nD τ) arg12 fullShare (cntStep2 x6 n)) -∗ K ⟨⟩))
      ⊢ wp frame (wpE (defs₀ (F := F)) Variants.none c none) E
          (cc2__pool_head_kernel i arg1 harg1 arg2 harg2 arg3 harg3 arg4 harg4 arg5 harg5 arg6 harg6 arg7 harg7 arg8 harg8 arg9 harg9 arg10 harg10 arg11 harg11 arg12 harg12) K := by
  simp only [cc2__pool_head_kernel_eq_skeleton]; unfold cc2__pool_head_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, Hk⟩
  subst hf0; subst hf1; subst hf2; subst hf3; subst hf4; subst hf5; subst hf6; subst hf7; subst hf8; subst hf9; subst hf10; subst hf11
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    rw [read_writes_cons_unit_zero (S := S64x64) _ _ hz2]
    dsimp only
    rw [readAt_unit_zero arg1.view f0 hz2, readAt_unit_zero arg2.view f1 hz2, readAt_unit_zero arg3.view f2 hz2, readAt_unit_zero arg4.view f3 hz2,
      readAt_unit_zero arg5.view f4 hz2, readAt_unit_zero arg6.view f5 hz2, readAt_unit_zero arg7.view f6 hz2]
    rw [readAt_unit_zero arg11.view f10 hz2]
    rfl
  iexists _; isplitr
  swap; · iexact H11
  ipureintro
  rw [read_writes_cons_unit_zero (S := S64x1) _ _ hz2]
  dsimp only
  rw [readAt_unit_zero arg7.view f6 hz2, readAt_unit_zero arg12.view f11 hz2]
  rfl

set_option maxHeartbeats 4000000 in
/-- The last point: the two sums are left one tile further and the result's buffer, whatever it held, is left at the head of
    those finished sums. -/
theorem sound_kernel2_C (c : Dev nD) (E : Set ℕ) (i : grid2.Coords) (hc0 : ¬cond2_0 i) (hc1 : cond2_1 i)
    (arg1 : Memref sig .tc .vmem S10000x64 .f32) (harg1 : arg1.IsWhole) (arg2 : Memref sig .tc .vmem S10000x1 .f32) (harg2 : arg2.IsWhole)
    (arg3 : Memref sig .tc .vmem S10000x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S64x64 .f32) (harg6 : arg6.IsWhole)
    (arg7 : Memref sig .tc .vmem S10000x1 .i32) (harg7 : arg7.IsWhole) (arg8 : Memref sig .tc .vmem S64x1 .f32) (harg8 : arg8.IsWhole)
    (arg9 : Memref sig .tc .vmem S1x1 .f32) (harg9 : arg9.IsWhole) (arg10 : Memref sig .tc .vmem S64x1 .f32) (harg10 : arg10.IsWhole)
    (arg11 : Memref sig .tc .vmem S64x64 .f32) (harg11 : arg11.IsWhole) (arg12 : Memref sig .tc .vmem S64x1 .f32) (harg12 : arg12.IsWhole)
    (x0 : Vec F S10000x64 .f32) (x1 : Vec F S10000x1 .f32) (x2 : Vec F S10000x64 .f32) (x3 : Vec F S64x64 .f32) (x4 : Vec F S1x64 .f32)
    (x5 : Vec F S64x64 .f32) (x6 : Vec F S10000x1 .i32) (x7 : Vec F S64x1 .f32) (x8 : Vec F S1x1 .f32)
    (a : Vec F S64x64 .f32) (n : Vec F S64x1 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ (∃ d, owns (c : Thread nD τ) arg10 fullShare d) ∗ owns (c : Thread nD τ) arg11 fullShare a ∗ owns (c : Thread nD τ) arg12 fullShare n
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
            ∗ owns (c : Thread nD τ) arg10 fullShare (head2 (accStep2 x0 x1 x2 x3 x4 x5 x6 a) (cntStep2 x6 n) x7 x8) ∗ owns (c : Thread nD τ) arg11 fullShare (accStep2 x0 x1 x2 x3 x4 x5 x6 a)
            ∗ owns (c : Thread nD τ) arg12 fullShare (cntStep2 x6 n)) -∗ K ⟨⟩))
      ⊢ wp frame (wpE (defs₀ (F := F)) Variants.none c none) E
          (cc2__pool_head_kernel i arg1 harg1 arg2 harg2 arg3 harg3 arg4 harg4 arg5 harg5 arg6 harg6 arg7 harg7 arg8 harg8 arg9 harg9 arg10 harg10 arg11 harg11 arg12 harg12) K := by
  simp only [cc2__pool_head_kernel_eq_skeleton]; unfold cc2__pool_head_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, Hk⟩
  subst hf0; subst hf1; subst hf2; subst hf3; subst hf4; subst hf5; subst hf6; subst hf7; subst hf8; subst hf10; subst hf11
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    sl_unfold_words
    rw [read_writes_cons_unit_zero (S := S64x1) _ _ hz2]
    rw [View.readCov_unit_zero (S := S64x64) _ hz2, View.readCov_unit_zero (S := S64x1) _ hz2]
    dsimp only
    rw [readAt_unit_zero arg1.view f0 hz2, readAt_unit_zero arg2.view f1 hz2, readAt_unit_zero arg3.view f2 hz2, readAt_unit_zero arg4.view f3 hz2,
      readAt_unit_zero arg5.view f4 hz2, readAt_unit_zero arg6.view f5 hz2, readAt_unit_zero arg7.view f6 hz2]
    rw [readAt_unit_zero arg8.view f7 hz2, readAt_unit_zero arg9.view f8 hz2, readAt_unit_zero arg11.view f10 hz2, readAt_unit_zero arg12.view f11 hz2]
    rfl
  isplitl [H10]
  · iexists _; isplitr
    swap; · iexact H10
    ipureintro
    sl_unfold_words
    rw [read_writes_cons_unit_zero (S := S64x64) _ _ hz2]
    dsimp only
    rw [readAt_unit_zero arg1.view f0 hz2, readAt_unit_zero arg2.view f1 hz2, readAt_unit_zero arg3.view f2 hz2, readAt_unit_zero arg4.view f3 hz2,
      readAt_unit_zero arg5.view f4 hz2, readAt_unit_zero arg6.view f5 hz2, readAt_unit_zero arg7.view f6 hz2]
    rw [readAt_unit_zero arg11.view f10 hz2]
    rfl
  iexists _; isplitr
  swap; · iexact H11
  ipureintro
  sl_unfold_words
  rw [read_writes_cons_unit_zero (S := S64x1) _ _ hz2]
  dsimp only
  rw [readAt_unit_zero arg7.view f6 hz2, readAt_unit_zero arg12.view f11 hz2]
  rfl

end Cert.KernelIdeal.Fr

end
-- ==== Proof.KernelIdeal.Region2.lean ====
/-
  The pooling-and-head region's body obligation: at every grid point the body, handed the invariant before the point and
  every window's current buffer, runs and hands back the invariant after the point and every buffer at what the proof data
  says (the result's buffer untouched at every point but the last).
-/
import proofs.«429062_j38955353375020_2_alg».proof.Proof.KernelIdeal.Region2Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

/-- An input window's current staging buffer holds its block at every point, whether the point fetched it or not, for any
    proof data over these arrays whose body leaves the block in place: one statement per window, at the window's number. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d

/-- The nine input windows are live at every point. -/
theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
theorem liveAt2_3 : ∀ t : Fin cfg2.N, cfg2.idle 3 (grid2.coords t) = false := fun _ => rfl
theorem liveAt2_4 : ∀ t : Fin cfg2.N, cfg2.idle 4 (grid2.coords t) = false := fun _ => rfl
theorem liveAt2_5 : ∀ t : Fin cfg2.N, cfg2.idle 5 (grid2.coords t) = false := fun _ => rfl
theorem liveAt2_6 : ∀ t : Fin cfg2.N, cfg2.idle 6 (grid2.coords t) = false := fun _ => rfl
theorem liveAt2_7 : ∀ t : Fin cfg2.N, cfg2.idle 7 (grid2.coords t) = false := fun _ => rfl
theorem liveAt2_8 : ∀ t : Fin cfg2.N, cfg2.idle 8 (grid2.coords t) = false := fun _ => rfl
/-- Away from the last point the result's window is idle and its block is not written back; -/
theorem idleAt2_9 : ∀ t : Fin cfg2.N, ¬cond2_1 (grid2.coords t) → cfg2.idle 9 (grid2.coords t) = true := by decide +kernel
theorem noFlush2_9 : ∀ t : Fin cfg2.N, ¬cond2_1 (grid2.coords t) → (cfg2.win 9).flush t = false := by decide +kernel
/-- at the last point it is live. -/
theorem liveAt2_9 : ∀ t : Fin cfg2.N, cond2_1 (grid2.coords t) → cfg2.idle 9 (grid2.coords t) = false := by decide +kernel

/-- What the launch hands the region, with the two buffers of the sums split off the core's other scoped buffers: each of
    the two whole at some contents, the others unopened, and the generator register. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ others2 (F := F) c) ∗ (∃ r, prngReg c r)) := by
  unfold Pipeline.ΦA others2
  rw [Pipeline.scopedRest_split_of_list spec2 c [cc2_scratch0, cc2_scratch1] (by decide) (by decide)]
  simp only [bigSepL, scM2_0, scM2_1, owns_whole]; try rfl

/-- The sums after the first point: zero plus the first tile. -/
theorem sumsAt2_first (c : Dev nD) (t : Fin cfg2.N) (hz : t.val = 0) : sumsAt2 V c t.val t.isLt =
    (accStep2 (iblk2 V c 0 t) (iblk2 V c 1 t) (iblk2 V c 2 t) (iblk2 V c 3 t) (iblk2 V c 4 t) (iblk2 V c 5 t) (iblk2 V c 6 t) (k2_pay3 (F := F)),
      cntStep2 (iblk2 V c 6 t) (k2_pay4 (F := F))) := by
  obtain ⟨n, hn⟩ := t
  cases n with
  | zero => rfl
  | succ n => exact absurd hz (Nat.succ_ne_zero n)

/-- The sums after any later point: the point before's plus this tile. -/
theorem sumsAt2_step (c : Dev nD) (t : Fin cfg2.N) (hz : t.val ≠ 0) : sumsAt2 V c t.val t.isLt =
    (accStep2 (iblk2 V c 0 t) (iblk2 V c 1 t) (iblk2 V c 2 t) (iblk2 V c 3 t) (iblk2 V c 4 t) (iblk2 V c 5 t) (iblk2 V c 6 t)
        (sumsAt2 V c (t.val - 1) (Nat.lt_of_le_of_lt (Nat.sub_le _ _) t.isLt)).1,
      cntStep2 (iblk2 V c 6 t) (sumsAt2 V c (t.val - 1) (Nat.lt_of_le_of_lt (Nat.sub_le _ _) t.isLt)).2) := by
  obtain ⟨n, hn⟩ := t
  cases n with
  | zero => exact absurd rfl hz
  | succ n => rfl

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t
    ∗ (dat2 V c).leavesExact 9 t)

set_option maxHeartbeats 8000000 in
/-- The body at any point. The inputs' buffers hold their blocks; the point is the first, the last, or neither, which
    decides the body's two branches; the invariant hands over the two sums' buffers (at anything at the first point, at the
    point before's sums afterwards) and takes them back at this point's sums; the result's buffer is handed back as found
    except at the last point, where it is left at the head of the finished sums; what the core owes passes through. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8]
  rw [show (dat2 V c).owesAt () t.succ = (dat2 V c).owesAt () t.castSucc from rfl]
  rw [show (dat2 V c).Φ t.succ = PhiS2 V c (t.val + 1) t.isLt from rfl, PhiS2_succ]
  have hN : t.val < 25 := lt_of_lt_of_eq t.isLt (show cfg2.N = 25 from N_2)
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  rw [show (dat2 V c).leavesExact 2 t = owns (c : Thread nD τ) (st2_2 t) fullShare ((dat2 V c).after 2 t) from by
    unfold Dat.leavesExact; rw [liveAt2_2 t], after2_2]
  rw [show (dat2 V c).leavesExact 3 t = owns (c : Thread nD τ) (st2_3 t) fullShare ((dat2 V c).after 3 t) from by
    unfold Dat.leavesExact; rw [liveAt2_3 t], after2_3]
  rw [show (dat2 V c).leavesExact 4 t = owns (c : Thread nD τ) (st2_4 t) fullShare ((dat2 V c).after 4 t) from by
    unfold Dat.leavesExact; rw [liveAt2_4 t], after2_4]
  rw [show (dat2 V c).leavesExact 5 t = owns (c : Thread nD τ) (st2_5 t) fullShare ((dat2 V c).after 5 t) from by
    unfold Dat.leavesExact; rw [liveAt2_5 t], after2_5]
  rw [show (dat2 V c).leavesExact 6 t = owns (c : Thread nD τ) (st2_6 t) fullShare ((dat2 V c).after 6 t) from by
    unfold Dat.leavesExact; rw [liveAt2_6 t], after2_6]
  rw [show (dat2 V c).leavesExact 7 t = owns (c : Thread nD τ) (st2_7 t) fullShare ((dat2 V c).after 7 t) from by
    unfold Dat.leavesExact; rw [liveAt2_7 t], after2_7]
  rw [show (dat2 V c).leavesExact 8 t = owns (c : Thread nD τ) (st2_8 t) fullShare ((dat2 V c).after 8 t) from by
    unfold Dat.leavesExact; rw [liveAt2_8 t], after2_8]
  by_cases h0 : t.val % 25 = 0
  · have hz : t.val = 0 := by omega
    have h1 : ¬t.val % 25 = 24 := by omega
    have hc0 : cond2_0 (grid2.coords t) := (hcond2_0 t).mpr h0
    have hc1 : ¬cond2_1 (grid2.coords t) := fun h => h1 ((hcond2_1 t).mp h)
    rw [Dat.leavesExact_idle (dat2 V c) 9 t (idleAt2_9 t hc1) (noFlush2_9 t hc1)]
    rw [sumsAt2_first V c t hz]; dsimp only
    rw [PhiS2_castSucc V c t, PhiS2_zero V c _ _ hz, PhiA2_eq]
    iintro ⟨⟨⟨⟨HS0, HS1⟩, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (sound_kernel2_A c Set.univ (grid2.coords t) hc0 hc1 _ _ _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS0]; · iexact HS0
    isplitl [HS1]; · iexact HS1
    iintro ⟨H0, H1, H2, H3, H4, H5, H6, H7, H8, H9, HS0, HS1⟩
    isplitl [Hoth HS0 HS1 Hg]
    · isplitl [Hoth HS0 HS1]
      · isplitl [Hoth]; · iexact Hoth
        isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists _; iexact H9
  · have hz : t.val ≠ 0 := by omega
    have hc0 : ¬cond2_0 (grid2.coords t) := fun h => h0 ((hcond2_0 t).mp h)
    rw [sumsAt2_step V c t hz]; dsimp only
    rw [PhiS2_castSucc V c t, PhiS2_pos V c _ _ hz]
    by_cases h1 : t.val % 25 = 24
    · have hc1 : cond2_1 (grid2.coords t) := (hcond2_1 t).mpr h1
      rw [show (dat2 V c).leavesExact 9 t = owns (c : Thread nD τ) (st2_9 t) fullShare ((dat2 V c).after 9 t) from by
        unfold Dat.leavesExact; rw [liveAt2_9 t hc1], after2_9]
      rw [sumsAt2_step V c t hz]; dsimp only
      iintro ⟨⟨⟨Hoth, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (sound_kernel2_C c Set.univ (grid2.coords t) hc0 hc1 _ _ _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [HS0]; · iexact HS0
      isplitl [HS1]; · iexact HS1
      iintro ⟨H0, H1, H2, H3, H4, H5, H6, H7, H8, H9, HS0, HS1⟩
      isplitl [Hoth HS0 HS1 Hg]
      · isplitl [Hoth HS0 HS1]
        · isplitl [Hoth]; · iexact Hoth
          isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · have hc1 : ¬cond2_1 (grid2.coords t) := fun h => h1 ((hcond2_1 t).mp h)
      rw [Dat.leavesExact_idle (dat2 V c) 9 t (idleAt2_9 t hc1) (noFlush2_9 t hc1)]
      iintro ⟨⟨⟨Hoth, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (sound_kernel2_B c Set.univ (grid2.coords t) hc0 hc1 _ _ _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) _ _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      isplitl [HS1]; · iexact HS1
      iintro ⟨H0, H1, H2, H3, H4, H5, H6, H7, H8, H9, HS0, HS1⟩
      isplitl [Hoth HS0 HS1 Hg]
      · isplitl [Hoth HS0 HS1]
        · isplitl [Hoth]; · iexact Hoth
          isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexists _; iexact H9

/-- The body obligation of this region, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 (F := F) V c).Φ 0 := by
  rw [show (dat2 V c).Φ 0 = PhiS2 V c 0 (Nat.zero_le _) from rfl, PhiS2_zero V c 0 _ rfl]

/-- After the last point the invariant gives back what the launch handed over: the sums' values are forgotten. -/
theorem hout2 (c : Dev nD) : (dat2 (F := F) V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 25 := N_2; omega), PhiA2_eq]
  iintro ⟨⟨Hoth, HS0, HS1⟩, Hg⟩
  isplitl [Hoth HS0 HS1]
  · isplitr [Hoth]
    · isplitl [HS0]
      · iexists _; iexact HS0
      iexists _; iexact HS1
    iexact Hoth
  iexact Hg

end Region2

end Cert.KernelIdeal.Fr

end
-- ==== Proof.KernelIdeal.Run.lean ====
/-
  The whole program as one run. The core executes, in order: three stretches of host operations (degrees and inverse
  degrees, the where-selection, the first layer's neighbour sums), the first update region, a stretch (the second layer's
  neighbour sums), the second update region, a stretch (the third layer's neighbour sums and the reshaped operands), the
  pooling-and-head region, and the closing reshape. Between two items the core holds every unscoped buffer whole at the
  contents the fold W0 … W9 names, its generator register at some state, and owes nothing. Each item carries that state
  from one boundary to the next, so every execution terminates and every final memory holds, in each unscoped buffer, what
  W9 says: in particular every argument as launched and the result at W9's value.
-/
import proofs.«429062_j38955353375020_2_alg».proof.Proof.KernelIdeal.FoldArgs
import proofs.«429062_j38955353375020_2_alg».proof.Proof.KernelIdeal.Region2

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data of the three pipelines, and what a core holds between items -/

/-- Each pipeline's proof data at the contents its region is entered with: the fold at W3, W5 and W7. -/
def pdats : (p : Fin 3) → (c : Dev nD) → Dat τ (Elt F) Unit ℕ (UR sig nD τ) ℕ (Pipeline.pin (pcfgs (F := F)) adm p) c
  | ⟨0, _⟩ => fun c => dat0 (V3 m) c
  | ⟨1, _⟩ => fun c => dat1 (V5 m) c
  | ⟨2, _⟩ => fun c => dat2 (V7 m) c

abbrev 𝒱₀ : Variants := Variants.none
/-- No core waits on another: no level is assigned anywhere. -/
abbrev L : GSem nD τ sig → Finset Unit := fun _ => ∅
abbrev lv : GSem nD τ sig → Unit → ℕ := fun _ _ => 0

/-- The generator register at some state. -/
abbrev rng (c : Dev nD) : sProp 𝕄 := iprop(∃ r, prngReg c r)
/-- The core owes nothing. -/
abbrev quit (c : Dev nD) : sProp 𝕄 := iprop(∃ W, owes (c : Thread nD τ) (0 : CellTallies nD τ sig Unit) W)
/-- What rides beside the buffers through every item. -/
abbrev R (c : Dev nD) : sProp 𝕄 := iprop(rng (F := F) c ∗ quit (F := F) c)
/-- The core's state at a boundary whose contents are `W`: every unscoped buffer whole at `W c`, and `R c`. -/
abbrev at_ (W : Dev nD → Valuation τ sig (Elt F)) (c : Dev nD) : sProp 𝕄 :=
  iprop(StableHlo.held (c : Thread nD τ) (Pipeline.ucRefs τ sig) (W c) ∗ R (F := F) c)

/-- A stretch of host operations as an item: from the boundary at `W` to the boundary at `W` after the operations. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W (R (F := F))

/-- An unscoped reference of the core is among the buffers the state holds. -/
theorem mem_uc (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-- What the core holds at the end, the debt apart. -/
abbrev Tₙ (c : Dev nD) : sProp 𝕄 :=
  iprop(StableHlo.held (c : Thread nD τ) (Pipeline.ucRefs τ sig) (W9 m c) ∗ rng (F := F) c)

/-- The last boundary's state regrouped: the buffers and the register on one side, the empty debt on the other. -/
theorem at_end (c : Dev nD) : at_ (W9 m) c ⊢ iprop(Tₙ m c ∗ quit (F := F) c) := by
  iintro ⟨Hbufs, Hg, Hq⟩
  isplitl [Hbufs Hg]
  · isplitl [Hbufs] <;> iassumption
  iexact Hq

/-! ## The three regions as items -/

set_option backward.isDefEq.respectTransparency.types false in
/-- The first update region: entered at W3, left at W4. On entry its seven arrays are taken out of the unscoped buffers at
    the contents the proof data starts from, the generator register goes into the pipeline's invariant and the other
    unscoped buffers wait beside it; on exit the arrays come back at what the write-backs left, which is W4. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m) c).loose
  hwaits := Pipeline.hwaits_of_owed_zero _ _ _ _ L lv 0 fun _ _ => rfl
  pre := at_ (W3 m)
  post := at_ (W4 m)
  X := rng
  Y := rng
  Z c := Pipeline.unscopedRest (Ix := Unit) (Name := ℕ) (U := UR sig nD τ) (Lvl := ℕ) spec0 c (V3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V3 m c) fun _ => rfl
    rw [Pipeline.unscopedBufs_held] at hsplit
    iintro ⟨⟨Hbufs, Hg, Hq⟩, -, -⟩
    ihave H := hsplit $$ Hbufs
    icases H with ⟨Harr, Hrest⟩
    imodintro
    isplitl [Harr]; · iexact Harr
    isplitr
    · unfold Pipeline.prefHeld; rw [show (Finset.univ : Finset (Fin 0)) = ∅ from rfl, BI.bigSep_empty]; iempintro
    isplitl [Hq]
    · unfold Pipeline.Dat.owesAt Pipeline.owesWithin
      icases Hq with ⟨%W, Hq⟩; iexists W
      isplitr; · ipureintro; exact fun _ _ => Or.inl trivial
      iexact Hq
    isplitl [Hg]; · iexact Hg
    iexact Hrest
  hin c := by
    rw [show (pdats m 0 c).Φ 0 = Pipeline.ΦA spec0 c from rfl]; unfold Pipeline.ΦA
    iintro ⟨Hg, -, Hsc⟩
    isplitl [Hsc]; · iexact Hsc
    iexact Hg
  hout c := by
    rw [Pipeline.ownSems0_none, show (pdats m 0 c).Φ (Fin.last _) = Pipeline.ΦA spec0 c from rfl]; unfold Pipeline.ΦA
    iintro ⟨Hsc, Hg⟩
    isplitl [Hg]; · iexact Hg
    isplitr; · iempintro
    iexact Hsc
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V3 m c) (V4 m c) ((pdats m 0 c).arrAt · cfg0.N) (hF0 m c) (hrest0 m c)
    rw [Pipeline.unscopedBufs_held] at hjoin
    iintro ⟨Harr, Hq, Hg, Hrest⟩
    imodintro
    isplitl [Harr Hrest]
    · iapply hjoin; isplitl [Harr] <;> iassumption
    isplitl [Hg]; · iexact Hg
    unfold Pipeline.Dat.owesAt Pipeline.owesWithin
    icases Hq with ⟨%W, -, Hq⟩; iexists W; iexact Hq

set_option backward.isDefEq.respectTransparency.types false in
/-- The second update region: entered at W5, left at W6, in the same way. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m) c).loose
  hwaits := Pipeline.hwaits_of_owed_zero _ _ _ _ L lv 1 fun _ _ => rfl
  pre := at_ (W5 m)
  post := at_ (W6 m)
  X := rng
  Y := rng
  Z c := Pipeline.unscopedRest (Ix := Unit) (Name := ℕ) (U := UR sig nD τ) (Lvl := ℕ) spec1 c (V5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V5 m c) fun _ => rfl
    rw [Pipeline.unscopedBufs_held] at hsplit
    iintro ⟨⟨Hbufs, Hg, Hq⟩, -, -⟩
    ihave H := hsplit $$ Hbufs
    icases H with ⟨Harr, Hrest⟩
    imodintro
    isplitl [Harr]; · iexact Harr
    isplitr
    · unfold Pipeline.prefHeld; rw [show (Finset.univ : Finset (Fin 0)) = ∅ from rfl, BI.bigSep_empty]; iempintro
    isplitl [Hq]
    · unfold Pipeline.Dat.owesAt Pipeline.owesWithin
      icases Hq with ⟨%W, Hq⟩; iexists W
      isplitr; · ipureintro; exact fun _ _ => Or.inl trivial
      iexact Hq
    isplitl [Hg]; · iexact Hg
    iexact Hrest
  hin c := by
    rw [show (pdats m 1 c).Φ 0 = Pipeline.ΦA spec1 c from rfl]; unfold Pipeline.ΦA
    iintro ⟨Hg, -, Hsc⟩
    isplitl [Hsc]; · iexact Hsc
    iexact Hg
  hout c := by
    rw [Pipeline.ownSems0_none, show (pdats m 1 c).Φ (Fin.last _) = Pipeline.ΦA spec1 c from rfl]; unfold Pipeline.ΦA
    iintro ⟨Hsc, Hg⟩
    isplitl [Hg]; · iexact Hg
    isplitr; · iempintro
    iexact Hsc
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V5 m c) (V6 m c) ((pdats m 1 c).arrAt · cfg1.N) (hF1 m c) (hrest1 m c)
    rw [Pipeline.unscopedBufs_held] at hjoin
    iintro ⟨Harr, Hq, Hg, Hrest⟩
    imodintro
    isplitl [Harr Hrest]
    · iapply hjoin; isplitl [Harr] <;> iassumption
    isplitl [Hg]; · iexact Hg
    unfold Pipeline.Dat.owesAt Pipeline.owesWithin
    icases Hq with ⟨%W, -, Hq⟩; iexists W; iexact Hq

set_option backward.isDefEq.respectTransparency.types false in
/-- The pooling-and-head region: entered at W7, left at W8. Its invariant is its own (the two running sums live in scratch
    buffers between points): what the launch hands every region makes it before the first point, and after the last point
    it gives that back, the sums forgotten. The arrays and the other buffers are handled as in the update regions. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m) c).loose
  hwaits := Pipeline.hwaits_of_owed_zero _ _ _ _ L lv 2 fun _ _ => rfl
  pre := at_ (W7 m)
  post := at_ (W8 m)
  X := rng
  Y := rng
  Z c := Pipeline.unscopedRest (Ix := Unit) (Name := ℕ) (U := UR sig nD τ) (Lvl := ℕ) spec2 c (V7 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V7 m c) fun _ => rfl
    rw [Pipeline.unscopedBufs_held] at hsplit
    iintro ⟨⟨Hbufs, Hg, Hq⟩, -, -⟩
    ihave H := hsplit $$ Hbufs
    icases H with ⟨Harr, Hrest⟩
    imodintro
    isplitl [Harr]; · iexact Harr
    isplitr
    · unfold Pipeline.prefHeld; rw [show (Finset.univ : Finset (Fin 0)) = ∅ from rfl, BI.bigSep_empty]; iempintro
    isplitl [Hq]
    · unfold Pipeline.Dat.owesAt Pipeline.owesWithin
      icases Hq with ⟨%W, Hq⟩; iexists W
      isplitr; · ipureintro; exact fun _ _ => Or.inl trivial
      iexact Hq
    isplitl [Hg]; · iexact Hg
    iexact Hrest
  hin c := by
    refine BIBase.Entails.trans ?_ (hin2 (V7 m) c)
    unfold Pipeline.ΦA
    iintro ⟨Hg, -, Hsc⟩
    isplitl [Hsc]; · iexact Hsc
    iexact Hg
  hout c := by
    refine (hout2 (V7 m) c).trans ?_
    rw [Pipeline.ownSems0_none]; unfold Pipeline.ΦA
    iintro ⟨Hsc, Hg⟩
    isplitl [Hg]; · iexact Hg
    isplitr; · iempintro
    iexact Hsc
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V7 m c) (V8 m c) ((pdats m 2 c).arrAt · cfg2.N) (hF2 m c) (hrest2 m c)
    rw [Pipeline.unscopedBufs_held] at hjoin
    iintro ⟨Harr, Hq, Hg, Hrest⟩
    imodintro
    isplitl [Harr Hrest]
    · iapply hjoin; isplitl [Harr] <;> iassumption
    isplitl [Hg]; · iexact Hg
    unfold Pipeline.Dat.owesAt Pipeline.owesWithin
    icases Hq with ⟨%W, -, Hq⟩; iexists W; iexact Hq

/-! ## The program as its items, and the run -/

/-- The nine items in program order, each host stretch from the contents of the boundary before it. -/
abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m),
    .host (hseg hostOps2 hostOps2_sub hostOps2_fresh (W6 m)),
    .region (reg2 m),
    .host (hseg hostOps3 hostOps3_sub hostOps3_fresh (W8 m)) ]

/-- The program is the run of its items: it is the chain of the same nine fragments, and the two spellings of that chain
    agree by unfolding. -/
theorem main_run (c : Dev nD) : main (F := F) c = Pipeline.Seg.run (segs m) := (main_chain c).trans (by chain_rfl)

set_option backward.isDefEq.respectTransparency.types false in
/-- From any memory, with all counters at zero, every fair execution of the program on the cores ends, and in every final
    memory each unscoped buffer of each core holds what the fold says at the end, W9. The launch gives each core its
    unscoped buffers at the launch memory (W0), its generator register and no debt; the items carry that state along the
    boundaries W0, W1, …, W9; the last state is read off against the final memory. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W9 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := at_ (W0 m)) (Tₙ := Tₙ m)
    (hch := ⟨fun _ => .rfl, fun _ => .rfl, fun _ => .rfl, fun _ => .rfl, fun _ => .rfl, fun _ => .rfl, fun _ => .rfl,
      fun _ => .rfl, fun _ => .rfl, fun c => at_end m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hbufs, -, Hq, -, Hg, -⟩, -⟩
      imodintro
      isplitl [Hbufs]; · iexact Hbufs
      isplitl [Hg]; · iexists _; iexact Hg
      iexists ∅; iexact Hq)
    (QY := fun c s => ∀ b ∈ Pipeline.ucRefs τ sig, s.mem (((c : Thread nD τ)).1, b) = W9 m c b)
    (hfin := fun c s' => by
      iintro ⟨⟨Hbufs, -⟩, HSI⟩
      unfold StableHlo.held
      imodintro
      iapply (pointsTo_read_all (Pipeline.ucRefs τ sig) (fun b => (((c : Thread nD τ)).1, b)) (W9 m c) s')
      isplitl [Hbufs] <;> iassumption)
    (hQ := fun s h => h)

/-- Every argument ends as launched: each argument's buffer is unscoped, so the run names its final contents, W9's, and at
    an argument the fold collapses to the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c =>
    ⟨(h c _ (mem_uc main_arg0 (by decide))).trans (W9_main_arg0 m c),
     (h c _ (mem_uc main_arg1 (by decide))).trans (W9_main_arg1 m c),
     (h c _ (mem_uc main_arg2 (by decide))).trans (W9_main_arg2 m c),
     (h c _ (mem_uc main_arg3 (by decide))).trans (W9_main_arg3 m c),
     (h c _ (mem_uc main_arg4 (by decide))).trans (W9_main_arg4 m c),
     (h c _ (mem_uc main_arg5 (by decide))).trans (W9_main_arg5 m c),
     (h c _ (mem_uc main_arg6 (by decide))).trans (W9_main_arg6 m c),
     (h c _ (mem_uc main_arg7 (by decide))).trans (W9_main_arg7 m c),
     (h c _ (mem_uc main_arg8 (by decide))).trans (W9_main_arg8 m c),
     (h c _ (mem_uc main_arg9 (by decide))).trans (W9_main_arg9 m c),
     (h c _ (mem_uc main_arg10 (by decide))).trans (W9_main_arg10 m c),
     (h c _ (mem_uc main_arg11 (by decide))).trans (W9_main_arg11 m c),
     (h c _ (mem_uc main_arg12 (by decide))).trans (W9_main_arg12 m c),
     (h c _ (mem_uc main_arg13 (by decide))).trans (W9_main_arg13 m c)⟩) (run_all m ρ)

/-- The same run, read at the result as well: the result's buffer ends at W9's value, and every argument as launched. -/
theorem run_value : θ_run defs (onTc (τ := τ) (main (F := F))) ⟨m, fun _ => 0, ρ⟩ (fun r => ∀ c : Dev nD,
      r.2.mem ((c.tc : Thread nD τ).loc main_v54) = W9 m c (Proc.devRef .tc main_v54)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c =>
    ⟨h c _ (mem_uc main_v54 (by decide)),
     (h c _ (mem_uc main_arg0 (by decide))).trans (W9_main_arg0 m c),
     (h c _ (mem_uc main_arg1 (by decide))).trans (W9_main_arg1 m c),
     (h c _ (mem_uc main_arg2 (by decide))).trans (W9_main_arg2 m c),
     (h c _ (mem_uc main_arg3 (by decide))).trans (W9_main_arg3 m c),
     (h c _ (mem_uc main_arg4 (by decide))).trans (W9_main_arg4 m c),
     (h c _ (mem_uc main_arg5 (by decide))).trans (W9_main_arg5 m c),
     (h c _ (mem_uc main_arg6 (by decide))).trans (W9_main_arg6 m c),
     (h c _ (mem_uc main_arg7 (by decide))).trans (W9_main_arg7 m c),
     (h c _ (mem_uc main_arg8 (by decide))).trans (W9_main_arg8 m c),
     (h c _ (mem_uc main_arg9 (by decide))).trans (W9_main_arg9 m c),
     (h c _ (mem_uc main_arg10 (by decide))).trans (W9_main_arg10 m c),
     (h c _ (mem_uc main_arg11 (by decide))).trans (W9_main_arg11 m c),
     (h c _ (mem_uc main_arg12 (by decide))).trans (W9_main_arg12 m c),
     (h c _ (mem_uc main_arg13 (by decide))).trans (W9_main_arg13 m c)⟩) (run_all m ρ)

end Cert.KernelIdeal.Fr

end
-- ==== Proof.Value.Spec.lean ====
/-
  The model both programs compute, as functions of whole arrays, generic in the float family: the reference's own host
  operations grouped by what they mean.
    deg, dinv      : in-degree of every node from the edge list; 1 / max(deg, 1) where deg > 0, else 0.
    agg            : sum over incoming edges of the source node's row (gather by source, accumulate by destination; an
                     edge whose destination is out of range contributes nothing).
    layerPre       : (agg · dinv) W_l + b + h W_r, the bias added between the two products.
    relu           : max(·, 0).
    poolHead       : rows summed per graph id and divided by max(count, 1), times the head's weights, plus its bias;
                     a row whose graph id is outside 0 … 63 contributes to no graph.
    model          : three layers (the first two through relu), then the pooled head.
-/
import proofs.«429062_j38955353375020_2_alg».proof.Proof.Gen.ReferenceIdeal

noncomputable section

namespace Cert.Spec

open Cert.ReferenceIdeal Cert.ReferenceIdeal.Facts₀ Cert.ReferenceIdeal.Facts Idealize.ShloMosaic

/-- The contents of a buffer of shape `S` and element type `e`. -/
abbrev Arr (F : FTy → Type) (S : Shape) (e : EltTy) : Type := (⟨S, e⟩ : BufTy).Contents (Elt F)

variable {F : FTy → Type} [FloatOps F]

/-- Row 0 of the edge list: the source node of every edge. -/
def srcRaw (ei : Arr F S2x2000000 .i32) : Arr F S2000000 .i32 :=
  fun i => shapeCast S2000000 (extractStridedSlice S1x2000000 ![0, 0] ei slices_S2x2000000_S1x2000000_0_0) shapeCasts_S1x2000000_S2000000 i
/-- Row 1 of the edge list: the destination node of every edge. -/
def dstRaw (ei : Arr F S2x2000000 .i32) : Arr F S2000000 .i32 :=
  fun i => shapeCast S2000000 (extractStridedSlice S1x2000000 ![1, 0] ei slices_S2x2000000_S1x2000000_1_0) shapeCasts_S1x2000000_S2000000 i

/-- The sources as gather indices: a negative one counted from the end. -/
def srcIdx (ei : Arr F S2x2000000 .i32) : Arr F S2000000x1 .i32 :=
  broadcastInDim S2000000x1 ![0] bcast_S2000000_S2000000x1_0
    (select (cmpi .slt (srcRaw (F := F) ei) (broadcastInDim S2000000 ![] bcast_S_S2000000 (constantI S_ 32 0#32)))
      (addi (srcRaw (F := F) ei) (broadcastInDim S2000000 ![] bcast_S_S2000000 (constantI S_ 32 250000#32)))
      (srcRaw (F := F) ei))
/-- The destinations as scatter indices. -/
def dstIdx (ei : Arr F S2x2000000 .i32) : Arr F S2000000x1 .i32 :=
  broadcastInDim S2000000x1 ![0] bcast_S2000000_S2000000x1_0 (dstRaw (F := F) ei)

/-- In-degree of every node. -/
def deg (ei : Arr F S2x2000000 .i32) : Arr F S250000 .f32 :=
  Host.scatterAdd scatter_S250000_S2000000x1_S2000000_n_0_0_1
    (broadcastInDim S250000 ![] bcast_S_S250000 (constant S_ .f32 0x00000000#32))
    (dstIdx (F := F) ei)
    (broadcastInDim S2000000 ![] bcast_S_S2000000 (constant S_ .f32 0x3F800000#32))

/-- 1 / max(deg, 1) where deg > 0, else 0. -/
def dinvOf (ei : Arr F S2x2000000 .i32) : Arr F S250000 .f32 :=
  select (cmpf (F := F) .ogt (deg ei) (broadcastInDim S250000 ![] bcast_S_S250000 (constant S_ .f32 0x00000000#32)))
    (Host.divf (broadcastInDim S250000 ![] bcast_S_S250000 (constant S_ .f32 0x3F800000#32))
      (maximumf (deg ei) (broadcastInDim S250000 ![] bcast_S_S250000 (constant S_ .f32 0x3F800000#32))))
    (broadcastInDim S250000 ![] bcast_S_S250000 (id (constant S_ .f32 0x00000000#32)))

/-- Neighbour sums of 16-wide rows. -/
def agg16 (ei : Arr F S2x2000000 .i32) (h : Arr F S250000x16 .f32) : Arr F S250000x16 .f32 :=
  Host.scatterAdd scatter_S250000x16_S2000000x1_S2000000x16_1_0_0_1
    (broadcastInDim S250000x16 ![] bcast_S_S250000x16 (constant S_ .f32 0x00000000#32))
    (dstIdx (F := F) ei)
    (Host.gather gather_S250000x16_S2000000x1_S2000000x16_1_0_n_n_0_1_116 h (srcIdx (F := F) ei))
/-- Neighbour sums of 64-wide rows. -/
def agg64 (ei : Arr F S2x2000000 .i32) (h : Arr F S250000x64 .f32) : Arr F S250000x64 .f32 :=
  Host.scatterAdd scatter_S250000x64_S2000000x1_S2000000x64_1_0_0_1
    (broadcastInDim S250000x64 ![] bcast_S_S250000x64 (constant S_ .f32 0x00000000#32))
    (dstIdx (F := F) ei)
    (Host.gather gather_S250000x64_S2000000x1_S2000000x64_1_0_n_n_0_1_164 h (srcIdx (F := F) ei))

/-- One layer before its activation, 16-wide input. -/
def layerPre16 (msg : Arr F S250000x16 .f32) (dinv : Arr F S250000 .f32) (x : Arr F S250000x16 .f32)
    (Wl : Arr F S16x64 .f32) (bl : Arr F S64 .f32) (Wr : Arr F S16x64 .f32) : Arr F S250000x64 .f32 :=
  addf
    (addf
      (Host.dotGeneral dot_S250000x16_S16x64_S250000x64_1_0_0_1_n_n none
        (mulf msg (broadcastInDim S250000x16 ![0, 1] bcast_S250000x1_S250000x16_0_1 (broadcastInDim S250000x1 ![0] bcast_S250000_S250000x1_0 dinv)))
        Wl)
      (broadcastInDim S250000x64 ![0, 1] bcast_S1x64_S250000x64_0_1 (broadcastInDim S1x64 ![1] bcast_S64_S1x64_1 bl)))
    (Host.dotGeneral dot_S250000x16_S16x64_S250000x64_1_0_0_1_n_n none x Wr)
/-- One layer before its activation, 64-wide input. -/
def layerPre64 (msg : Arr F S250000x64 .f32) (dinv : Arr F S250000 .f32) (x : Arr F S250000x64 .f32)
    (Wl : Arr F S64x64 .f32) (bl : Arr F S64 .f32) (Wr : Arr F S64x64 .f32) : Arr F S250000x64 .f32 :=
  addf
    (addf
      (Host.dotGeneral dot_S250000x64_S64x64_S250000x64_1_0_0_1_n_n none
        (mulf msg (broadcastInDim S250000x64 ![0, 1] bcast_S250000x1_S250000x64_0_1 (broadcastInDim S250000x1 ![0] bcast_S250000_S250000x1_0 dinv)))
        Wl)
      (broadcastInDim S250000x64 ![0, 1] bcast_S1x64_S250000x64_0_1 (broadcastInDim S1x64 ![1] bcast_S64_S1x64_1 bl)))
    (Host.dotGeneral dot_S250000x64_S64x64_S250000x64_1_0_0_1_n_n none x Wr)

/-- max(·, 0), element by element. -/
def relu (h : Arr F S250000x64 .f32) : Arr F S250000x64 .f32 :=
  maximumf h (broadcastInDim S250000x64 ![] bcast_S_S250000x64 (constant S_ .f32 0x00000000#32))

/-- Per-graph sums of the rows. -/
def pooled (h2 : Arr F S250000x64 .f32) (batch : Arr F S250000 .i32) : Arr F S64x64 .f32 :=
  Host.scatterAdd scatter_S64x64_S250000x1_S250000x64_1_0_0_1
    (broadcastInDim S64x64 ![] bcast_S_S64x64 (constant S_ .f32 0x00000000#32))
    (broadcastInDim S250000x1 ![0] bcast_S250000_S250000x1_0 batch) h2
/-- Per-graph row counts. -/
def counts (batch : Arr F S250000 .i32) : Arr F S64 .f32 :=
  Host.scatterAdd scatter_S64_S250000x1_S250000_n_0_0_1
    (broadcastInDim S64 ![] bcast_S_S64 (constant S_ .f32 0x00000000#32))
    (broadcastInDim S250000x1 ![0] bcast_S250000_S250000x1_0 batch)
    (broadcastInDim S250000 ![] bcast_S_S250000 (constant (F := F) S_ .f32 0x3F800000#32))

/-- The pooled head as a column: mean per graph, times the head's weights, plus its bias. -/
def poolHeadCol (h2 : Arr F S250000x64 .f32) (batch : Arr F S250000 .i32) (Wh : Arr F S64x1 .f32) (bh : Arr F S1 .f32) : Arr F S64x1 .f32 :=
  addf
    (Host.dotGeneral dot_S64x64_S64x1_S64x1_1_0_0_1_n_n none
      (Host.divf (pooled h2 batch)
        (broadcastInDim S64x64 ![0, 1] bcast_S64x1_S64x64_0_1 (broadcastInDim S64x1 ![0] bcast_S64_S64x1_0
          (maximumf (counts (F := F) batch) (broadcastInDim S64 ![] bcast_S_S64 (constant S_ .f32 0x3F800000#32))))))
      Wh)
    (broadcastInDim S64x1 ![0, 1] bcast_S1x1_S64x1_0_1 (broadcastInDim S1x1 ![1] bcast_S1_S1x1_1 bh))
/-- The same as a vector of 64. -/
def poolHead (h2 : Arr F S250000x64 .f32) (batch : Arr F S250000 .i32) (Wh : Arr F S64x1 .f32) (bh : Arr F S1 .f32) : Arr F S64 .f32 :=
  fun i => shapeCast S64 (poolHeadCol h2 batch Wh bh) shapeCasts_S64x1_S64 i

/-- The hidden state after the first layer, and after the second. -/
def hidden1 (x : Arr F S250000x16 .f32) (ei : Arr F S2x2000000 .i32) (Wl0 : Arr F S16x64 .f32) (bl0 : Arr F S64 .f32) (Wr0 : Arr F S16x64 .f32) : Arr F S250000x64 .f32 :=
  relu (layerPre16 (agg16 ei x) (dinvOf ei) x Wl0 bl0 Wr0)
def hidden2 (h : Arr F S250000x64 .f32) (ei : Arr F S2x2000000 .i32) (Wl : Arr F S64x64 .f32) (bl : Arr F S64 .f32) (Wr : Arr F S64x64 .f32) : Arr F S250000x64 .f32 :=
  relu (layerPre64 (agg64 ei h) (dinvOf ei) h Wl bl Wr)

/-- The whole model. -/
def model (x : Arr F S250000x16 .f32) (ei : Arr F S2x2000000 .i32) (batch : Arr F S250000 .i32)
    (Wl0 : Arr F S16x64 .f32) (bl0 : Arr F S64 .f32) (Wr0 : Arr F S16x64 .f32)
    (Wl1 : Arr F S64x64 .f32) (bl1 : Arr F S64 .f32) (Wr1 : Arr F S64x64 .f32)
    (Wl2 : Arr F S64x64 .f32) (bl2 : Arr F S64 .f32) (Wr2 : Arr F S64x64 .f32)
    (Wh : Arr F S64x1 .f32) (bh : Arr F S1 .f32) : Arr F S64 .f32 :=
  poolHead
    (layerPre64 (agg64 ei (hidden2 (hidden1 x ei Wl0 bl0 Wr0) ei Wl1 bl1 Wr1)) (dinvOf ei) (hidden2 (hidden1 x ei Wl0 bl0 Wr0) ei Wl1 bl1 Wr1) Wl2 bl2 Wr2)
    batch Wh bh

end Cert.Spec

end
-- ==== Proof.Value.KernelHost.lean ====
/-
  What the host operations of the kernel program hand to its three regions, and what the closing reshape returns.
  The edge list is sliced into sources and destinations once; the in-degrees, their guarded inverses and each layer's
  neighbour sums (gather by source, accumulate by destination) are the model's own terms of the launch arguments and of
  the previous region's result; a bias row, the graph ids and the head's bias reach their region reshaped to two axes;
  every other operand of a region is an argument as launched.
-/
import proofs.«429062_j38955353375020_2_alg».proof.Proof.KernelIdeal.Fold
import proofs.«429062_j38955353375020_2_alg».proof.Proof.KernelIdeal.FoldArgs
import proofs.«429062_j38955353375020_2_alg».proof.Proof.Value.Spec

set_option maxRecDepth 16384

noncomputable section

namespace Cert.KernelIdeal.Val

open Cert.KernelIdeal Cert.KernelIdeal.Gen
open Idealize.ShloMosaic Idealize.ShloMosaic.TcCoe

variable {F : FTy → Type} [FloatOps F]

/-! ## One stretch of host operations, from any contents `V` of the core's buffers -/

section Stretches
variable (V : Valuation τ sig (Elt F))

/-- Row 0 of the edge list, flattened: the sources. -/
theorem s0_v1 :
    StableHlo.after hostOps0 V (Proc.devRef .tc main_v1) = Cert.Spec.srcRaw (V (Proc.devRef .tc main_arg1)) := by
  after_results; rfl
/-- Row 1 of the edge list, flattened: the destinations. -/
theorem s0_v3 :
    StableHlo.after hostOps0 V (Proc.devRef .tc main_v3) = Cert.Spec.dstRaw (V (Proc.devRef .tc main_arg1)) := by
  after_results; rfl
/-- Where the in-degree is positive. -/
theorem s0_v9 :
    StableHlo.after hostOps0 V (Proc.devRef .tc main_v9)
      = cmpf (F := F) .ogt (Cert.Spec.deg (V (Proc.devRef .tc main_arg1)))
          (broadcastInDim S250000 ![] Facts₀.bcast_S_S250000 (constant S_ .f32 0x00000000#32)) := by
  after_results; rfl
/-- One over the in-degree raised to at least one. -/
theorem s0_v13 :
    StableHlo.after hostOps0 V (Proc.devRef .tc main_v13)
      = Host.divf (broadcastInDim S250000 ![] Facts₀.bcast_S_S250000 (constant S_ .f32 0x3F800000#32))
          (maximumf (Cert.Spec.deg (V (Proc.devRef .tc main_arg1)))
            (broadcastInDim S250000 ![] Facts₀.bcast_S_S250000 (constant S_ .f32 0x3F800000#32))) := by
  after_results; rfl
/-- The zero the guarded inverse falls back to. -/
theorem s0_cst4 :
    StableHlo.after hostOps0 V (Proc.devRef .tc main_cst_4) = constant (F := F) S_ .f32 0x00000000#32 := by
  after_results

/-- The choice between the inverse and zero. -/
theorem s01_v14 :
    StableHlo.after hostOps0_1 V (Proc.devRef .tc main_v14)
      = select (V (Proc.devRef .tc main_v9)) (V (Proc.devRef .tc main_v13))
          (broadcastInDim S250000 ![] Facts₀.bcast_S_S250000 (id (V (Proc.devRef .tc main_cst_4)))) := by
  after_results
  simp only [StableHlo.TRef.ofBuf, StableHlo.TRef.toBuf, cast_eq]

/-- The inverse degrees as a column. -/
theorem s02_v15 :
    StableHlo.after hostOps0_2 V (Proc.devRef .tc main_v15)
      = fun i => shapeCast S250000x1 (V (Proc.devRef .tc main_v14)) Facts₀.shapeCasts_S250000_S250000x1 i := by
  after_results; rfl
/-- The first layer's neighbour sums, once the sources and destinations are the edge list's rows. -/
theorem s02_v25 (ei : Cert.Spec.Arr F S2x2000000 .i32)
    (h1 : V (Proc.devRef .tc main_v1) = Cert.Spec.srcRaw ei) (h3 : V (Proc.devRef .tc main_v3) = Cert.Spec.dstRaw ei) :
    StableHlo.after hostOps0_2 V (Proc.devRef .tc main_v25) = Cert.Spec.agg16 ei (V (Proc.devRef .tc main_arg0)) := by
  after_results
  rw [h1, h3]
  rfl
/-- The first layer's bias as a row. -/
theorem s02_v26 :
    StableHlo.after hostOps0_2 V (Proc.devRef .tc main_v26)
      = fun i => shapeCast S1x64 (V (Proc.devRef .tc main_arg4)) Facts₀.shapeCasts_S64_S1x64 i := by
  after_results; rfl

/-- The second layer's neighbour sums of the first region's result. -/
theorem s1_v37 (ei : Cert.Spec.Arr F S2x2000000 .i32)
    (h1 : V (Proc.devRef .tc main_v1) = Cert.Spec.srcRaw ei) (h3 : V (Proc.devRef .tc main_v3) = Cert.Spec.dstRaw ei) :
    StableHlo.after hostOps1 V (Proc.devRef .tc main_v37) = Cert.Spec.agg64 ei (V (Proc.devRef .tc main_v27)) := by
  after_results
  rw [h1, h3]
  rfl
/-- The second layer's bias as a row. -/
theorem s1_v38 :
    StableHlo.after hostOps1 V (Proc.devRef .tc main_v38)
      = fun i => shapeCast S1x64 (V (Proc.devRef .tc main_arg7)) Facts₀.shapeCasts_S64_S1x64 i := by
  after_results; rfl

set_option maxHeartbeats 2000000 in
/-- The third layer's neighbour sums of the second region's result. -/
theorem s2_v49 (ei : Cert.Spec.Arr F S2x2000000 .i32)
    (h1 : V (Proc.devRef .tc main_v1) = Cert.Spec.srcRaw ei) (h3 : V (Proc.devRef .tc main_v3) = Cert.Spec.dstRaw ei) :
    StableHlo.after hostOps2 V (Proc.devRef .tc main_v49) = Cert.Spec.agg64 ei (V (Proc.devRef .tc main_v39)) := by
  after_results
  rw [h1, h3]
  rfl
/-- The graph ids as a column. -/
theorem s2_v50 :
    StableHlo.after hostOps2 V (Proc.devRef .tc main_v50)
      = fun i => shapeCast S250000x1 (V (Proc.devRef .tc main_arg2)) Facts₀.shapeCasts_S250000_S250000x1 i := by
  after_results; rfl
/-- The third layer's bias as a row. -/
theorem s2_v51 :
    StableHlo.after hostOps2 V (Proc.devRef .tc main_v51)
      = fun i => shapeCast S1x64 (V (Proc.devRef .tc main_arg10)) Facts₀.shapeCasts_S64_S1x64 i := by
  after_results; rfl
/-- The head's bias as a one by one array. -/
theorem s2_v52 :
    StableHlo.after hostOps2 V (Proc.devRef .tc main_v52)
      = fun i => shapeCast S1x1 (V (Proc.devRef .tc main_arg13)) Facts₀.shapeCasts_S1_S1x1 i := by
  after_results; rfl

/-- The result column flattened. -/
theorem s3_v54 :
    StableHlo.after hostOps3 V (Proc.devRef .tc main_v54)
      = fun i => shapeCast S64 (V (Proc.devRef .tc main_v53)) Facts₀.shapeCasts_S64x1_S64 i := by
  after_results; rfl

end Stretches

/-! ## The program's boundaries -/

variable (m : (ℓ : Loc nD τ sig) → Buf (Elt F) ℓ) (c : Dev nD)

/-- The sources and the destinations, from the first stretch on: no later operation writes them and no region touches them. -/
theorem W1_v1 : Fr.W1 m c (Proc.devRef .tc main_v1) = Cert.Spec.srcRaw (m ((c : Thread nD τ).loc main_arg1)) :=
  s0_v1 (Fr.W0 m c)
theorem W1_v3 : Fr.W1 m c (Proc.devRef .tc main_v3) = Cert.Spec.dstRaw (m ((c : Thread nD τ).loc main_arg1)) :=
  s0_v3 (Fr.W0 m c)
theorem W2_v1 : Fr.W2 m c (Proc.devRef .tc main_v1) = Cert.Spec.srcRaw (m ((c : Thread nD τ).loc main_arg1)) :=
  (Fr.W2_of m c main_v1 (by decide)).trans (W1_v1 m c)
theorem W2_v3 : Fr.W2 m c (Proc.devRef .tc main_v3) = Cert.Spec.dstRaw (m ((c : Thread nD τ).loc main_arg1)) :=
  (Fr.W2_of m c main_v3 (by decide)).trans (W1_v3 m c)
theorem W4_v1 : Fr.W4 m c (Proc.devRef .tc main_v1) = Cert.Spec.srcRaw (m ((c : Thread nD τ).loc main_arg1)) :=
  (Fr.W4_of_ne m c main_v1 (by decide)).trans <| (Fr.W3_of m c main_v1 (by decide)).trans (W2_v1 m c)
theorem W4_v3 : Fr.W4 m c (Proc.devRef .tc main_v3) = Cert.Spec.dstRaw (m ((c : Thread nD τ).loc main_arg1)) :=
  (Fr.W4_of_ne m c main_v3 (by decide)).trans <| (Fr.W3_of m c main_v3 (by decide)).trans (W2_v3 m c)
theorem W6_v1 : Fr.W6 m c (Proc.devRef .tc main_v1) = Cert.Spec.srcRaw (m ((c : Thread nD τ).loc main_arg1)) :=
  (Fr.W6_of_ne m c main_v1 (by decide)).trans <| (Fr.W5_of m c main_v1 (by decide)).trans (W4_v1 m c)
theorem W6_v3 : Fr.W6 m c (Proc.devRef .tc main_v3) = Cert.Spec.dstRaw (m ((c : Thread nD τ).loc main_arg1)) :=
  (Fr.W6_of_ne m c main_v3 (by decide)).trans <| (Fr.W5_of m c main_v3 (by decide)).trans (W4_v3 m c)

/-- The guarded inverse degrees. -/
theorem W2_v14 : Fr.W2 m c (Proc.devRef .tc main_v14) = Cert.Spec.dinvOf (F := F) (m ((c : Thread nD τ).loc main_arg1)) := by
  show StableHlo.after hostOps0_1 (Fr.W1 m c) (Proc.devRef .tc main_v14) = _
  rw [s01_v14]
  show select (StableHlo.after hostOps0 (Fr.W0 m c) (Proc.devRef .tc main_v9))
      (StableHlo.after hostOps0 (Fr.W0 m c) (Proc.devRef .tc main_v13))
      (broadcastInDim S250000 ![] Facts₀.bcast_S_S250000 (id (StableHlo.after hostOps0 (Fr.W0 m c) (Proc.devRef .tc main_cst_4)))) = _
  rw [s0_v9, s0_v13, s0_cst4]
  rfl

/-- An argument no stretch before the first region writes. -/
theorem W3_arg (r : Ref sig .tc) (h0 : r ∉ hostOps0_W) (h1 : r ∉ hostOps0_1_W) (h2 : r ∉ hostOps0_2_W) :
    Fr.W3 m c (Proc.devRef .tc r) = m ((c : Thread nD τ).loc r) :=
  (Fr.W3_of m c r h2).trans <| (Fr.W2_of m c r h1).trans <| Fr.W1_of m c r h0

/-! ### The first region's entry -/

theorem V3_v25 :
    Fr.V3 m c main_v25 = Cert.Spec.agg16 (m ((c : Thread nD τ).loc main_arg1)) (m ((c : Thread nD τ).loc main_arg0)) :=
  (s02_v25 (Fr.W2 m c) _ (W2_v1 m c) (W2_v3 m c)).trans
    (congrArg (Cert.Spec.agg16 (m ((c : Thread nD τ).loc main_arg1)))
      ((Fr.W2_of m c main_arg0 (by decide)).trans (Fr.W1_of m c main_arg0 (by decide))))
theorem V3_v15 :
    Fr.V3 m c main_v15
      = fun i => shapeCast S250000x1 (Cert.Spec.dinvOf (F := F) (m ((c : Thread nD τ).loc main_arg1))) Facts₀.shapeCasts_S250000_S250000x1 i :=
  (s02_v15 (Fr.W2 m c)).trans
    (congrArg (fun d : Cert.Spec.Arr F S250000 .f32 => fun i => shapeCast S250000x1 d Facts₀.shapeCasts_S250000_S250000x1 i) (W2_v14 m c))
theorem V3_v26 :
    Fr.V3 m c main_v26 = fun i => shapeCast S1x64 (m ((c : Thread nD τ).loc main_arg4)) Facts₀.shapeCasts_S64_S1x64 i :=
  (s02_v26 (Fr.W2 m c)).trans
    (congrArg (fun d : Cert.Spec.Arr F S64 .f32 => fun i => shapeCast S1x64 d Facts₀.shapeCasts_S64_S1x64 i)
      ((Fr.W2_of m c main_arg4 (by decide)).trans (Fr.W1_of m c main_arg4 (by decide))))
theorem V3_arg0 : Fr.V3 m c main_arg0 = m ((c : Thread nD τ).loc main_arg0) :=
  W3_arg m c main_arg0 (by decide) (by decide) (by decide)
theorem V3_arg3 : Fr.V3 m c main_arg3 = m ((c : Thread nD τ).loc main_arg3) :=
  W3_arg m c main_arg3 (by decide) (by decide) (by decide)
theorem V3_arg5 : Fr.V3 m c main_arg5 = m ((c : Thread nD τ).loc main_arg5) :=
  W3_arg m c main_arg5 (by decide) (by decide) (by decide)

/-- An argument the first region does not read, at its exit. -/
theorem W4_arg (r : Ref sig .tc) (h0 : r ∉ hostOps0_W) (h1 : r ∉ hostOps0_1_W) (h2 : r ∉ hostOps0_2_W)
    (hw : ∀ w, Pipeline.arrRef spec0 w ≠ r) : Fr.W4 m c (Proc.devRef .tc r) = m ((c : Thread nD τ).loc r) :=
  (Fr.W4_of_ne m c r hw).trans (W3_arg m c r h0 h1 h2)

/-! ### The second region's entry -/

theorem V5_v37 :
    Fr.V5 m c main_v37 = Cert.Spec.agg64 (m ((c : Thread nD τ).loc main_arg1)) (Fr.V4 m c main_v27) :=
  s1_v37 (Fr.W4 m c) _ (W4_v1 m c) (W4_v3 m c)
theorem V5_v15 :
    Fr.V5 m c main_v15
      = fun i => shapeCast S250000x1 (Cert.Spec.dinvOf (F := F) (m ((c : Thread nD τ).loc main_arg1))) Facts₀.shapeCasts_S250000_S250000x1 i :=
  (Fr.W5_of m c main_v15 (by decide)).trans <| (Fr.W4_in m c 1 rfl).trans (V3_v15 m c)
theorem V5_v27 : Fr.V5 m c main_v27 = Fr.V4 m c main_v27 :=
  Fr.W5_of m c main_v27 (by decide)
theorem V5_v38 :
    Fr.V5 m c main_v38 = fun i => shapeCast S1x64 (m ((c : Thread nD τ).loc main_arg7)) Facts₀.shapeCasts_S64_S1x64 i :=
  (s1_v38 (Fr.W4 m c)).trans
    (congrArg (fun d : Cert.Spec.Arr F S64 .f32 => fun i => shapeCast S1x64 d Facts₀.shapeCasts_S64_S1x64 i)
      (W4_arg m c main_arg7 (by decide) (by decide) (by decide) (by decide)))
theorem V5_arg6 : Fr.V5 m c main_arg6 = m ((c : Thread nD τ).loc main_arg6) :=
  (Fr.W5_of m c main_arg6 (by decide)).trans (W4_arg m c main_arg6 (by decide) (by decide) (by decide) (by decide))
theorem V5_arg8 : Fr.V5 m c main_arg8 = m ((c : Thread nD τ).loc main_arg8) :=
  (Fr.W5_of m c main_arg8 (by decide)).trans (W4_arg m c main_arg8 (by decide) (by decide) (by decide) (by decide))

/-- An argument neither of the first two regions reads, at the second's exit. -/
theorem W6_arg (r : Ref sig .tc) (h0 : r ∉ hostOps0_W) (h1 : r ∉ hostOps0_1_W) (h2 : r ∉ hostOps0_2_W)
    (hw : ∀ w, Pipeline.arrRef spec0 w ≠ r) (h3 : r ∉ hostOps1_W) (hw' : ∀ w, Pipeline.arrRef spec1 w ≠ r) :
    Fr.W6 m c (Proc.devRef .tc r) = m ((c : Thread nD τ).loc r) :=
  (Fr.W6_of_ne m c r hw').trans <| (Fr.W5_of m c r h3).trans (W4_arg m c r h0 h1 h2 hw)

/-! ### The third region's entry -/

theorem V7_v49 :
    Fr.V7 m c main_v49 = Cert.Spec.agg64 (m ((c : Thread nD τ).loc main_arg1)) (Fr.V6 m c main_v39) :=
  s2_v49 (Fr.W6 m c) _ (W6_v1 m c) (W6_v3 m c)
theorem V7_v15 :
    Fr.V7 m c main_v15
      = fun i => shapeCast S250000x1 (Cert.Spec.dinvOf (F := F) (m ((c : Thread nD τ).loc main_arg1))) Facts₀.shapeCasts_S250000_S250000x1 i :=
  (Fr.W7_of m c main_v15 (by decide)).trans <| (Fr.W6_in m c 1 rfl).trans (V5_v15 m c)
theorem V7_v39 : Fr.V7 m c main_v39 = Fr.V6 m c main_v39 :=
  Fr.W7_of m c main_v39 (by decide)
theorem V7_v51 :
    Fr.V7 m c main_v51 = fun i => shapeCast S1x64 (m ((c : Thread nD τ).loc main_arg10)) Facts₀.shapeCasts_S64_S1x64 i :=
  (s2_v51 (Fr.W6 m c)).trans
    (congrArg (fun d : Cert.Spec.Arr F S64 .f32 => fun i => shapeCast S1x64 d Facts₀.shapeCasts_S64_S1x64 i)
      (W6_arg m c main_arg10 (by decide) (by decide) (by decide) (by decide) (by decide) (by decide)))
theorem V7_v50 :
    Fr.V7 m c main_v50 = fun i => shapeCast S250000x1 (m ((c : Thread nD τ).loc main_arg2)) Facts₀.shapeCasts_S250000_S250000x1 i :=
  (s2_v50 (Fr.W6 m c)).trans
    (congrArg (fun d : Cert.Spec.Arr F S250000 .i32 => fun i => shapeCast S250000x1 d Facts₀.shapeCasts_S250000_S250000x1 i)
      (W6_arg m c main_arg2 (by decide) (by decide) (by decide) (by decide) (by decide) (by decide)))
theorem V7_v52 :
    Fr.V7 m c main_v52 = fun i => shapeCast S1x1 (m ((c : Thread nD τ).loc main_arg13)) Facts₀.shapeCasts_S1_S1x1 i :=
  (s2_v52 (Fr.W6 m c)).trans
    (congrArg (fun d : Cert.Spec.Arr F S1 .f32 => fun i => shapeCast S1x1 d Facts₀.shapeCasts_S1_S1x1 i)
      (W6_arg m c main_arg13 (by decide) (by decide) (by decide) (by decide) (by decide) (by decide)))
theorem V7_arg9 : Fr.V7 m c main_arg9 = m ((c : Thread nD τ).loc main_arg9) :=
  (Fr.W7_of m c main_arg9 (by decide)).trans
    (W6_arg m c main_arg9 (by decide) (by decide) (by decide) (by decide) (by decide) (by decide))
theorem V7_arg11 : Fr.V7 m c main_arg11 = m ((c : Thread nD τ).loc main_arg11) :=
  (Fr.W7_of m c main_arg11 (by decide)).trans
    (W6_arg m c main_arg11 (by decide) (by decide) (by decide) (by decide) (by decide) (by decide))
theorem V7_arg12 : Fr.V7 m c main_arg12 = m ((c : Thread nD τ).loc main_arg12) :=
  (Fr.W7_of m c main_arg12 (by decide)).trans
    (W6_arg m c main_arg12 (by decide) (by decide) (by decide) (by decide) (by decide) (by decide))

/-! ### The end -/

theorem W9_v54 :
    Fr.W9 m c (Proc.devRef .tc main_v54)
      = fun i => shapeCast S64 (Fr.W8 m c (Proc.devRef .tc main_v53)) Facts₀.shapeCasts_S64x1_S64 i :=
  s3_v54 (Fr.W8 m c)

end Cert.KernelIdeal.Val

end
-- ==== Proof.Value.Tile.lean ====
/-
  One tile of a layer, as the kernels' bodies compute it from the blocks they load, generic in the float family:
  (msg · dinv) W_l + b + h W_r on 10000 rows, the inverse degrees a column broadcast along the row, the bias a row broadcast
  down the tile. The first two regions store max(·, 0) of it; the third pools it by the one-hot of the tile's graph ids.
-/
import proofs.«429062_j38955353375020_2_alg».proof.Proof.Gen.KernelIdeal.Skeleton

noncomputable section

namespace Cert.KernelIdeal.Val

open Cert.KernelIdeal Cert.KernelIdeal.Gen Idealize.ShloMosaic

variable {F : FTy → Type} [FloatOps F]

/-- A layer's tile before its activation, 16-wide input (region 0). -/
def tilePre16 (x0 : Vec F S10000x16 .f32) (x1 : Vec F S10000x1 .f32) (x2 : Vec F S10000x16 .f32) (x3 : Vec F S16x64 .f32) (x4 : Vec F S1x64 .f32)
    (x5 : Vec F S16x64 .f32) : FVec F S10000x64 .f32 :=
  addf
    (addf
      (matmul dot_S10000x16_S16x64_S10000x64_1_0_0_1_n_n (some .fp32)
        (mulf (shapeCast S10000x16 x0 shapeCasts_S10000x16_S10000x16)
          (broadcastTo S10000x16 (shapeCast S10000x1 x1 shapeCasts_S10000x1_S10000x1) broadcasts_S10000x1_S10000x16))
        x3 (constant S10000x64 .f32 0x00000000#32))
      (broadcastTo S10000x64 (shapeCast S1x64 x4 shapeCasts_S1x64_S1x64) broadcasts_S1x64_S10000x64))
    (matmul dot_S10000x16_S16x64_S10000x64_1_0_0_1_n_n (some .fp32) x2 x5 (constant S10000x64 .f32 0x00000000#32))

/-- A layer's tile before its activation, 64-wide input (regions 1 and 2). -/
def tilePre64 (x0 : Vec F S10000x64 .f32) (x1 : Vec F S10000x1 .f32) (x2 : Vec F S10000x64 .f32) (x3 : Vec F S64x64 .f32) (x4 : Vec F S1x64 .f32)
    (x5 : Vec F S64x64 .f32) : FVec F S10000x64 .f32 :=
  addf
    (addf
      (matmul dot_S10000x64_S64x64_S10000x64_1_0_0_1_n_n (some .fp32)
        (mulf (shapeCast S10000x64 x0 shapeCasts_S10000x64_S10000x64)
          (broadcastTo S10000x64 (shapeCast S10000x1 x1 shapeCasts_S10000x1_S10000x1) broadcasts_S10000x1_S10000x64))
        x3 (constant S10000x64 .f32 0x00000000#32))
      (broadcastTo S10000x64 (shapeCast S1x64 x4 shapeCasts_S1x64_S1x64) broadcasts_S1x64_S10000x64))
    (matmul dot_S10000x64_S64x64_S10000x64_1_0_0_1_n_n (some .fp32) (shapeCast S10000x64 x2 shapeCasts_S10000x64_S10000x64) x5
      (constant S10000x64 .f32 0x00000000#32))

/-- Region 0 stores the activation of its tile. -/
theorem k0_pay1_eq (x0 : Vec F S10000x16 .f32) (x1 : Vec F S10000x1 .f32) (x2 : Vec F S10000x16 .f32) (x3 : Vec F S16x64 .f32) (x4 : Vec F S1x64 .f32)
    (x5 : Vec F S16x64 .f32) :
    k0_pay1 x0 x1 x3 x4 x2 x5 = maximumf (tilePre16 x0 x1 x2 x3 x4 x5) (broadcast S10000x64 (Scalar.ofBits .f32 0x00000000#32)) := rfl

/-- Region 1 stores the activation of its tile. -/
theorem k1_pay1_eq (x0 : Vec F S10000x64 .f32) (x1 : Vec F S10000x1 .f32) (x2 : Vec F S10000x64 .f32) (x3 : Vec F S64x64 .f32) (x4 : Vec F S1x64 .f32)
    (x5 : Vec F S64x64 .f32) :
    k1_pay1 x0 x1 x3 x4 x2 x5 = maximumf (tilePre64 x0 x1 x2 x3 x4 x5) (broadcast S10000x64 (Scalar.ofBits .f32 0x00000000#32)) := rfl

/-- Region 2 adds to its accumulator the tile pooled by the one-hot of the tile's graph ids (the rows contracted). -/
theorem k2_pay7_eq (x0 : Vec F S10000x64 .f32) (x1 : Vec F S10000x1 .f32) (x2 : Vec F S10000x64 .f32) (x3 : Vec F S64x64 .f32) (x4 : Vec F S1x64 .f32)
    (x5 : Vec F S64x64 .f32) (x6 : Vec F S10000x1 .i32) (a : Vec F S64x64 .f32) :
    k2_pay7 x0 x1 x3 x4 x2 x5 x6 a
      = shapeCast S64x64 (addf a (matmul dot_S10000x64_S10000x64_S64x64_0_0_1_1_n_n (some .fp32) (k2_pay5 x6) (tilePre64 x0 x1 x2 x3 x4 x5)
          (constant S64x64 .f32 0x00000000#32))) shapeCasts_S64x64_S64x64 := rfl

end Cert.KernelIdeal.Val

end
-- ==== Proof.LibPlainMatmul.lean ====
/-
  A plain matrix product read at one element.

  `[a, k] × [k, b] → [a, b]` with the left operand's second axis contracted against the right operand's first, no batch
  axis: the product into a zero accumulator reads, at `(p, q)`, the sum over `j < k` of `lhs (p, j) · rhs (j, q)`.
  The contraction index of the dimension numbers is a one-coordinate index; the sum is re-indexed through its one
  coordinate, and each operand index is identified axis by axis (the free axis from the result index, the contracted
  axis from the contraction index).
-/
import Idealize.ShloMosaic.PureOps.Ideal.Laws
import Idealize.ShloMosaic.Lib.ValueIdx
import Mathlib.Algebra.BigOperators.Fin

namespace Cert.Lib.PlainMatmul

open Idealize.ShloMosaic Idealize.ShloMosaic.ValueIdx
open scoped BigOperators

/-- The dimension numbers of a plain product: contract the left's axis 1 with the right's axis 0. -/
abbrev plainDims (a k b : ℕ) (wf : DotDims.WF ⟨2, ![a, k]⟩ ⟨2, ![k, b]⟩ ⟨2, ![a, b]⟩ [1] [0] [0] [1] [] []) :
    DotDims ⟨2, ![a, k]⟩ ⟨2, ![k, b]⟩ ⟨2, ![a, b]⟩ where
  lhsContracting := [1]
  rhsContracting := [0]
  lhsNonContracting := [0]
  rhsNonContracting := [1]
  lhsBatch := []
  rhsBatch := []
  wf := wf

section
variable {a k b : ℕ} (wf : DotDims.WF ⟨2, ![a, k]⟩ ⟨2, ![k, b]⟩ ⟨2, ![a, b]⟩ [1] [0] [0] [1] [] [])

/-- The left operand's row is the result's row. -/
theorem lhs_row (j : (⟨2, ![a, b]⟩ : Shape).Idx) (q : (plainDims a k b wf).contr.Idx) :
    ((plainDims a k b wf).lhsIdx j q 0).val = (j 0).val := by
  unfold DotDims.lhsIdx
  rw [dif_neg (show ¬(0 : Fin 2) ∈ (plainDims a k b wf).lhsBatch from List.not_mem_nil),
    dif_pos (show (0 : Fin 2) ∈ (plainDims a k b wf).lhsNonContracting from List.mem_singleton.mpr rfl)]
  rfl

/-- The left operand's column is the contraction coordinate. -/
theorem lhs_col (j : (⟨2, ![a, b]⟩ : Shape).Idx) (q : (plainDims a k b wf).contr.Idx) :
    ((plainDims a k b wf).lhsIdx j q 1).val = (q ⟨0, Nat.one_pos⟩).val :=
  (plainDims a k b wf).lhsIdx_val_of_single rfl j q

/-- The right operand's row is the contraction coordinate. -/
theorem rhs_row (j : (⟨2, ![a, b]⟩ : Shape).Idx) (q : (plainDims a k b wf).contr.Idx) :
    ((plainDims a k b wf).rhsIdx j q 0).val = (q ⟨0, Nat.one_pos⟩).val :=
  (plainDims a k b wf).rhsIdx_val_of_single rfl j q

/-- The right operand's column is the result's column. -/
theorem rhs_col (j : (⟨2, ![a, b]⟩ : Shape).Idx) (q : (plainDims a k b wf).contr.Idx) :
    ((plainDims a k b wf).rhsIdx j q 1).val = (j 1).val := by
  unfold DotDims.rhsIdx
  rw [dif_neg (show ¬(1 : Fin 2) ∈ (plainDims a k b wf).rhsBatch from List.not_mem_nil),
    dif_pos (show (1 : Fin 2) ∈ (plainDims a k b wf).rhsNonContracting from List.mem_singleton.mpr rfl)]
  rfl

/-- The contraction sum of a plain product at `(p, q)`, as a sum over `j < k`. -/
theorem contr_sum_plainDims (lhs : (⟨2, ![a, k]⟩ : Shape).Idx → EReal) (rhs : (⟨2, ![k, b]⟩ : Shape).Idx → EReal)
    (p : Fin a) (q : Fin b) :
    (∑ c : (plainDims a k b wf).contr.Idx,
        lhs ((plainDims a k b wf).lhsIdx (ix2 p q) c) * rhs ((plainDims a k b wf).rhsIdx (ix2 p q) c))
      = ∑ j : Fin k, lhs (ix2 p j) * rhs (ix2 j q) := by
  rw [← Equiv.sum_comp (contrEquiv1 (plainDims a k b wf) k rfl rfl).symm]
  refine Finset.sum_congr rfl fun j _ => ?_
  have hk := contrEquiv1_symm_val (plainDims a k b wf) k rfl rfl j
  have el : (plainDims a k b wf).lhsIdx (ix2 p q) ((contrEquiv1 (plainDims a k b wf) k rfl rfl).symm j) = ix2 p j :=
    funext fun ax => Fin.ext (by
      match ax with
      | ⟨0, _⟩ => exact lhs_row wf _ _
      | ⟨1, _⟩ => exact (lhs_col wf _ _).trans hk)
  have er : (plainDims a k b wf).rhsIdx (ix2 p q) ((contrEquiv1 (plainDims a k b wf) k rfl rfl).symm j) = ix2 j q :=
    funext fun ax => Fin.ext (by
      match ax with
      | ⟨0, _⟩ => exact (rhs_row wf _ _).trans hk
      | ⟨1, _⟩ => exact rhs_col wf _ _)
  rw [el, er]

end

/-- THE PRODUCT INTO A ZERO ACCUMULATOR AT `(p, q)`, for any record with the plain dimension numbers: the sum over
    `j < k` of `lhs (p, j) · rhs (j, q)`. -/
theorem matmul_zero_apply {a k b : ℕ} {φ₁ φ₂ : FTy} (d : DotDims ⟨2, ![a, k]⟩ ⟨2, ![k, b]⟩ ⟨2, ![a, b]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![a, k]⟩ φ₁) (rhs : FVec Ideal ⟨2, ![k, b]⟩ φ₂)
    (p : Fin a) (q : Fin b) :
    FloatOps.matmul d prec lhs rhs (constant ⟨2, ![a, b]⟩ .f32 0x00000000#32) (ix2 p q)
      = ∑ j : Fin k, lhs (ix2 p j) * rhs (ix2 j q) := by
  obtain ⟨lc, rc, ln, rn, lb, rb, wf⟩ := d
  simp only at h1 h2 h3 h4 h5 h6
  subst h1 h2 h3 h4 h5 h6
  rw [Ideal.matmul_constant_zero_apply]
  exact contr_sum_plainDims wf lhs rhs p q

/-- The host's contraction at the same dimension numbers, at `(p, q)`: the same sum. -/
theorem dotGeneral_apply {a k b : ℕ} {φ₁ φ₂ : FTy} (d : DotDims ⟨2, ![a, k]⟩ ⟨2, ![k, b]⟩ ⟨2, ![a, b]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (sched : HostSchedule) (lhs : FVec Ideal ⟨2, ![a, k]⟩ φ₁)
    (rhs : FVec Ideal ⟨2, ![k, b]⟩ φ₂) (p : Fin a) (q : Fin b) :
    FloatOps.dotGeneral d prec sched lhs rhs (ix2 p q) = ∑ j : Fin k, lhs (ix2 p j) * rhs (ix2 j q) := by
  obtain ⟨lc, rc, ln, rn, lb, rb, wf⟩ := d
  simp only at h1 h2 h3 h4 h5 h6
  subst h1 h2 h3 h4 h5 h6
  rw [Ideal.dotGeneral_apply]
  exact contr_sum_plainDims wf lhs rhs p q

end Cert.Lib.PlainMatmul
-- ==== Proof.Value.TileAt.lean ====
/-
  A tile of a layer read at one element is the whole-array layer read at the tile's row.

  The tile is (m · d) W_l + b + x W_r on the 10000 rows the blocks hold; the layer is the same expression on all 250000
  rows. Both products, read at (row, column), are sums over the contracted axis of a row of the left operand against a
  column of the weights; the inverse degree multiplies every entry of its row; the bias is read at the column. So when the
  blocks hold rows 10000·t … 10000·t + 9999 of the arrays, element (k, j) of the tile is element (10000·t + k, j) of the layer.
-/
import proofs.«429062_j38955353375020_2_alg».proof.Proof.Value.Tile
import proofs.«429062_j38955353375020_2_alg».proof.Proof.Value.Spec
import proofs.«429062_j38955353375020_2_alg».proof.Proof.LibPlainMatmul
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Cert.KernelIdeal Cert.KernelIdeal.Gen Idealize.ShloMosaic Idealize.ShloMosaic.ValueIdx
open scoped BigOperators

/-- Row `k` of tile `t` as a row of the whole array. -/
abbrev tileRow (t : Fin 25) (k : Fin 10000) : Fin 250000 := ⟨10000 * t.val + k.val, by omega⟩

section Layout
variable {α : Type}

/-- A column `[a, 1]` broadcast to `[a, b]` reads, at `(p, c)`, the column's entry at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` made a column `[a, 1]` and that column spread over `[a, b]`, both by `broadcast_in_dim`, reads at `(p, c)` the vector at `p`. -/
theorem bcast_col_apply {a b : ℕ} (v : (⟨1, ![a]⟩ : Shape).Idx → α)
    (h1 : (⟨1, ![a]⟩ : Shape).BroadcastsInDim ⟨2, ![a, 1]⟩ ![0])
    (h2 : (⟨2, ![a, 1]⟩ : Shape).BroadcastsInDim ⟨2, ![a, b]⟩ ![0, 1])
    (p : Fin a) (c : Fin b) :
    broadcastInDim ⟨2, ![a, b]⟩ ![0, 1] h2 (broadcastInDim ⟨2, ![a, 1]⟩ ![0] h1 v) (ix2 p c) = v (ix1 p) := by
  rw [broadcastInDim_apply ![0, 1] h2 _ (ix2 p c) (ix2 p (0 : Fin 1)) (fun ax => by
    match ax with
    | ⟨0, _⟩ =>
      show p.val = if a = 1 then 0 else p.val
      split
      · have := p.isLt; omega
      · rfl
    | ⟨1, _⟩ => rfl)]
  exact broadcastInDim_apply ![0] h1 v (ix2 p (0 : Fin 1)) (ix1 p) (fun ax => by
    match ax with
    | ⟨0, _⟩ =>
      show p.val = if a = 1 then 0 else p.val
      split
      · have := p.isLt; omega
      · rfl)

/-- A vector `[b]` made a row `[1, b]` and that row spread over `[a, b]`, both by `broadcast_in_dim`, reads at `(p, c)` the vector at `c`. -/
theorem bcast_row_apply {a b : ℕ} (v : (⟨1, ![b]⟩ : Shape).Idx → α)
    (h1 : (⟨1, ![b]⟩ : Shape).BroadcastsInDim ⟨2, ![1, b]⟩ ![1])
    (h2 : (⟨2, ![1, b]⟩ : Shape).BroadcastsInDim ⟨2, ![a, b]⟩ ![0, 1])
    (p : Fin a) (c : Fin b) :
    broadcastInDim ⟨2, ![a, b]⟩ ![0, 1] h2 (broadcastInDim ⟨2, ![1, b]⟩ ![1] h1 v) (ix2 p c) = v (ix1 c) := by
  rw [broadcastInDim_apply ![0, 1] h2 _ (ix2 p c) (ix2 (0 : Fin 1) c) (fun ax => by
    match ax with
    | ⟨0, _⟩ => rfl
    | ⟨1, _⟩ =>
      show c.val = if b = 1 then 0 else c.val
      split
      · have := c.isLt; omega
      · rfl)]
  exact broadcastInDim_apply ![1] h1 v (ix2 (0 : Fin 1) c) (ix1 c) (fun ax => by
    match ax with
    | ⟨0, _⟩ =>
      show c.val = if b = 1 then 0 else c.val
      split
      · have := c.isLt; omega
      · rfl)

end Layout

section Tile64
variable (msg : Cert.Spec.Arr Ideal S250000x64 .f32) (dinv : Cert.Spec.Arr Ideal S250000 .f32) (h : Cert.Spec.Arr Ideal S250000x64 .f32)
  (Wl : Cert.Spec.Arr Ideal S64x64 .f32) (bl : Cert.Spec.Arr Ideal S64 .f32) (Wr : Cert.Spec.Arr Ideal S64x64 .f32)
  (b0 : Vec Ideal S10000x64 .f32) (b1 : Vec Ideal S10000x1 .f32) (b2 : Vec Ideal S10000x64 .f32) (x4 : Vec Ideal S1x64 .f32)

/-- The tile at `(k, j)`, written out: the two sums over the contracted axis and the bias at the column. -/
theorem tilePre64_sum (k : Fin 10000) (j : Fin 64) :
    tilePre64 (F := Ideal) b0 b1 b2 Wl x4 Wr (ix2 k j)
      = (∑ q : Fin 64, (b0 (ix2 k q) * b1 (ix2 k (0 : Fin 1))) * Wl (ix2 q j)) + x4 (ix2 (0 : Fin 1) j)
        + ∑ q : Fin 64, b2 (ix2 k q) * Wr (ix2 q j) := by
  unfold tilePre64
  rw [addf_apply, addf_apply]
  refine congrArg₂ (· + ·) (congrArg₂ (· + ·) ?_ ?_) ?_
  · refine (Cert.Lib.PlainMatmul.matmul_zero_apply dot_S10000x64_S64x64_S10000x64_1_0_0_1_n_n rfl rfl rfl rfl rfl rfl _ _ _ k j).trans ?_
    refine Finset.sum_congr rfl fun q _ => ?_
    rw [mulf_apply, broadcastTo_a1_ab_apply, shapeCast_self, shapeCast_self]
  · rw [broadcastTo_1b_ab_apply, shapeCast_self]
  · refine (Cert.Lib.PlainMatmul.matmul_zero_apply dot_S10000x64_S64x64_S10000x64_1_0_0_1_n_n rfl rfl rfl rfl rfl rfl _ _ _ k j).trans ?_
    rw [shapeCast_self]

/-- The layer at `(r, j)`, written out the same way. -/
theorem layerPre64_sum (r : Fin 250000) (j : Fin 64) :
    Cert.Spec.layerPre64 msg dinv h Wl bl Wr (ix2 r j)
      = (∑ q : Fin 64, (msg (ix2 r q) * dinv (ix1 r)) * Wl (ix2 q j)) + bl (ix1 j)
        + ∑ q : Fin 64, h (ix2 r q) * Wr (ix2 q j) := by
  unfold Cert.Spec.layerPre64
  rw [addf_apply, addf_apply]
  refine congrArg₂ (· + ·) (congrArg₂ (· + ·) ?_ ?_) ?_
  · refine (Cert.Lib.PlainMatmul.dotGeneral_apply Cert.ReferenceIdeal.dot_S250000x64_S64x64_S250000x64_1_0_0_1_n_n rfl rfl rfl rfl rfl rfl _ _ _ _ r j).trans ?_
    refine Finset.sum_congr rfl fun q _ => ?_
    rw [mulf_apply, bcast_col_apply]
  · rw [bcast_row_apply]
  · exact Cert.Lib.PlainMatmul.dotGeneral_apply Cert.ReferenceIdeal.dot_S250000x64_S64x64_S250000x64_1_0_0_1_n_n rfl rfl rfl rfl rfl rfl _ _ _ _ r j

/-- ONE ROW: when row `k` of the blocks is row `r` of the arrays and the bias row is the bias, the tile's row `k` is the
    layer's row `r`. -/
theorem tilePre64_row (k : Fin 10000) (r : Fin 250000)
    (h0 : ∀ q : Fin 64, b0 (ix2 k q) = msg (ix2 r q)) (h1 : b1 (ix2 k (0 : Fin 1)) = dinv (ix1 r))
    (h2 : ∀ q : Fin 64, b2 (ix2 k q) = h (ix2 r q)) (hx4 : ∀ j : Fin 64, x4 (ix2 (0 : Fin 1) j) = bl (ix1 j)) (j : Fin 64) :
    tilePre64 (F := Ideal) b0 b1 b2 Wl x4 Wr (ix2 k j) = Cert.Spec.layerPre64 msg dinv h Wl bl Wr (ix2 r j) := by
  rw [tilePre64_sum, layerPre64_sum, h1, hx4]
  refine congrArg₂ (· + ·) (congrArg₂ (· + ·) ?_ rfl) ?_
  · exact Finset.sum_congr rfl fun q _ => by rw [h0]
  · exact Finset.sum_congr rfl fun q _ => by rw [h2]

/-- THE TILE AT AN INDEX: blocks holding rows `10000·t … 10000·t + 9999` of the arrays give, at `(k, j)`, the layer at
    `(10000·t + k, j)`. -/
theorem tilePre64_apply (t : Fin 25)
    (hb0 : ∀ (k : Fin 10000) (q : Fin 64), b0 (ix2 k q) = msg (ix2 (tileRow t k) q))
    (hb1 : ∀ k : Fin 10000, b1 (ix2 k (0 : Fin 1)) = dinv (ix1 (tileRow t k)))
    (hb2 : ∀ (k : Fin 10000) (q : Fin 64), b2 (ix2 k q) = h (ix2 (tileRow t k) q))
    (hx4 : ∀ j : Fin 64, x4 (ix2 (0 : Fin 1) j) = bl (ix1 j)) (k : Fin 10000) (j : Fin 64) :
    tilePre64 (F := Ideal) b0 b1 b2 Wl x4 Wr (ix2 k j) = Cert.Spec.layerPre64 msg dinv h Wl bl Wr (ix2 (tileRow t k) j) :=
  tilePre64_row msg dinv h Wl bl Wr b0 b1 b2 x4 k (tileRow t k) (hb0 k) (hb1 k) (hb2 k) hx4 j

end Tile64

section Tile16
variable (msg : Cert.Spec.Arr Ideal S250000x16 .f32) (dinv : Cert.Spec.Arr Ideal S250000 .f32) (h : Cert.Spec.Arr Ideal S250000x16 .f32)
  (Wl : Cert.Spec.Arr Ideal S16x64 .f32) (bl : Cert.Spec.Arr Ideal S64 .f32) (Wr : Cert.Spec.Arr Ideal S16x64 .f32)
  (b0 : Vec Ideal S10000x16 .f32) (b1 : Vec Ideal S10000x1 .f32) (b2 : Vec Ideal S10000x16 .f32) (x4 : Vec Ideal S1x64 .f32)

/-- The 16-wide tile at `(k, j)`, written out. -/
theorem tilePre16_sum (k : Fin 10000) (j : Fin 64) :
    tilePre16 (F := Ideal) b0 b1 b2 Wl x4 Wr (ix2 k j)
      = (∑ q : Fin 16, (b0 (ix2 k q) * b1 (ix2 k (0 : Fin 1))) * Wl (ix2 q j)) + x4 (ix2 (0 : Fin 1) j)
        + ∑ q : Fin 16, b2 (ix2 k q) * Wr (ix2 q j) := by
  unfold tilePre16
  rw [addf_apply, addf_apply]
  refine congrArg₂ (· + ·) (congrArg₂ (· + ·) ?_ ?_) ?_
  · refine (Cert.Lib.PlainMatmul.matmul_zero_apply dot_S10000x16_S16x64_S10000x64_1_0_0_1_n_n rfl rfl rfl rfl rfl rfl _ _ _ k j).trans ?_
    refine Finset.sum_congr rfl fun q _ => ?_
    rw [mulf_apply, broadcastTo_a1_ab_apply, shapeCast_self, shapeCast_self]
  · rw [broadcastTo_1b_ab_apply, shapeCast_self]
  · exact Cert.Lib.PlainMatmul.matmul_zero_apply dot_S10000x16_S16x64_S10000x64_1_0_0_1_n_n rfl rfl rfl rfl rfl rfl _ _ _ k j

/-- The 16-wide layer at `(r, j)`, written out the same way. -/
theorem layerPre16_sum (r : Fin 250000) (j : Fin 64) :
    Cert.Spec.layerPre16 msg dinv h Wl bl Wr (ix2 r j)
      = (∑ q : Fin 16, (msg (ix2 r q) * dinv (ix1 r)) * Wl (ix2 q j)) + bl (ix1 j)
        + ∑ q : Fin 16, h (ix2 r q) * Wr (ix2 q j) := by
  unfold Cert.Spec.layerPre16
  rw [addf_apply, addf_apply]
  refine congrArg₂ (· + ·) (congrArg₂ (· + ·) ?_ ?_) ?_
  · refine (Cert.Lib.PlainMatmul.dotGeneral_apply Cert.ReferenceIdeal.dot_S250000x16_S16x64_S250000x64_1_0_0_1_n_n rfl rfl rfl rfl rfl rfl _ _ _ _ r j).trans ?_
    refine Finset.sum_congr rfl fun q _ => ?_
    rw [mulf_apply, bcast_col_apply]
  · rw [bcast_row_apply]
  · exact Cert.Lib.PlainMatmul.dotGeneral_apply Cert.ReferenceIdeal.dot_S250000x16_S16x64_S250000x64_1_0_0_1_n_n rfl rfl rfl rfl rfl rfl _ _ _ _ r j

/-- ONE ROW of the 16-wide tile is the layer's row, under the same four agreements. -/
theorem tilePre16_row (k : Fin 10000) (r : Fin 250000)
    (h0 : ∀ q : Fin 16, b0 (ix2 k q) = msg (ix2 r q)) (h1 : b1 (ix2 k (0 : Fin 1)) = dinv (ix1 r))
    (h2 : ∀ q : Fin 16, b2 (ix2 k q) = h (ix2 r q)) (hx4 : ∀ j : Fin 64, x4 (ix2 (0 : Fin 1) j) = bl (ix1 j)) (j : Fin 64) :
    tilePre16 (F := Ideal) b0 b1 b2 Wl x4 Wr (ix2 k j) = Cert.Spec.layerPre16 msg dinv h Wl bl Wr (ix2 r j) := by
  rw [tilePre16_sum, layerPre16_sum, h1, hx4]
  refine congrArg₂ (· + ·) (congrArg₂ (· + ·) ?_ rfl) ?_
  · exact Finset.sum_congr rfl fun q _ => by rw [h0]
  · exact Finset.sum_congr rfl fun q _ => by rw [h2]

/-- THE 16-WIDE TILE AT AN INDEX. -/
theorem tilePre16_apply (t : Fin 25)
    (hb0 : ∀ (k : Fin 10000) (q : Fin 16), b0 (ix2 k q) = msg (ix2 (tileRow t k) q))
    (hb1 : ∀ k : Fin 10000, b1 (ix2 k (0 : Fin 1)) = dinv (ix1 (tileRow t k)))
    (hb2 : ∀ (k : Fin 10000) (q : Fin 16), b2 (ix2 k q) = h (ix2 (tileRow t k) q))
    (hx4 : ∀ j : Fin 64, x4 (ix2 (0 : Fin 1) j) = bl (ix1 j)) (k : Fin 10000) (j : Fin 64) :
    tilePre16 (F := Ideal) b0 b1 b2 Wl x4 Wr (ix2 k j) = Cert.Spec.layerPre16 msg dinv h Wl bl Wr (ix2 (tileRow t k) j) :=
  tilePre16_row msg dinv h Wl bl Wr b0 b1 b2 x4 k (tileRow t k) (hb0 k) (hb1 k) (hb2 k) hx4 j

end Tile16

end Cert.KernelIdeal.Val

end
-- ==== Proof.Value.Final01.lean ====
/-
  What the first two regions leave in their result arrays.

  Each region runs 25 points; point t loads rows 10000·t … 10000·t + 9999 of the aggregated messages, of the inverse degrees
  (a column) and of the features, and the whole of both weight matrices and of the bias (a row), and stores max(tile, 0) over
  the same rows of the result. A block read at (k, j) is the array read at (10000·t + k, j), the column of inverse degrees
  and the bias row read back as the vectors they were cast from; so the stored tile is rows 10000·t … of max(layer, 0), the
  25 blocks cover the 250000 rows, and the array after the run is max(layer, 0).
-/
import proofs.«429062_j38955353375020_2_alg».proof.Proof.Value.TileAt
import proofs.«429062_j38955353375020_2_alg».proof.Proof.KernelIdeal.Region0
import proofs.«429062_j38955353375020_2_alg».proof.Proof.KernelIdeal.Region1
import Idealize.ShloMosaic.Lib.Pipeline.Value

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offsets of a whole-buffer rectangle. -/
theorem zero_offsets : (![0, 0] : Fin 2 → Nat) = fun _ => 0 := funext fun a => by fin_cases a <;> rfl

section Casts
variable {α : Type}

/-- A vector `[a]` cast to a column `[a, 1]` reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A scalar spread over any shape by `broadcast_in_dim` reads the scalar everywhere. -/
theorem bcast_scalar_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply ![] h x j ix0 fun a => a.elim0

end Casts

/-- max(·, 0) of the layer at an index. -/
theorem relu_apply (H : Cert.Spec.Arr Ideal S250000x64 .f32) (i : S250000x64.Idx) :
    Cert.Spec.relu H i = max (H i) (Ideal.ofBits .f32 0x00000000#32) := by
  unfold Cert.Spec.relu
  rw [maximumf_apply, bcast_scalar_apply, constant_apply]

/-! ## Region 0 -/

/-- A point of region 0's grid as a tile number. -/
abbrev tileOf0 (t : Fin cfg0.N) : Fin 25 := Fin.cast N_0 t

/-- The printed index maps over the grid: the row-tiled windows are at block (t, 0), the weights and the bias at (0, 0). -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The messages' block at `(k, q)` is the array at row `10000·t + k`. -/
theorem iblk0_0_apply (c : Dev nD) (t : Fin cfg0.N) (k : Fin 10000) (q : Fin 16) :
    (iblk0 V c 0 t : Vec Ideal S10000x16 .f32) (ix2 k q)
      = (V c main_v25 : S250000x16.Idx → Elt Ideal .f32) (ix2 (tileRow (tileOf0 t) k) q) := by
  obtain ⟨e0, e1, -⟩ := idx0 t
  unfold iblk0
  rw [View.read_apply]
  show V c main_v25 _ = V c main_v25 _
  congr 1
  funext a
  apply Fin.ext
  match a with
  | ⟨0, _⟩ => show win0_0.index t (0 : Fin 2) * 10000 + 1 * k.val = 10000 * t.val + k.val; rw [e0]; omega
  | ⟨1, _⟩ => show win0_0.index t (1 : Fin 2) * 16 + 1 * q.val = q.val; rw [e1]; omega

/-- The inverse degrees' block at `(k, 0)` is the column at row `10000·t + k`. -/
theorem iblk0_1_apply (c : Dev nD) (t : Fin cfg0.N) (k : Fin 10000) (u : Fin 1) :
    (iblk0 V c 1 t : Vec Ideal S10000x1 .f32) (ix2 k u)
      = (V c main_v15 : S250000x1.Idx → Elt Ideal .f32) (ix2 (tileRow (tileOf0 t) k) u) := by
  obtain ⟨-, -, e0, e1, -⟩ := idx0 t
  unfold iblk0
  rw [View.read_apply]
  show V c main_v15 _ = V c main_v15 _
  congr 1
  funext a
  apply Fin.ext
  match a with
  | ⟨0, _⟩ => show win0_1.index t (0 : Fin 2) * 10000 + 1 * k.val = 10000 * t.val + k.val; rw [e0]; omega
  | ⟨1, _⟩ => show win0_1.index t (1 : Fin 2) * 1 + 1 * u.val = u.val; rw [e1]; omega

/-- The features' block at `(k, q)` is the array at row `10000·t + k`. -/
theorem iblk0_2_apply (c : Dev nD) (t : Fin cfg0.N) (k : Fin 10000) (q : Fin 16) :
    (iblk0 V c 2 t : Vec Ideal S10000x16 .f32) (ix2 k q)
      = (V c main_arg0 : S250000x16.Idx → Elt Ideal .f32) (ix2 (tileRow (tileOf0 t) k) q) := by
  obtain ⟨-, -, -, -, e0, e1, -⟩ := idx0 t
  unfold iblk0
  rw [View.read_apply]
  show V c main_arg0 _ = V c main_arg0 _
  congr 1
  funext a
  apply Fin.ext
  match a with
  | ⟨0, _⟩ => show win0_2.index t (0 : Fin 2) * 10000 + 1 * k.val = 10000 * t.val + k.val; rw [e0]; omega
  | ⟨1, _⟩ => show win0_2.index t (1 : Fin 2) * 16 + 1 * q.val = q.val; rw [e1]; omega

/-- The left weights' block is the whole array, at every point. -/
theorem iblk0_3_eq (c : Dev nD) (t : Fin cfg0.N) :
    (iblk0 V c 3 t : Vec Ideal S16x64 .f32) = (V c main_arg3 : S16x64.Idx → Elt Ideal .f32) := by
  obtain ⟨-, -, -, -, -, -, e0, e1, -⟩ := idx0 t
  funext x
  unfold iblk0
  rw [View.read_apply]
  show V c main_arg3 _ = V c main_arg3 x
  congr 1
  funext a
  apply Fin.ext
  match a with
  | ⟨0, _⟩ => show win0_3.index t (0 : Fin 2) * 16 + 1 * (x 0).val = (x 0).val; rw [e0]; omega
  | ⟨1, _⟩ => show win0_3.index t (1 : Fin 2) * 64 + 1 * (x 1).val = (x 1).val; rw [e1]; omega

/-- The bias row's block is the whole row, at every point. -/
theorem iblk0_4_eq (c : Dev nD) (t : Fin cfg0.N) :
    (iblk0 V c 4 t : Vec Ideal S1x64 .f32) = (V c main_v26 : S1x64.Idx → Elt Ideal .f32) := by
  obtain ⟨-, -, -, -, -, -, -, -, e0, e1, -⟩ := idx0 t
  funext x
  unfold iblk0
  rw [View.read_apply]
  show V c main_v26 _ = V c main_v26 x
  congr 1
  funext a
  apply Fin.ext
  match a with
  | ⟨0, _⟩ => show win0_4.index t (0 : Fin 2) * 1 + 1 * (x 0).val = (x 0).val; rw [e0]; omega
  | ⟨1, _⟩ => show win0_4.index t (1 : Fin 2) * 64 + 1 * (x 1).val = (x 1).val; rw [e1]; omega

/-- The right weights' block is the whole array, at every point. -/
theorem iblk0_5_eq (c : Dev nD) (t : Fin cfg0.N) :
    (iblk0 V c 5 t : Vec Ideal S16x64 .f32) = (V c main_arg5 : S16x64.Idx → Elt Ideal .f32) := by
  obtain ⟨-, -, -, -, -, -, -, -, -, -, e0, e1, -⟩ := idx0 t
  funext x
  unfold iblk0
  rw [View.read_apply]
  show V c main_arg5 _ = V c main_arg5 x
  congr 1
  funext a
  apply Fin.ext
  match a with
  | ⟨0, _⟩ => show win0_5.index t (0 : Fin 2) * 16 + 1 * (x 0).val = (x 0).val; rw [e0]; omega
  | ⟨1, _⟩ => show win0_5.index t (1 : Fin 2) * 64 + 1 * (x 1).val = (x 1).val; rw [e1]; omega

/-- An element of the result's block at point `t` sits in the array at row `10000·t + k`. -/
theorem emb0_6 (t : Fin cfg0.N) (k : Fin 10000) (q : Fin 64) :
    (((cfg0.win 6).blk t).view.emb (ix2 k q) : S250000x64.Idx) = ix2 (tileRow (tileOf0 t) k) q := by
  obtain ⟨-, -, -, -, -, -, -, -, -, -, -, -, e0, e1⟩ := idx0 t
  funext a
  apply Fin.ext
  match a with
  | ⟨0, _⟩ => show win0_6.index t (0 : Fin 2) * 10000 + 1 * k.val = 10000 * t.val + k.val; rw [e0]; omega
  | ⟨1, _⟩ => show win0_6.index t (1 : Fin 2) * 64 + 1 * q.val = q.val; rw [e1]; omega

section Final0
variable (c : Dev nD) (dinv : Cert.Spec.Arr Ideal S250000 .f32) (bl : Cert.Spec.Arr Ideal S64 .f32)
  (hd : V c main_v15 = fun i => shapeCast S250000x1 dinv shapeCasts_S250000_S250000x1 i)
  (hb : V c main_v26 = fun i => shapeCast S1x64 bl shapeCasts_S64_S1x64 i)

/-- The first layer's activation as a function of the arrays the region finds. -/
abbrev G0 : Cert.Spec.Arr Ideal S250000x64 .f32 :=
  Cert.Spec.relu (Cert.Spec.layerPre16 (V c main_v25) dinv (V c main_arg0) (V c main_arg3) bl (V c main_arg5))

include hd hb in
/-- What point `t` leaves in the result's staging buffer, at `(k, q)`: the activation at row `10000·t + k`. -/
theorem after0_6_apply (t : Fin cfg0.N) (k : Fin 10000) (q : Fin 64) :
    ((dat0 V c).after 6 t : Vec Ideal S10000x64 .f32) (ix2 k q) = G0 V c dinv bl (ix2 (tileRow (tileOf0 t) k) q) := by
  rw [after0_6]
  unfold out0_6
  rw [View.canon_unit_zero zero_offsets]
  simp only [View.ld_unit_zero (S := S10000x16) zero_offsets, View.ld_unit_zero (S := S10000x1) zero_offsets,
    View.ld_unit_zero (S := S16x64) zero_offsets, View.ld_unit_zero (S := S1x64) zero_offsets]
  rw [k0_pay1_eq, maximumf_apply, broadcast_apply, iblk0_3_eq, iblk0_4_eq, iblk0_5_eq]
  refine Eq.trans ?_ (relu_apply _ _).symm
  refine congrArg₂ (max : EReal → EReal → EReal) ?_ rfl
  refine tilePre16_apply (V c main_v25) dinv (V c main_arg0) (V c main_arg3) bl (V c main_arg5) _ _ _ _ (tileOf0 t)
    (fun k q => iblk0_0_apply V c t k q) (fun k => ?_) (fun k q => iblk0_2_apply V c t k q) (fun j => ?_) k q
  · rw [iblk0_1_apply, hd]
    exact shapeCast_a_a1_apply dinv _ _ _
  · rw [hb]
    exact shapeCast_a_1a_apply bl _ _ _

include hd hb in
/-- WHAT POINT `t` WRITES BACK is block `t` of the activation. -/
theorem flushed0_6_eq (t : Fin cfg0.N) :
    (dat0 V c).flushed 6 t = ((cfg0.win 6).blk t).view.read (Elt Ideal) (G0 V c dinv bl) := by
  funext j
  obtain ⟨k, q, rfl⟩ : ∃ (k : Fin 10000) (q : Fin 64), j = ix2 k q := ⟨j 0, j 1, eq_ix2 j⟩
  rw [View.read_apply]
  show ((dat0 V c).after 6 t : Vec Ideal S10000x64 .f32) (ix2 k q) = G0 V c dinv bl (((cfg0.win 6).blk t).view.emb (ix2 k q))
  rw [emb0_6]
  exact after0_6_apply V c dinv bl hd hb t k q

/-- Every row of the result is in the block of the point that is its number divided by 10000. -/
theorem covered0_6 (i : S250000x64.Idx) :
    ∃ t : Fin cfg0.N, (cfg0.win 6).flush t = true ∧ i ∈ ((cfg0.win 6).blk t).view.set := by
  have hi0 : (i 0).val < 250000 := (i 0).isLt
  have hi1 : (i 1).val < 64 := (i 1).isLt
  have hN : cfg0.N = 25 := N_0
  have ht : (i 0).val / 10000 < cfg0.N := by rw [hN]; omega
  obtain ⟨-, -, -, -, -, -, -, -, -, -, -, -, e0, e1⟩ := idx0 ⟨(i 0).val / 10000, ht⟩
  refine ⟨⟨(i 0).val / 10000, ht⟩, flush0_6 _, ?_⟩
  show i ∈ ((View.whole main_v27).slice (win0_6.rect ⟨(i 0).val / 10000, ht⟩)).set
  rw [View.set_slice_whole, Rect.mem_set_unit]
  intro a
  match a with
  | ⟨0, _⟩ =>
    show win0_6.index ⟨(i 0).val / 10000, ht⟩ (0 : Fin 2) * 10000 ≤ (i 0).val
      ∧ (i 0).val < win0_6.index ⟨(i 0).val / 10000, ht⟩ (0 : Fin 2) * 10000 + 10000
    rw [e0]; show (i 0).val / 10000 * 10000 ≤ (i 0).val ∧ (i 0).val < (i 0).val / 10000 * 10000 + 10000; omega
  | ⟨1, _⟩ =>
    show win0_6.index ⟨(i 0).val / 10000, ht⟩ (1 : Fin 2) * 64 ≤ (i 1).val
      ∧ (i 1).val < win0_6.index ⟨(i 0).val / 10000, ht⟩ (1 : Fin 2) * 64 + 64
    rw [e1]; omega

include hd hb in
/-- THE RESULT ARRAY OF REGION 0 after its run: max(layer, 0) of the arrays the region finds. -/
theorem final0 :
    (dat0 (F := Ideal) V c).arrAt 6 cfg0.N
      = Cert.Spec.relu (Cert.Spec.layerPre16 (V c main_v25) dinv (V c main_arg0) (V c main_arg3) bl (V c main_arg5)) :=
  (dat0 V c).arrAt_eq_of_cover 6 (G0 V c dinv bl) (fun t _ => flushed0_6_eq V c dinv bl hd hb t) (fun i => covered0_6 i)

end Final0

/-! ## Region 1 -/

/-- A point of region 1's grid as a tile number. -/
abbrev tileOf1 (t : Fin cfg1.N) : Fin 25 := Fin.cast N_1 t

/-- The printed index maps over the grid: the row-tiled windows are at block (t, 0), the weights and the bias at (0, 0). -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The messages' block at `(k, q)` is the array at row `10000·t + k`. -/
theorem iblk1_0_apply (c : Dev nD) (t : Fin cfg1.N) (k : Fin 10000) (q : Fin 64) :
    (iblk1 V c 0 t : Vec Ideal S10000x64 .f32) (ix2 k q)
      = (V c main_v37 : S250000x64.Idx → Elt Ideal .f32) (ix2 (tileRow (tileOf1 t) k) q) := by
  obtain ⟨e0, e1, -⟩ := idx1 t
  unfold iblk1
  rw [View.read_apply]
  show V c main_v37 _ = V c main_v37 _
  congr 1
  funext a
  apply Fin.ext
  match a with
  | ⟨0, _⟩ => show win1_0.index t (0 : Fin 2) * 10000 + 1 * k.val = 10000 * t.val + k.val; rw [e0]; omega
  | ⟨1, _⟩ => show win1_0.index t (1 : Fin 2) * 64 + 1 * q.val = q.val; rw [e1]; omega

/-- The inverse degrees' block at `(k, 0)` is the column at row `10000·t + k`. -/
theorem iblk1_1_apply (c : Dev nD) (t : Fin cfg1.N) (k : Fin 10000) (u : Fin 1) :
    (iblk1 V c 1 t : Vec Ideal S10000x1 .f32) (ix2 k u)
      = (V c main_v15 : S250000x1.Idx → Elt Ideal .f32) (ix2 (tileRow (tileOf1 t) k) u) := by
  obtain ⟨-, -, e0, e1, -⟩ := idx1 t
  unfold iblk1
  rw [View.read_apply]
  show V c main_v15 _ = V c main_v15 _
  congr 1
  funext a
  apply Fin.ext
  match a with
  | ⟨0, _⟩ => show win1_1.index t (0 : Fin 2) * 10000 + 1 * k.val = 10000 * t.val + k.val; rw [e0]; omega
  | ⟨1, _⟩ => show win1_1.index t (1 : Fin 2) * 1 + 1 * u.val = u.val; rw [e1]; omega

/-- The features' block at `(k, q)` is the array at row `10000·t + k`. -/
theorem iblk1_2_apply (c : Dev nD) (t : Fin cfg1.N) (k : Fin 10000) (q : Fin 64) :
    (iblk1 V c 2 t : Vec Ideal S10000x64 .f32) (ix2 k q)
      = (V c main_v27 : S250000x64.Idx → Elt Ideal .f32) (ix2 (tileRow (tileOf1 t) k) q) := by
  obtain ⟨-, -, -, -, e0, e1, -⟩ := idx1 t
  unfold iblk1
  rw [View.read_apply]
  show V c main_v27 _ = V c main_v27 _
  congr 1
  funext a
  apply Fin.ext
  match a with
  | ⟨0, _⟩ => show win1_2.index t (0 : Fin 2) * 10000 + 1 * k.val = 10000 * t.val + k.val; rw [e0]; omega
  | ⟨1, _⟩ => show win1_2.index t (1 : Fin 2) * 64 + 1 * q.val = q.val; rw [e1]; omega

/-- The left weights' block is the whole array, at every point. -/
theorem iblk1_3_eq (c : Dev nD) (t : Fin cfg1.N) :
    (iblk1 V c 3 t : Vec Ideal S64x64 .f32) = (V c main_arg6 : S64x64.Idx → Elt Ideal .f32) := by
  obtain ⟨-, -, -, -, -, -, e0, e1, -⟩ := idx1 t
  funext x
  unfold iblk1
  rw [View.read_apply]
  show V c main_arg6 _ = V c main_arg6 x
  congr 1
  funext a
  apply Fin.ext
  match a with
  | ⟨0, _⟩ => show win1_3.index t (0 : Fin 2) * 64 + 1 * (x 0).val = (x 0).val; rw [e0]; omega
  | ⟨1, _⟩ => show win1_3.index t (1 : Fin 2) * 64 + 1 * (x 1).val = (x 1).val; rw [e1]; omega

/-- The bias row's block is the whole row, at every point. -/
theorem iblk1_4_eq (c : Dev nD) (t : Fin cfg1.N) :
    (iblk1 V c 4 t : Vec Ideal S1x64 .f32) = (V c main_v38 : S1x64.Idx → Elt Ideal .f32) := by
  obtain ⟨-, -, -, -, -, -, -, -, e0, e1, -⟩ := idx1 t
  funext x
  unfold iblk1
  rw [View.read_apply]
  show V c main_v38 _ = V c main_v38 x
  congr 1
  funext a
  apply Fin.ext
  match a with
  | ⟨0, _⟩ => show win1_4.index t (0 : Fin 2) * 1 + 1 * (x 0).val = (x 0).val; rw [e0]; omega
  | ⟨1, _⟩ => show win1_4.index t (1 : Fin 2) * 64 + 1 * (x 1).val = (x 1).val; rw [e1]; omega

/-- The right weights' block is the whole array, at every point. -/
theorem iblk1_5_eq (c : Dev nD) (t : Fin cfg1.N) :
    (iblk1 V c 5 t : Vec Ideal S64x64 .f32) = (V c main_arg8 : S64x64.Idx → Elt Ideal .f32) := by
  obtain ⟨-, -, -, -, -, -, -, -, -, -, e0, e1, -⟩ := idx1 t
  funext x
  unfold iblk1
  rw [View.read_apply]
  show V c main_arg8 _ = V c main_arg8 x
  congr 1
  funext a
  apply Fin.ext
  match a with
  | ⟨0, _⟩ => show win1_5.index t (0 : Fin 2) * 64 + 1 * (x 0).val = (x 0).val; rw [e0]; omega
  | ⟨1, _⟩ => show win1_5.index t (1 : Fin 2) * 64 + 1 * (x 1).val = (x 1).val; rw [e1]; omega

/-- An element of the result's block at point `t` sits in the array at row `10000·t + k`. -/
theorem emb1_6 (t : Fin cfg1.N) (k : Fin 10000) (q : Fin 64) :
    (((cfg1.win 6).blk t).view.emb (ix2 k q) : S250000x64.Idx) = ix2 (tileRow (tileOf1 t) k) q := by
  obtain ⟨-, -, -, -, -, -, -, -, -, -, -, -, e0, e1⟩ := idx1 t
  funext a
  apply Fin.ext
  match a with
  | ⟨0, _⟩ => show win1_6.index t (0 : Fin 2) * 10000 + 1 * k.val = 10000 * t.val + k.val; rw [e0]; omega
  | ⟨1, _⟩ => show win1_6.index t (1 : Fin 2) * 64 + 1 * q.val = q.val; rw [e1]; omega

section Final1
variable (c : Dev nD) (dinv : Cert.Spec.Arr Ideal S250000 .f32) (bl : Cert.Spec.Arr Ideal S64 .f32)
  (hd : V c main_v15 = fun i => shapeCast S250000x1 dinv shapeCasts_S250000_S250000x1 i)
  (hb : V c main_v38 = fun i => shapeCast S1x64 bl shapeCasts_S64_S1x64 i)

/-- The second layer's activation as a function of the arrays the region finds. -/
abbrev G1 : Cert.Spec.Arr Ideal S250000x64 .f32 :=
  Cert.Spec.relu (Cert.Spec.layerPre64 (V c main_v37) dinv (V c main_v27) (V c main_arg6) bl (V c main_arg8))

include hd hb in
/-- What point `t` leaves in the result's staging buffer, at `(k, q)`: the activation at row `10000·t + k`. -/
theorem after1_6_apply (t : Fin cfg1.N) (k : Fin 10000) (q : Fin 64) :
    ((dat1 V c).after 6 t : Vec Ideal S10000x64 .f32) (ix2 k q) = G1 V c dinv bl (ix2 (tileRow (tileOf1 t) k) q) := by
  rw [after1_6]
  unfold out1_6
  rw [View.canon_unit_zero zero_offsets]
  simp only [View.ld_unit_zero (S := S10000x64) zero_offsets, View.ld_unit_zero (S := S10000x1) zero_offsets,
    View.ld_unit_zero (S := S64x64) zero_offsets, View.ld_unit_zero (S := S1x64) zero_offsets]
  rw [k1_pay1_eq, maximumf_apply, broadcast_apply, iblk1_3_eq, iblk1_4_eq, iblk1_5_eq]
  refine Eq.trans ?_ (relu_apply _ _).symm
  refine congrArg₂ (max : EReal → EReal → EReal) ?_ rfl
  refine tilePre64_apply (V c main_v37) dinv (V c main_v27) (V c main_arg6) bl (V c main_arg8) _ _ _ _ (tileOf1 t)
    (fun k q => iblk1_0_apply V c t k q) (fun k => ?_) (fun k q => iblk1_2_apply V c t k q) (fun j => ?_) k q
  · rw [iblk1_1_apply, hd]
    exact shapeCast_a_a1_apply dinv _ _ _
  · rw [hb]
    exact shapeCast_a_1a_apply bl _ _ _

include hd hb in
/-- WHAT POINT `t` WRITES BACK is block `t` of the activation. -/
theorem flushed1_6_eq (t : Fin cfg1.N) :
    (dat1 V c).flushed 6 t = ((cfg1.win 6).blk t).view.read (Elt Ideal) (G1 V c dinv bl) := by
  funext j
  obtain ⟨k, q, rfl⟩ : ∃ (k : Fin 10000) (q : Fin 64), j = ix2 k q := ⟨j 0, j 1, eq_ix2 j⟩
  rw [View.read_apply]
  show ((dat1 V c).after 6 t : Vec Ideal S10000x64 .f32) (ix2 k q) = G1 V c dinv bl (((cfg1.win 6).blk t).view.emb (ix2 k q))
  rw [emb1_6]
  exact after1_6_apply V c dinv bl hd hb t k q

/-- Every row of the result is in the block of the point that is its number divided by 10000. -/
theorem covered1_6 (i : S250000x64.Idx) :
    ∃ t : Fin cfg1.N, (cfg1.win 6).flush t = true ∧ i ∈ ((cfg1.win 6).blk t).view.set := by
  have hi0 : (i 0).val < 250000 := (i 0).isLt
  have hi1 : (i 1).val < 64 := (i 1).isLt
  have hN : cfg1.N = 25 := N_1
  have ht : (i 0).val / 10000 < cfg1.N := by rw [hN]; omega
  obtain ⟨-, -, -, -, -, -, -, -, -, -, -, -, e0, e1⟩ := idx1 ⟨(i 0).val / 10000, ht⟩
  refine ⟨⟨(i 0).val / 10000, ht⟩, flush1_6 _, ?_⟩
  show i ∈ ((View.whole main_v39).slice (win1_6.rect ⟨(i 0).val / 10000, ht⟩)).set
  rw [View.set_slice_whole, Rect.mem_set_unit]
  intro a
  match a with
  | ⟨0, _⟩ =>
    show win1_6.index ⟨(i 0).val / 10000, ht⟩ (0 : Fin 2) * 10000 ≤ (i 0).val
      ∧ (i 0).val < win1_6.index ⟨(i 0).val / 10000, ht⟩ (0 : Fin 2) * 10000 + 10000
    rw [e0]; show (i 0).val / 10000 * 10000 ≤ (i 0).val ∧ (i 0).val < (i 0).val / 10000 * 10000 + 10000; omega
  | ⟨1, _⟩ =>
    show win1_6.index ⟨(i 0).val / 10000, ht⟩ (1 : Fin 2) * 64 ≤ (i 1).val
      ∧ (i 1).val < win1_6.index ⟨(i 0).val / 10000, ht⟩ (1 : Fin 2) * 64 + 64
    rw [e1]; omega

include hd hb in
/-- THE RESULT ARRAY OF REGION 1 after its run: max(layer, 0) of the arrays the region finds. -/
theorem final1 :
    (dat1 (F := Ideal) V c).arrAt 6 cfg1.N
      = Cert.Spec.relu (Cert.Spec.layerPre64 (V c main_v37) dinv (V c main_v27) (V c main_arg6) bl (V c main_arg8)) :=
  (dat1 V c).arrAt_eq_of_cover 6 (G1 V c dinv bl) (fun t _ => flushed1_6_eq V c dinv bl hd hb t) (fun i => covered1_6 i)

end Final1

end Cert.KernelIdeal.Val

end
-- ==== Proof.LibPackedSums.lean ====
/-
  Regrouping of finite sums over consecutive naturals, in any commutative monoid, and one fact on 32-bit words.

  A block of m·n consecutive naturals x is read as x = n·a + b with a < m and b < n; a block of m + n consecutive
  naturals as the first m followed by the next n. Because addition is commutative and associative, a sum over the
  block equals the iterated sum over the coordinates, and iterated sums over different coordinates may be exchanged.
  The instances stated here: 2 000 000 rows n = 2·k + h, with k = (100·c + i)·5000 + r a packed row (c < 2, i < 100,
  r < 5000) and h < 2 the half; and 128 lanes l = j + 64·h with j < 64.

  The word fact: a natural j < 64 written as a 32-bit word is the only word whose signed value is j.
-/
import Mathlib.Algebra.BigOperators.Fin
import Mathlib.Algebra.BigOperators.Group.Finset.Basic
import Mathlib.Logic.Equiv.Fin.Basic
import Mathlib.Data.Fintype.BigOperators

namespace Cert.PackedSums

open Finset

section General

variable {M : Type*} [AddCommMonoid M]

/-- A sum over `N = m·n` consecutive naturals is the double sum over `a < m`, `b < n` of the term at `n·a + b`:
    every `x < m·n` is `n·a + b` for exactly one such pair. -/
theorem sum_fin_of_eq_mul {N m n : ℕ} (hN : N = m * n) (g : ℕ → M) :
    (∑ x : Fin N, g x.val) = ∑ a : Fin m, ∑ b : Fin n, g (n * a.val + b.val) := by
  subst hN
  have h1 : (∑ x : Fin (m * n), g x.val) = ∑ p : Fin m × Fin n, g (finProdFinEquiv p).val :=
    (Equiv.sum_comp finProdFinEquiv (fun x : Fin (m * n) => g x.val)).symm
  rw [h1, Fintype.sum_prod_type]
  refine Finset.sum_congr rfl fun a _ => Finset.sum_congr rfl fun b _ => ?_
  rw [finProdFinEquiv_apply_val, Nat.add_comm]

/-- A sum over `N = m + n` consecutive naturals is the sum over the first `m` plus the sum over the next `n`. -/
theorem sum_fin_of_eq_add {N m n : ℕ} (hN : N = m + n) (f : ℕ → M) :
    (∑ x : Fin N, f x.val) = (∑ a : Fin m, f a.val) + ∑ b : Fin n, f (b.val + m) := by
  subst hN
  rw [Fin.sum_univ_add]
  refine congrArg₂ (· + ·) rfl (Finset.sum_congr rfl fun b _ => ?_)
  rw [Fin.val_natAdd, Nat.add_comm]

/-- A sum over `N = K·2` consecutive naturals is the sum of the even terms plus the sum of the odd terms. -/
theorem sum_fin_even_odd {N K : ℕ} (hN : N = K * 2) (g : ℕ → M) :
    (∑ x : Fin N, g x.val) = (∑ k : Fin K, g (2 * k.val)) + ∑ k : Fin K, g (2 * k.val + 1) := by
  rw [sum_fin_of_eq_mul hN g, ← Finset.sum_add_distrib]
  refine Finset.sum_congr rfl fun k _ => ?_
  rw [Fin.sum_univ_two]
  rfl

/-- A sum over `K = (A·B)·R` consecutive naturals is the triple sum over `c < A`, `i < B`, `r < R` of the term at
    `(B·c + i)·R + r`. -/
theorem sum_fin_three {K A B R : ℕ} (hK : K = (A * B) * R) (f : ℕ → M) :
    (∑ k : Fin K, f k.val) = ∑ c : Fin A, ∑ i : Fin B, ∑ r : Fin R, f ((B * c.val + i.val) * R + r.val) := by
  rw [sum_fin_of_eq_mul hK f]
  rw [sum_fin_of_eq_mul (rfl : A * B = A * B) (fun a => ∑ r : Fin R, f (R * a + r.val))]
  refine Finset.sum_congr rfl fun c _ => Finset.sum_congr rfl fun i _ => Finset.sum_congr rfl fun r _ => ?_
  rw [Nat.mul_comm R]

/-- In a fourfold iterated sum the outermost coordinate may be moved innermost. -/
theorem sum_rotate4 {α β γ δ : Type*} [Fintype α] [Fintype β] [Fintype γ] [Fintype δ]
    (F : α → β → γ → δ → M) :
    (∑ j : δ, ∑ c : α, ∑ i : β, ∑ r : γ, F c i r j) = ∑ c : α, ∑ i : β, ∑ r : γ, ∑ j : δ, F c i r j := by
  refine Finset.sum_comm.trans (Finset.sum_congr rfl fun c _ => ?_)
  refine Finset.sum_comm.trans (Finset.sum_congr rfl fun i _ => ?_)
  exact Finset.sum_comm

end General

/-- The 2 000 000 rows, grouped: row `n = 2·k` or `n = 2·k + 1` with `k = (100·c + i)·5000 + r`, so the sum over
    all rows is the sum over the first halves of all packed rows plus the sum over the second halves. -/
theorem sum_rows_eq_packed {M : Type*} [AddCommMonoid M] (g : ℕ → M) :
    (∑ n : Fin 2000000, g n.val)
      = (∑ c : Fin 2, ∑ i : Fin 100, ∑ r : Fin 5000, g (2 * ((100 * c.val + i.val) * 5000 + r.val)))
      + (∑ c : Fin 2, ∑ i : Fin 100, ∑ r : Fin 5000, g (2 * ((100 * c.val + i.val) * 5000 + r.val) + 1)) := by
  have hN : (2000000 : ℕ) = 1000000 * 2 := rfl
  have hK : (1000000 : ℕ) = (2 * 100) * 5000 := rfl
  rw [sum_fin_even_odd hN g, sum_fin_three hK (fun k => g (2 * k)), sum_fin_three hK (fun k => g (2 * k + 1))]

/-- The 128 lanes are the 64 lanes `j` followed by the 64 lanes `j + 64`. -/
theorem sum_lanes_split {M : Type*} [AddCommMonoid M] (f : ℕ → M) :
    (∑ l : Fin 128, f l.val) = (∑ j : Fin 64, f j.val) + (∑ j : Fin 64, f (j.val + 64)) :=
  sum_fin_of_eq_add (rfl : (128 : ℕ) = 64 + 64) f

/-- Rows times classes equal lanes times packed rows: the entry of row `n = 2·k + h` and class `j` is the entry of
    packed row `k` in lane `l = j + 64·h`, where `h = l / 64` and `j = l % 64`. -/
theorem sum_rows_classes_eq_lanes {M : Type*} [AddCommMonoid M] (h : ℕ → ℕ → M) :
    (∑ n : Fin 2000000, ∑ j : Fin 64, h n.val j.val)
      = ∑ l : Fin 128, ∑ c : Fin 2, ∑ i : Fin 100, ∑ r : Fin 5000,
          h (2 * ((100 * c.val + i.val) * 5000 + r.val) + l.val / 64) (l.val % 64) := by
  rw [sum_rows_eq_packed (fun n => ∑ j : Fin 64, h n j.val)]
  rw [sum_lanes_split (fun l => ∑ c : Fin 2, ∑ i : Fin 100, ∑ r : Fin 5000,
          h (2 * ((100 * c.val + i.val) * 5000 + r.val) + l / 64) (l % 64))]
  refine congrArg₂ (· + ·) ?_ ?_
  · rw [← sum_rotate4 (fun (c : Fin 2) (i : Fin 100) (r : Fin 5000) (j : Fin 64) =>
        h (2 * ((100 * c.val + i.val) * 5000 + r.val)) j.val)]
    refine Finset.sum_congr rfl fun j _ => Finset.sum_congr rfl fun c _ => Finset.sum_congr rfl fun i _ =>
      Finset.sum_congr rfl fun r _ => ?_
    rw [Nat.div_eq_of_lt j.isLt, Nat.mod_eq_of_lt j.isLt, Nat.add_zero]
  · rw [← sum_rotate4 (fun (c : Fin 2) (i : Fin 100) (r : Fin 5000) (j : Fin 64) =>
        h (2 * ((100 * c.val + i.val) * 5000 + r.val) + 1) j.val)]
    refine Finset.sum_congr rfl fun j _ => Finset.sum_congr rfl fun c _ => Finset.sum_congr rfl fun i _ =>
      Finset.sum_congr rfl fun r _ => ?_
    have h1 : (j.val + 64) / 64 = 1 := by have := j.isLt; omega
    have h2 : (j.val + 64) % 64 = j.val := by have := j.isLt; omega
    rw [h1, h2]

/-- The signed value of the 32-bit word of a natural `j < 64` is `j`. -/
theorem toInt_ofNat_small (j : ℕ) (hj : j < 64) : (BitVec.ofNat 32 j).toInt = (j : ℤ) := by
  rw [BitVec.toInt_eq_toNat_cond, BitVec.toNat_ofNat]
  have hm : j % 2 ^ 32 = j := Nat.mod_eq_of_lt (by omega)
  rw [hm, if_pos (by omega)]

/-- A 32-bit word is the word of `j < 64` exactly when its signed value is `j`: the signed value determines the
    word, and the word of `j` has signed value `j`. -/
theorem ofNat_eq_iff_toInt (j : ℕ) (hj : j < 64) (t : BitVec 32) : BitVec.ofNat 32 j = t ↔ t.toInt = (j : ℤ) := by
  rw [eq_comm, ← BitVec.toInt_inj, toInt_ofNat_small j hj]

end Cert.PackedSums
-- ==== Proof.Value.PoolLaws.lean ====
/-
  The laws that turn the pooling done tile by tile into whole-array segment sums, at the extended reals.

  A product that contracts the ROWS of both operands, [k, a] × [k, b] → [a, b], read at (p, q), is the sum over the rows
  j < k of lhs (j, p) · rhs (j, q). With the left operand the one-hot of a tile's graph ids, that is the sum of the rows of
  the tile whose id is p; summed over the 25 tiles of 10000 rows it is the sum over all 250000 rows, which is what the
  scatter-add of the whole array by graph id reads at (p, q): an update row lands on the graph whose number is the id's
  signed value, and on none when that value is outside 0 … 63. Addition of extended reals is commutative and
  associative and 0 · x = 0, 1 · x = x for every x, so nothing here needs the values to be finite.
-/
import proofs.«429062_j38955353375020_2_alg».proof.Proof.Value.Tile
import proofs.«429062_j38955353375020_2_alg».proof.Proof.Value.Spec
import proofs.«429062_j38955353375020_2_alg».proof.Proof.LibPackedSums
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate
import Mathlib.Algebra.BigOperators.Fin

noncomputable section

namespace Cert.KernelIdeal.Val

open Cert.KernelIdeal Cert.KernelIdeal.Gen Idealize.ShloMosaic Idealize.ShloMosaic.ValueIdx
open scoped BigOperators

/-! ## Regrouping 250000 rows into 25 tiles of 10000, and the running sum over the tiles -/

/-- Row `k` of tile `n` is row `10000 · n + k` of the whole array. -/
def tileRowN (n : ℕ) (hn : n < 25) (k : Fin 10000) : Fin 250000 := ⟨10000 * n + k.val, by have := k.isLt; omega⟩

/-- The sum over the tiles of the sums over each tile's rows is the sum over all rows. -/
theorem sum_tiles {M : Type*} [AddCommMonoid M] (f : Fin 250000 → M) :
    (∑ t : Fin 25, ∑ k : Fin 10000, f (tileRowN t.val t.isLt k)) = ∑ r : Fin 250000, f r := by
  have h := Cert.PackedSums.sum_fin_of_eq_mul (N := 250000) (m := 25) (n := 10000) rfl
    (fun x => if hx : x < 250000 then f ⟨x, hx⟩ else 0)
  have e1 : (∑ r : Fin 250000, f r) = ∑ x : Fin 250000, (if hx : x.val < 250000 then f ⟨x.val, hx⟩ else 0) :=
    Finset.sum_congr rfl fun x _ => by rw [dif_pos x.isLt]
  rw [e1, h]
  exact Finset.sum_congr rfl fun t _ => Finset.sum_congr rfl fun k _ => by
    rw [dif_pos (show 10000 * t.val + k.val < 250000 from (tileRowN t.val t.isLt k).isLt)]; rfl

/-- A running value that starts from `0 + s 0` and adds `s (n + 1)` at step `n + 1` is, after step `n`, the sum of the
    first `n + 1` terms. -/
theorem fold_sum {M : Type*} [AddCommMonoid M] (a : (n : ℕ) → n < 25 → M) (s : ℕ → M)
    (h0 : ∀ h : 0 < 25, a 0 h = 0 + s 0)
    (hs : ∀ n (hn : n + 1 < 25), a (n + 1) hn = a n (Nat.lt_of_succ_lt hn) + s (n + 1)) :
    ∀ n (hn : n < 25), a n hn = ∑ t ∈ Finset.range (n + 1), s t := by
  intro n
  induction n with
  | zero => intro hn; rw [h0 hn, zero_add, Finset.sum_range_one]
  | succ n ih =>
    intro hn
    rw [hs n hn, ih (Nat.lt_of_succ_lt hn), Finset.sum_range_succ _ (n + 1)]

/-- After the last of the 25 steps it is the sum over all tiles. -/
theorem fold_sum_last {M : Type*} [AddCommMonoid M] (a : (n : ℕ) → n < 25 → M) (s : ℕ → M)
    (h0 : ∀ h : 0 < 25, a 0 h = 0 + s 0)
    (hs : ∀ n (hn : n + 1 < 25), a (n + 1) hn = a n (Nat.lt_of_succ_lt hn) + s (n + 1)) (h24 : 24 < 25) :
    a 24 h24 = ∑ t : Fin 25, s t.val := by
  rw [fold_sum a s h0 hs 24 h24, Fin.sum_univ_eq_sum_range s 25]

/-! ## A product contracting the rows of both operands, read at one element -/

section RowContract
variable {k a b : ℕ} (wf : DotDims.WF ⟨2, ![k, a]⟩ ⟨2, ![k, b]⟩ ⟨2, ![a, b]⟩ [0] [0] [1] [1] [] [])

/-- The dimension numbers: axis 0 of each operand contracted, axis 1 of each kept, no batch axis. -/
abbrev rowDims (k a b : ℕ) (wf : DotDims.WF ⟨2, ![k, a]⟩ ⟨2, ![k, b]⟩ ⟨2, ![a, b]⟩ [0] [0] [1] [1] [] []) :
    DotDims ⟨2, ![k, a]⟩ ⟨2, ![k, b]⟩ ⟨2, ![a, b]⟩ where
  lhsContracting := [0]
  rhsContracting := [0]
  lhsNonContracting := [1]
  rhsNonContracting := [1]
  lhsBatch := []
  rhsBatch := []
  wf := wf

/-- The left operand's row is the contraction coordinate. -/
theorem rowDims_lhs0 (j : (⟨2, ![a, b]⟩ : Shape).Idx) (q : (rowDims k a b wf).contr.Idx) :
    ((rowDims k a b wf).lhsIdx j q 0).val = (q ⟨0, Nat.one_pos⟩).val :=
  (rowDims k a b wf).lhsIdx_val_of_single rfl j q

/-- The left operand's column is the result's row. -/
theorem rowDims_lhs1 (j : (⟨2, ![a, b]⟩ : Shape).Idx) (q : (rowDims k a b wf).contr.Idx) :
    ((rowDims k a b wf).lhsIdx j q 1).val = (j 0).val := by
  unfold DotDims.lhsIdx
  rw [dif_neg (show ¬(1 : Fin 2) ∈ (rowDims k a b wf).lhsBatch from List.not_mem_nil),
    dif_pos (show (1 : Fin 2) ∈ (rowDims k a b wf).lhsNonContracting from List.mem_singleton.mpr rfl)]
  rfl

/-- The right operand's row is the contraction coordinate. -/
theorem rowDims_rhs0 (j : (⟨2, ![a, b]⟩ : Shape).Idx) (q : (rowDims k a b wf).contr.Idx) :
    ((rowDims k a b wf).rhsIdx j q 0).val = (q ⟨0, Nat.one_pos⟩).val :=
  (rowDims k a b wf).rhsIdx_val_of_single rfl j q

/-- The right operand's column is the result's column. -/
theorem rowDims_rhs1 (j : (⟨2, ![a, b]⟩ : Shape).Idx) (q : (rowDims k a b wf).contr.Idx) :
    ((rowDims k a b wf).rhsIdx j q 1).val = (j 1).val := by
  unfold DotDims.rhsIdx
  rw [dif_neg (show ¬(1 : Fin 2) ∈ (rowDims k a b wf).rhsBatch from List.not_mem_nil),
    dif_pos (show (1 : Fin 2) ∈ (rowDims k a b wf).rhsNonContracting from List.mem_singleton.mpr rfl)]
  rfl

/-- The contraction sum at `(p, q)` as a sum over the rows. -/
theorem contr_sum_rowDims (lhs : (⟨2, ![k, a]⟩ : Shape).Idx → EReal) (rhs : (⟨2, ![k, b]⟩ : Shape).Idx → EReal)
    (p : Fin a) (q : Fin b) :
    (∑ c : (rowDims k a b wf).contr.Idx,
        lhs ((rowDims k a b wf).lhsIdx (ix2 p q) c) * rhs ((rowDims k a b wf).rhsIdx (ix2 p q) c))
      = ∑ j : Fin k, lhs (ix2 j p) * rhs (ix2 j q) := by
  rw [← Equiv.sum_comp (contrEquiv1 (rowDims k a b wf) k rfl rfl).symm]
  refine Finset.sum_congr rfl fun j _ => ?_
  have hk := contrEquiv1_symm_val (rowDims k a b wf) k rfl rfl j
  have el : (rowDims k a b wf).lhsIdx (ix2 p q) ((contrEquiv1 (rowDims k a b wf) k rfl rfl).symm j) = ix2 j p :=
    funext fun ax => Fin.ext (by
      match ax with
      | ⟨0, _⟩ => exact (rowDims_lhs0 wf _ _).trans hk
      | ⟨1, _⟩ => exact rowDims_lhs1 wf _ _)
  have er : (rowDims k a b wf).rhsIdx (ix2 p q) ((contrEquiv1 (rowDims k a b wf) k rfl rfl).symm j) = ix2 j q :=
    funext fun ax => Fin.ext (by
      match ax with
      | ⟨0, _⟩ => exact (rowDims_rhs0 wf _ _).trans hk
      | ⟨1, _⟩ => exact rowDims_rhs1 wf _ _)
  rw [el, er]

end RowContract

/-- The product into a zero accumulator at `(p, q)`, for any record with these dimension numbers: the sum over the
    rows `j < k` of `lhs (j, p) · rhs (j, q)`. -/
theorem matmul_rows_zero_apply {k a b : ℕ} {φ₁ φ₂ : FTy} (d : DotDims ⟨2, ![k, a]⟩ ⟨2, ![k, b]⟩ ⟨2, ![a, b]⟩)
    (h1 : d.lhsContracting = [0]) (h2 : d.rhsContracting = [0]) (h3 : d.lhsNonContracting = [1])
    (h4 : d.rhsNonContracting = [1]) (h5 : d.lhsBatch = []) (h6 : d.rhsBatch = [])
    (prec : Option ContractPrecision) (lhs : FVec Ideal ⟨2, ![k, a]⟩ φ₁) (rhs : FVec Ideal ⟨2, ![k, b]⟩ φ₂)
    (p : Fin a) (q : Fin b) :
    FloatOps.matmul d prec lhs rhs (constant ⟨2, ![a, b]⟩ .f32 0x00000000#32) (ix2 p q)
      = ∑ j : Fin k, lhs (ix2 j p) * rhs (ix2 j q) := by
  obtain ⟨lc, rc, ln, rn, lb, rb, wf⟩ := d
  simp only at h1 h2 h3 h4 h5 h6
  subst h1 h2 h3 h4 h5 h6
  rw [Ideal.matmul_constant_zero_apply]
  exact contr_sum_rowDims wf lhs rhs p q

/-- The pooling product of a tile at `(g, j)`: the sum over the tile's rows. -/
theorem pool_matmul_apply (prec : Option ContractPrecision) (lhs : FVec Ideal S10000x64 .f32) (rhs : FVec Ideal S10000x64 .f32)
    (g j : Fin 64) :
    matmul dot_S10000x64_S10000x64_S64x64_0_0_1_1_n_n prec lhs rhs (constant S64x64 .f32 0x00000000#32) (ix2 g j)
      = ∑ k : Fin 10000, lhs (ix2 k g) * rhs (ix2 k j) :=
  matmul_rows_zero_apply dot_S10000x64_S10000x64_S64x64_0_0_1_1_n_n rfl rfl rfl rfl rfl rfl prec lhs rhs g j

/-- The counting product of a tile at `(g, 0)`: the sum over the tile's rows. -/
theorem count_matmul_apply (prec : Option ContractPrecision) (lhs : FVec Ideal S10000x64 .f32) (rhs : FVec Ideal S10000x1 .f32)
    (g : Fin 64) :
    matmul dot_S10000x64_S10000x1_S64x1_0_0_1_1_n_n prec lhs rhs (constant S64x1 .f32 0x00000000#32) (ix2 g 0)
      = ∑ k : Fin 10000, lhs (ix2 k g) * rhs (ix2 k 0) :=
  matmul_rows_zero_apply dot_S10000x64_S10000x1_S64x1_0_0_1_1_n_n rfl rfl rfl rfl rfl rfl prec lhs rhs g 0

/-! ## The one-hot of a tile's graph ids, the splat of ones and the zero splats, read at one element -/

/-- A one-bit word widened to 32 bits and read as a signed integer, as an extended real: 1 for the set bit. -/
theorem sitofp_one : FloatOps.sitofp (F := Ideal) .f32 ((1#1 : BitVec 1).setWidth 32) = 1 := by
  show (((((1#1 : BitVec 1).setWidth 32).toInt : ℤ) : ℝ) : EReal) = 1
  have h : ((1#1 : BitVec 1).setWidth 32).toInt = 1 := by decide
  rw [h]; norm_num

/-- … and 0 for the clear bit. -/
theorem sitofp_zero : FloatOps.sitofp (F := Ideal) .f32 ((0#1 : BitVec 1).setWidth 32) = 0 := by
  show (((((0#1 : BitVec 1).setWidth 32).toInt : ℤ) : ℝ) : EReal) = 0
  have h : ((0#1 : BitVec 1).setWidth 32).toInt = 0 := by decide
  rw [h]; norm_num

/-- The column of graph ids broadcast along the row reads, at `(k, g)`, the id of row `k`. -/
theorem ids_bcast_apply (x6 : Vec Ideal S10000x1 .i32) (k : Fin 10000) (g : Fin 64) :
    broadcastTo S10000x64 (shapeCast S10000x1 x6 shapeCasts_S10000x1_S10000x1) broadcasts_S10000x1_S10000x64 (ix2 k g)
      = x6 (ix2 k (0 : Fin 1)) := by
  rw [shapeCast_self]
  refine broadcastTo_apply _ _ (ix2 k g) (ix2 k (0 : Fin 1)) fun ax => ?_
  match ax with
  | ⟨0, _⟩ => rfl
  | ⟨1, _⟩ => rfl

/-- The one-hot at `(k, g)`: 1 when row `k`'s graph id is the word of `g`, else 0. -/
theorem k2_pay5_apply (x6 : Vec Ideal S10000x1 .i32) (k : Fin 10000) (g : Fin 64) :
    k2_pay5 (F := Ideal) x6 (ix2 k g) = if x6 (ix2 k (0 : Fin 1)) = BitVec.ofNat 32 g.val then 1 else 0 := by
  have hi : iota .tc S10000x64 32 [1] iota_S10000x64_d1_w32 (ix2 k g) = BitVec.ofNat 32 g.val :=
    iota_single_apply .tc S10000x64 32 1 iota_S10000x64_d1_w32 (ix2 k g)
  show FloatOps.sitofp (F := Ideal) .f32
      ((IntOp.cmpi .eq
          (broadcastTo S10000x64 (shapeCast S10000x1 x6 shapeCasts_S10000x1_S10000x1) broadcasts_S10000x1_S10000x64 (ix2 k g))
          (iota .tc S10000x64 32 [1] iota_S10000x64_d1_w32 (ix2 k g))).setWidth 32) = _
  rw [ids_bcast_apply, hi]
  by_cases h : x6 (ix2 k (0 : Fin 1)) = BitVec.ofNat 32 g.val
  · rw [if_pos h, StableHlo.Predicate.cmpi_eq_iff.mpr h, sitofp_one]
  · rw [if_neg h, eq_zero_of_ne_one (fun hc => h (StableHlo.Predicate.cmpi_eq_iff.mp hc)), sitofp_zero]

/-- The 32-bit pattern of the float one is the extended real one. -/
theorem ofBits_one : Ideal.ofBits .f32 0x3F800000#32 = 1 := by
  simp [Ideal.ofBits, Ideal.ieee, -EReal.coe_mul]; norm_num

/-- The splat of ones at any element. -/
theorem k2_pay6_apply (i : S10000x1.Idx) : k2_pay6 (F := Ideal) i = 1 := by
  show Ideal.ofBits .f32 0x3F800000#32 = 1
  exact ofBits_one

/-- The accumulator's reset value at any element. -/
theorem k2_pay3_apply (i : S64x64.Idx) : k2_pay3 (F := Ideal) i = 0 := by
  show shapeCast S64x64 (broadcast S64x64 (Scalar.ofBits (F := Ideal) .f32 0x00000000#32)) shapeCasts_S64x64_S64x64 i = 0
  rw [shapeCast_self]
  exact Ideal.ofBits_zero_f32

/-- The counter's reset value at any element. -/
theorem k2_pay4_apply (i : S64x1.Idx) : k2_pay4 (F := Ideal) i = 0 := by
  show shapeCast S64x1 (broadcast S64x1 (Scalar.ofBits (F := Ideal) .f32 0x00000000#32)) shapeCasts_S64x1_S64x1 i = 0
  rw [shapeCast_self]
  exact Ideal.ofBits_zero_f32

/-! ## The whole-array segment sums read at one element -/

/-- The pooling scatter's dimension numbers: the update's axis 1 a window over the operand's axis 1, the operand's axis 0
    taken by the one index column. -/
abbrev dP := Cert.ReferenceIdeal.scatter_S64x64_S250000x1_S250000x64_1_0_0_1

/-- On the operand's axis 0 an update row starts at the signed value of its row's index word. -/
theorem pooled_start0 (j : S250000x64.Idx) (idx : IVec S250000x1 32) :
    dP.start j idx 0 = (idx (ix2 (j 0) (0 : Fin 1))).toInt := by
  unfold ScatterDims.start
  rw [dif_pos (show (0 : Fin 2) ∈ dP.scatterDimsToOperandDims from List.mem_singleton.mpr rfl)]
  refine congrArg (fun q => (idx q).toInt) ?_
  funext b
  apply Fin.ext
  match b with
  | ⟨0, _⟩ => rfl
  | ⟨1, _⟩ => rfl

/-- On the operand's axis 1 it starts at 0. -/
theorem pooled_start1 (j : S250000x64.Idx) (idx : IVec S250000x1 32) :
    dP.start j idx 1 = 0 := by
  unfold ScatterDims.start
  rw [dif_neg (show ¬ (1 : Fin 2) ∈ dP.scatterDimsToOperandDims from by decide)]

/-- The window has no extent on the operand's axis 0 … -/
theorem pooled_window0 (j : S250000x64.Idx) : dP.window j 0 = 0 := by
  unfold ScatterDims.window
  rw [dif_neg (show ¬ (0 : Fin 2) ∈ dP.sKept from by decide)]

/-- … and on axis 1 its coordinate is the update's column. -/
theorem pooled_window1 (j : S250000x64.Idx) : dP.window j 1 = (j 1).val := by
  unfold ScatterDims.window
  rw [dif_pos (show (1 : Fin 2) ∈ dP.sKept from by decide)]
  rfl

/-- An update lands on operand index `i` exactly when, on every axis, its start plus its window coordinate is
    `i`'s coordinate. -/
theorem resultIdx?_eq_some_iff {s si su : Shape} (d : ScatterDims s si su) {w : ℕ} (u : su.Idx) (idx : IVec si w) (i : s.Idx) :
    d.resultIdx? u idx = some i ↔ ∀ a, d.start u idx a + (d.window u a : ℤ) = ((i a).val : ℤ) := by
  unfold ScatterDims.resultIdx?
  split
  · rename_i h
    constructor
    · intro e a
      have e' := Option.some.inj e
      subst e'
      show d.start u idx a + (d.window u a : ℤ) = (((d.start u idx a + (d.window u a : ℤ)).toNat : ℕ) : ℤ)
      rw [Int.toNat_of_nonneg (h a).1]
    · intro e
      refine congrArg some (funext fun a => Fin.ext ?_)
      show (d.start u idx a + (d.window u a : ℤ)).toNat = (i a).val
      rw [e a, Int.toNat_natCast]
  · rename_i h
    constructor
    · intro e; exact absurd e (by simp)
    · intro e
      exact absurd (fun a => ⟨by rw [e a]; exact Int.natCast_nonneg _, by rw [e a]; exact_mod_cast (i a).isLt⟩) h

/-- An update element lands on \`(g, j)\` exactly when its row's index word has signed value \`g\` and its column is \`j\`. -/
theorem pooled_lands_iff (u : S250000x64.Idx) (idx : IVec S250000x1 32) (g j : Fin 64) :
    dP.resultIdx? u idx = some (ix2 g j) ↔ (idx (ix2 (u 0) (0 : Fin 1))).toInt = (g.val : ℤ) ∧ (u 1).val = j.val := by
  rw [resultIdx?_eq_some_iff, Fin.forall_fin_two, pooled_start0, pooled_start1, pooled_window0, pooled_window1]
  show (idx (ix2 (u 0) (0 : Fin 1))).toInt + ((0 : ℕ) : ℤ) = (g.val : ℤ) ∧ (0 : ℤ) + (((u 1).val : ℕ) : ℤ) = (j.val : ℤ) ↔ _
  rw [Nat.cast_zero, add_zero, zero_add, Nat.cast_inj]

/-- The graph ids as a column: at `(r, 0)` the id of row `r`. -/
theorem batch_col_apply (batch : Cert.Spec.Arr Ideal Cert.ReferenceIdeal.S250000 .i32) (r : Fin 250000) :
    broadcastInDim Cert.ReferenceIdeal.S250000x1 ![0] Cert.ReferenceIdeal.Facts₀.bcast_S250000_S250000x1_0 batch (ix2 r (0 : Fin 1))
      = batch (ix1 r) := by
  refine broadcastInDim_apply _ _ batch (ix2 r (0 : Fin 1)) (ix1 r) fun ax => ?_
  match ax with
  | ⟨0, _⟩ => rfl

/-- The same at an update index given by its coordinates. -/
theorem pooled_lands_ix (r : Fin 250000) (c : Fin 64) (idx : IVec S250000x1 32) (g j : Fin 64) :
    dP.resultIdx? (ix2 r c) idx = some (ix2 g j) ↔ (idx (ix2 r (0 : Fin 1))).toInt = (g.val : ℤ) ∧ c.val = j.val :=
  pooled_lands_iff (ix2 r c) idx g j

/-- The per-graph sums at \`(g, j)\`: column \`j\` of every row whose graph id has signed value \`g\` (an id outside 0 … 63 lands on
    no graph). -/
theorem pooled_apply (h2 : Cert.Spec.Arr Ideal Cert.ReferenceIdeal.S250000x64 .f32)
    (batch : Cert.Spec.Arr Ideal Cert.ReferenceIdeal.S250000 .i32) (g j : Fin 64) :
    Cert.Spec.pooled h2 batch (ix2 g j)
      = ∑ r : Fin 250000, if (batch (ix1 r)).toInt = (g.val : ℤ) then h2 (ix2 r j) else 0 := by
  show Ideal.ofBits .f32 0x00000000#32
      + ∑ u ∈ Finset.univ.filter (fun u : S250000x64.Idx => dP.resultIdx? u
          (broadcastInDim Cert.ReferenceIdeal.S250000x1 ![0] Cert.ReferenceIdeal.Facts₀.bcast_S250000_S250000x1_0 batch) = some (ix2 g j)), h2 u = _
  rw [Ideal.ofBits_zero_f32, zero_add, Finset.sum_filter, sum_idx2]
  refine Finset.sum_congr rfl fun r _ => ?_
  have hl : ∀ c : Fin 64, (dP.resultIdx? (ix2 r c)
      (broadcastInDim Cert.ReferenceIdeal.S250000x1 ![0] Cert.ReferenceIdeal.Facts₀.bcast_S250000_S250000x1_0 batch) = some (ix2 g j))
      ↔ ((batch (ix1 r)).toInt = (g.val : ℤ) ∧ c = j) := fun c => by
    rw [pooled_lands_ix, batch_col_apply]
    exact and_congr_right fun _ => Fin.val_inj
  by_cases hg : (batch (ix1 r)).toInt = (g.val : ℤ)
  · rw [Finset.sum_eq_single j, if_pos ((hl j).mpr ⟨hg, rfl⟩), if_pos hg]
    · intro c _ hc; exact if_neg (fun h => hc ((hl c).mp h).2)
    · intro h; exact absurd (Finset.mem_univ j) h
  · rw [if_neg hg]; exact Finset.sum_eq_zero fun c _ => if_neg (fun h => hg ((hl c).mp h).1)

/-- A sum over the indices of a rank-1 shape is the sum over its coordinate. -/
theorem sum_idx1 {M : Type*} [AddCommMonoid M] {n : ℕ} (f : (⟨1, ![n]⟩ : Shape).Idx → M) :
    ∑ i, f i = ∑ a : Fin n, f (ix1 a) := by
  let e : (⟨1, ![n]⟩ : Shape).Idx ≃ Fin n := ⟨fun i => i 0, ix1, fun i => (eq_ix1 i).symm, fun _ => rfl⟩
  rw [← Equiv.sum_comp e.symm f]
  rfl

/-- The counting scatter's dimension numbers: no window axis, the one operand axis taken by the index. -/
abbrev dC := Cert.ReferenceIdeal.scatter_S64_S250000x1_S250000_n_0_0_1

/-- An update starts at the signed value of its index word. -/
theorem counts_start0 (u : S250000.Idx) (idx : IVec S250000x1 32) :
    dC.start u idx 0 = (idx (ix2 (u 0) (0 : Fin 1))).toInt := by
  unfold ScatterDims.start
  rw [dif_pos (show (0 : Fin 1) ∈ dC.scatterDimsToOperandDims from List.mem_singleton.mpr rfl)]
  refine congrArg (fun q => (idx q).toInt) ?_
  funext b
  apply Fin.ext
  match b with
  | ⟨0, _⟩ => rfl
  | ⟨1, _⟩ => rfl

/-- There is no window. -/
theorem counts_window0 (u : S250000.Idx) : dC.window u 0 = 0 := by
  unfold ScatterDims.window
  rw [dif_neg (show ¬ (0 : Fin 1) ∈ dC.sKept from by decide)]

/-- Update \`r\` lands on \`g\` exactly when its index word has signed value \`g\`. -/
theorem counts_lands_iff (r : Fin 250000) (idx : IVec S250000x1 32) (g : Fin 64) :
    dC.resultIdx? (ix1 r) idx = some (ix1 g) ↔ (idx (ix2 r (0 : Fin 1))).toInt = (g.val : ℤ) := by
  rw [resultIdx?_eq_some_iff, Fin.forall_fin_one, counts_start0, counts_window0]
  show (idx (ix2 r (0 : Fin 1))).toInt + ((0 : ℕ) : ℤ) = (g.val : ℤ) ↔ _
  rw [Nat.cast_zero, add_zero]

/-- The per-graph row counts at `g`: one for every row whose graph id has signed value `g`. -/
theorem counts_apply (batch : Cert.Spec.Arr Ideal Cert.ReferenceIdeal.S250000 .i32) (g : Fin 64) :
    Cert.Spec.counts batch (ix1 g)
      = ∑ r : Fin 250000, if (batch (ix1 r)).toInt = (g.val : ℤ) then (1 : EReal) else 0 := by
  show Ideal.ofBits .f32 0x00000000#32
      + ∑ u ∈ Finset.univ.filter (fun u : S250000.Idx => dC.resultIdx? u
          (broadcastInDim Cert.ReferenceIdeal.S250000x1 ![0] Cert.ReferenceIdeal.Facts₀.bcast_S250000_S250000x1_0 batch) = some (ix1 g)),
          Ideal.ofBits .f32 0x3F800000#32 = _
  rw [Ideal.ofBits_zero_f32, zero_add, Finset.sum_filter, sum_idx1, ofBits_one]
  refine Finset.sum_congr rfl fun r _ => ?_
  have hl : dC.resultIdx? (ix1 r)
      (broadcastInDim Cert.ReferenceIdeal.S250000x1 ![0] Cert.ReferenceIdeal.Facts₀.bcast_S250000_S250000x1_0 batch) = some (ix1 g)
      ↔ (batch (ix1 r)).toInt = (g.val : ℤ) := by
    rw [counts_lands_iff, batch_col_apply]
  exact if_congr hl rfl rfl

/-! ## The tile-by-tile pooling against the whole-array segment sums -/

/-- A one-hot factor keeps its term or drops it: `1 · x = x` and `0 · x = 0` for every extended real. -/
theorem ite_one_zero_mul (p : Prop) [Decidable p] (x : EReal) : (if p then (1 : EReal) else 0) * x = if p then x else 0 := by
  split
  · exact one_mul x
  · exact zero_mul x

/-- A 32-bit id is the word of `g < 64` exactly when its signed value is `g`. -/
theorem id_word_iff (t : BitVec 32) (g : Fin 64) : t = BitVec.ofNat 32 g.val ↔ t.toInt = (g.val : ℤ) :=
  eq_comm.trans (Cert.PackedSums.ofNat_eq_iff_toInt g.val g.isLt t)

/-- One pooling step at `(g, j)`: the accumulator plus the rows of the tile whose graph id is `g`. -/
theorem poolStep_apply (ids : Vec Ideal S10000x1 .i32) (tile : FVec Ideal S10000x64 .f32) (a : Vec Ideal S64x64 .f32) (g j : Fin 64) :
    shapeCast S64x64 (addf a (matmul dot_S10000x64_S10000x64_S64x64_0_0_1_1_n_n (some .fp32) (k2_pay5 ids) tile
        (constant S64x64 .f32 0x00000000#32))) shapeCasts_S64x64_S64x64 (ix2 g j)
      = a (ix2 g j) + ∑ k : Fin 10000, if (ids (ix2 k (0 : Fin 1))).toInt = (g.val : ℤ) then tile (ix2 k j) else 0 := by
  rw [shapeCast_self, addf_apply, pool_matmul_apply]
  refine congrArg (a (ix2 g j) + ·) (Finset.sum_congr rfl fun k _ => ?_)
  rw [k2_pay5_apply, ite_one_zero_mul]
  exact if_congr (id_word_iff _ g) rfl rfl

/-- One counting step at `(g, 0)`: the counter plus the number of rows of the tile whose graph id is `g`. -/
theorem countStep_apply (ids : Vec Ideal S10000x1 .i32) (c : Vec Ideal S64x1 .f32) (g : Fin 64) :
    k2_pay1 (k2_pay5 ids) (k2_pay6 (F := Ideal)) c (ix2 g (0 : Fin 1))
      = c (ix2 g (0 : Fin 1)) + ∑ k : Fin 10000, if (ids (ix2 k (0 : Fin 1))).toInt = (g.val : ℤ) then (1 : EReal) else 0 := by
  show shapeCast S64x1 (addf c (matmul dot_S10000x64_S10000x1_S64x1_0_0_1_1_n_n (some .fp32) (k2_pay5 ids) (k2_pay6 (F := Ideal))
      (constant S64x1 .f32 0x00000000#32))) shapeCasts_S64x1_S64x1 (ix2 g (0 : Fin 1)) = _
  rw [shapeCast_self, addf_apply, count_matmul_apply]
  refine congrArg (c (ix2 g (0 : Fin 1)) + ·) (Finset.sum_congr rfl fun k _ => ?_)
  rw [k2_pay5_apply, k2_pay6_apply, mul_one]
  exact if_congr (id_word_iff _ g) rfl rfl

/-- THE ACCUMULATOR AFTER THE LAST TILE IS THE SEGMENT SUM: started from the zero splat and stepped once per tile, the tiles
    being the consecutive blocks of 10000 rows of `h2` and of the graph ids `batch`. -/
theorem pooled_of_steps (h2 : Cert.Spec.Arr Ideal S250000x64 .f32) (batch : Cert.Spec.Arr Ideal S250000 .i32)
    (tile : (n : ℕ) → n < 25 → FVec Ideal S10000x64 .f32) (ids : (n : ℕ) → n < 25 → Vec Ideal S10000x1 .i32) (acc : (n : ℕ) → n < 25 → Vec Ideal S64x64 .f32)
    (htile : ∀ n hn (k : Fin 10000) (j : Fin 64), tile n hn (ix2 k j) = h2 (ix2 (tileRowN n hn k) j))
    (hids : ∀ n hn (k : Fin 10000), ids n hn (ix2 k (0 : Fin 1)) = batch (ix1 (tileRowN n hn k)))
    (h0 : ∀ h0 : 0 < 25, acc 0 h0 = shapeCast S64x64 (addf (k2_pay3 (F := Ideal)) (matmul dot_S10000x64_S10000x64_S64x64_0_0_1_1_n_n (some .fp32) (k2_pay5 (ids 0 h0)) (tile 0 h0) (constant S64x64 .f32 0x00000000#32))) shapeCasts_S64x64_S64x64)
    (hs : ∀ n (hn : n + 1 < 25), acc (n + 1) hn = shapeCast S64x64 (addf (acc n (Nat.lt_of_succ_lt hn)) (matmul dot_S10000x64_S10000x64_S64x64_0_0_1_1_n_n (some .fp32) (k2_pay5 (ids (n + 1) hn)) (tile (n + 1) hn) (constant S64x64 .f32 0x00000000#32))) shapeCasts_S64x64_S64x64)
    (g j : Fin 64) : acc 24 (by omega) (ix2 g j) = Cert.Spec.pooled h2 batch (ix2 g j) := by
  let f : Fin 250000 → EReal := fun r => if (batch (ix1 r)).toInt = (g.val : ℤ) then h2 (ix2 r j) else 0
  let s : ℕ → EReal := fun n => if hn : n < 25 then ∑ k : Fin 10000, f (tileRowN n hn k) else 0
  have hstep : ∀ n (hn : n < 25) (a : Vec Ideal S64x64 .f32),
      shapeCast S64x64 (addf a (matmul dot_S10000x64_S10000x64_S64x64_0_0_1_1_n_n (some .fp32) (k2_pay5 (ids n hn)) (tile n hn)
        (constant S64x64 .f32 0x00000000#32))) shapeCasts_S64x64_S64x64 (ix2 g j) = a (ix2 g j) + s n := by
    intro n hn a
    rw [poolStep_apply]
    show _ = a (ix2 g j) + (if hn : n < 25 then ∑ k : Fin 10000, f (tileRowN n hn k) else 0)
    rw [dif_pos hn]
    refine congrArg (a (ix2 g j) + ·) (Finset.sum_congr rfl fun k _ => ?_)
    rw [hids n hn k, htile n hn k j]
  have key := fold_sum_last (fun n hn => acc n hn (ix2 g j)) s
    (fun h => by
      show acc 0 h (ix2 g j) = 0 + s 0
      rw [h0 h, hstep 0 h, k2_pay3_apply])
    (fun n hn => by
      show acc (n + 1) hn (ix2 g j) = acc n (Nat.lt_of_succ_lt hn) (ix2 g j) + s (n + 1)
      rw [hs n hn, hstep (n + 1) hn])
    (by omega)
  rw [pooled_apply]
  refine key.trans ?_
  rw [← sum_tiles f]
  exact Finset.sum_congr rfl fun t _ => dif_pos t.isLt

/-- THE COUNTER AFTER THE LAST TILE IS THE SEGMENT COUNT, likewise. -/
theorem counts_of_steps (batch : Cert.Spec.Arr Ideal S250000 .i32) (ids : (n : ℕ) → n < 25 → Vec Ideal S10000x1 .i32) (cnt : (n : ℕ) → n < 25 → Vec Ideal S64x1 .f32)
    (hids : ∀ n hn (k : Fin 10000), ids n hn (ix2 k (0 : Fin 1)) = batch (ix1 (tileRowN n hn k)))
    (h0 : ∀ h0 : 0 < 25, cnt 0 h0 = k2_pay1 (k2_pay5 (ids 0 h0)) (k2_pay6 (F := Ideal)) (k2_pay4 (F := Ideal)))
    (hs : ∀ n (hn : n + 1 < 25), cnt (n + 1) hn = k2_pay1 (k2_pay5 (ids (n + 1) hn)) (k2_pay6 (F := Ideal)) (cnt n (Nat.lt_of_succ_lt hn)))
    (g : Fin 64) : cnt 24 (by omega) (ix2 g (0 : Fin 1)) = Cert.Spec.counts batch (ix1 g) := by
  let f : Fin 250000 → EReal := fun r => if (batch (ix1 r)).toInt = (g.val : ℤ) then (1 : EReal) else 0
  let s : ℕ → EReal := fun n => if hn : n < 25 then ∑ k : Fin 10000, f (tileRowN n hn k) else 0
  have hstep : ∀ n (hn : n < 25) (c : Vec Ideal S64x1 .f32),
      k2_pay1 (k2_pay5 (ids n hn)) (k2_pay6 (F := Ideal)) c (ix2 g (0 : Fin 1)) = c (ix2 g (0 : Fin 1)) + s n := by
    intro n hn c
    rw [countStep_apply]
    show _ = c (ix2 g (0 : Fin 1)) + (if hn : n < 25 then ∑ k : Fin 10000, f (tileRowN n hn k) else 0)
    rw [dif_pos hn]
    refine congrArg (c (ix2 g (0 : Fin 1)) + ·) (Finset.sum_congr rfl fun k _ => ?_)
    rw [hids n hn k]
  have key := fold_sum_last (fun n hn => cnt n hn (ix2 g (0 : Fin 1))) s
    (fun h => by
      show cnt 0 h (ix2 g (0 : Fin 1)) = 0 + s 0
      rw [h0 h, hstep 0 h, k2_pay4_apply])
    (fun n hn => by
      show cnt (n + 1) hn (ix2 g (0 : Fin 1)) = cnt n (Nat.lt_of_succ_lt hn) (ix2 g (0 : Fin 1)) + s (n + 1)
      rw [hs n hn, hstep (n + 1) hn])
    (by omega)
  rw [counts_apply]
  refine key.trans ?_
  rw [← sum_tiles f]
  exact Finset.sum_congr rfl fun t _ => dif_pos t.isLt

end Cert.KernelIdeal.Val

end
-- ==== Proof.Value.Final2.lean ====
/-
  What the pooling region leaves in its result array.

  The region's result window is written back once, at the last of the 25 points, and its block is the whole 64 × 1 array:
  the array ends at the head of the two sums the scratch buffers hold after that point. Each point's blocks are rows
  10000·t … 10000·t + 9999 of the messages, the inverse degrees, the hidden state and the graph ids, and the whole of the
  two weight matrices, the bias row, the head's weights and the head's bias; so the tile a point forms is those rows of the
  last layer computed on the whole arrays, the accumulator ends at the per-graph sums of that layer's rows and the counter
  at the per-graph row counts. The head, read at a row, is the row of sums over max(count, 1) against the head's weights plus
  the head's bias, on the kernel's side and on the model's.
-/
import proofs.«429062_j38955353375020_2_alg».proof.Proof.KernelIdeal.Region2Data
import proofs.«429062_j38955353375020_2_alg».proof.Proof.Value.Tile
import proofs.«429062_j38955353375020_2_alg».proof.Proof.Value.Spec
import proofs.«429062_j38955353375020_2_alg».proof.Proof.Value.TileAt
import proofs.«429062_j38955353375020_2_alg».proof.Proof.Value.PoolLaws
import proofs.«429062_j38955353375020_2_alg».proof.Proof.LibPlainMatmul
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem
open Idealize.ShloMosaic.Pipeline (Dat)
open Idealize.ShloMosaic.ValueIdx
open scoped BigOperators

namespace Result2

/-! ## The grid's points -/

/-- A point's number below 25 as a point of the grid. -/
theorem lt25 {n : ℕ} (hn : n < 25) : n < cfg2.N := lt_of_lt_of_eq hn N_2.symm

theorem h24 : 24 < cfg2.N := lt25 (by decide)

/-- The last point of the grid. -/
abbrev tL : Fin cfg2.N := ⟨24, h24⟩

/-- The result's window is written back at the last point only. -/
theorem flush_last (t : Fin cfg2.N) (hf : (cfg2.win 9).flush t = true) : t = tL := by
  have h := (flush2_9 t).mp hf
  have hl : t.val < 25 := lt_of_lt_of_eq t.isLt N_2
  exact Fin.ext (by show t.val = 24; omega)

theorem tile_row_lt (t : Fin cfg2.N) (k : Fin 10000) : 10000 * t.val + k.val < 250000 := by
  have := lt_of_lt_of_eq t.isLt N_2
  have := k.isLt
  omega

/-! ## The blocks the body reads, as rows of the arrays -/

section Blocks
variable {F : FTy → Type} [FloatOps F]
variable (V : (c : Dev nD) → (b : Ref sig .tc) → Buf (Elt F) ((c : Thread nD τ).loc b))

/-- Where each window's block sits at each point: the four row windows at block row t, column 0; the others at block (0, 0). -/
theorem idx_facts : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_6.index t (0 : Fin 2) = t.val ∧ win2_6.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_7.index t (0 : Fin 2) = 0 ∧ win2_7.index t (1 : Fin 2) = 0)
    ∧ (win2_8.index t (0 : Fin 2) = 0 ∧ win2_8.index t (1 : Fin 2) = 0) :=
  (by decide +kernel : ∀ t : Fin grid2.N, _)

/-- Row k of the messages' block at point t is row 10000 t + k of the messages. -/
theorem blk0_apply (c : Dev nD) (t : Fin cfg2.N) (k : Fin 10000) (j : Fin 64) :
    (iblk2 V c 0 t : Vec F S10000x64 .f32) (ix2 k j)
      = (V c main_v49 : S250000x64.Idx → Elt F .f32) (ix2 ⟨10000 * t.val + k.val, tile_row_lt t k⟩ j) := by
  obtain ⟨⟨h0, h1⟩, -⟩ := idx_facts t
  unfold iblk2
  rw [View.read_apply]
  show V c main_v49 _ = V c main_v49 _
  congr 1
  funext a
  apply Fin.ext
  match a with
  | ⟨0, _⟩ => show win2_0.index t 0 * 10000 + 1 * k.val = 10000 * t.val + k.val; rw [h0]; omega
  | ⟨1, _⟩ => show win2_0.index t 1 * 64 + 1 * j.val = j.val; rw [h1]; omega

/-- Row k of the inverse degrees' block at point t is entry 10000 t + k of the column. -/
theorem blk1_apply (c : Dev nD) (t : Fin cfg2.N) (k : Fin 10000) (u : Fin 1) :
    (iblk2 V c 1 t : Vec F S10000x1 .f32) (ix2 k u)
      = (V c main_v15 : S250000x1.Idx → Elt F .f32) (ix2 ⟨10000 * t.val + k.val, tile_row_lt t k⟩ u) := by
  obtain ⟨-, ⟨h0, h1⟩, -⟩ := idx_facts t
  unfold iblk2
  rw [View.read_apply]
  show V c main_v15 _ = V c main_v15 _
  congr 1
  funext a
  apply Fin.ext
  match a with
  | ⟨0, _⟩ => show win2_1.index t 0 * 10000 + 1 * k.val = 10000 * t.val + k.val; rw [h0]; omega
  | ⟨1, _⟩ => show win2_1.index t 1 * 1 + 1 * u.val = u.val; rw [h1]; omega

/-- Row k of the hidden state's block at point t is row 10000 t + k of the hidden state. -/
theorem blk2_apply (c : Dev nD) (t : Fin cfg2.N) (k : Fin 10000) (j : Fin 64) :
    (iblk2 V c 2 t : Vec F S10000x64 .f32) (ix2 k j)
      = (V c main_v39 : S250000x64.Idx → Elt F .f32) (ix2 ⟨10000 * t.val + k.val, tile_row_lt t k⟩ j) := by
  obtain ⟨-, -, ⟨h0, h1⟩, -⟩ := idx_facts t
  unfold iblk2
  rw [View.read_apply]
  show V c main_v39 _ = V c main_v39 _
  congr 1
  funext a
  apply Fin.ext
  match a with
  | ⟨0, _⟩ => show win2_2.index t 0 * 10000 + 1 * k.val = 10000 * t.val + k.val; rw [h0]; omega
  | ⟨1, _⟩ => show win2_2.index t 1 * 64 + 1 * j.val = j.val; rw [h1]; omega

/-- Row k of the graph ids' block at point t is entry 10000 t + k of the column. -/
theorem blk6_apply (c : Dev nD) (t : Fin cfg2.N) (k : Fin 10000) (u : Fin 1) :
    (iblk2 V c 6 t : Vec F S10000x1 .i32) (ix2 k u)
      = (V c main_v50 : S250000x1.Idx → Elt F .i32) (ix2 ⟨10000 * t.val + k.val, tile_row_lt t k⟩ u) := by
  obtain ⟨-, -, -, ⟨h0, h1⟩, -⟩ := idx_facts t
  unfold iblk2
  rw [View.read_apply]
  show V c main_v50 _ = V c main_v50 _
  congr 1
  funext a
  apply Fin.ext
  match a with
  | ⟨0, _⟩ => show win2_6.index t 0 * 10000 + 1 * k.val = 10000 * t.val + k.val; rw [h0]; omega
  | ⟨1, _⟩ => show win2_6.index t 1 * 1 + 1 * u.val = u.val; rw [h1]; omega

/-- The left weights' block is the whole matrix at every point. -/
theorem blk3_eq (c : Dev nD) (t : Fin cfg2.N) : iblk2 V c 3 t = V c main_arg9 := by
  obtain ⟨-, -, -, -, ⟨h0, h1⟩, -⟩ := idx_facts t
  have hz' : (fun a => win2_3.index t a * main_arg9.ty.shape.size a) = fun _ => 0 := funext fun a => by
    match a with
    | ⟨0, _⟩ => show win2_3.index t 0 * 64 = 0; rw [h0]
    | ⟨1, _⟩ => show win2_3.index t 1 * 64 = 0; rw [h1]
  exact Memref.read_access_unit_zero (Elt F) main_arg9 hz' (fun a => by rw [congrFun hz' a]; simp) (V c main_arg9)

/-- The bias row's block is the whole row at every point. -/
theorem blk4_eq (c : Dev nD) (t : Fin cfg2.N) : iblk2 V c 4 t = V c main_v51 := by
  obtain ⟨-, -, -, -, -, ⟨h0, h1⟩, -⟩ := idx_facts t
  have hz' : (fun a => win2_4.index t a * main_v51.ty.shape.size a) = fun _ => 0 := funext fun a => by
    match a with
    | ⟨0, _⟩ => show win2_4.index t 0 * 1 = 0; rw [h0]
    | ⟨1, _⟩ => show win2_4.index t 1 * 64 = 0; rw [h1]
  exact Memref.read_access_unit_zero (Elt F) main_v51 hz' (fun a => by rw [congrFun hz' a]; simp) (V c main_v51)

/-- The right weights' block is the whole matrix at every point. -/
theorem blk5_eq (c : Dev nD) (t : Fin cfg2.N) : iblk2 V c 5 t = V c main_arg11 := by
  obtain ⟨-, -, -, -, -, -, ⟨h0, h1⟩, -⟩ := idx_facts t
  have hz' : (fun a => win2_5.index t a * main_arg11.ty.shape.size a) = fun _ => 0 := funext fun a => by
    match a with
    | ⟨0, _⟩ => show win2_5.index t 0 * 64 = 0; rw [h0]
    | ⟨1, _⟩ => show win2_5.index t 1 * 64 = 0; rw [h1]
  exact Memref.read_access_unit_zero (Elt F) main_arg11 hz' (fun a => by rw [congrFun hz' a]; simp) (V c main_arg11)

/-- The head's weights' block is the whole column at every point. -/
theorem blk7_eq (c : Dev nD) (t : Fin cfg2.N) : iblk2 V c 7 t = V c main_arg12 := by
  obtain ⟨-, -, -, -, -, -, -, ⟨h0, h1⟩, -⟩ := idx_facts t
  have hz' : (fun a => win2_7.index t a * main_arg12.ty.shape.size a) = fun _ => 0 := funext fun a => by
    match a with
    | ⟨0, _⟩ => show win2_7.index t 0 * 64 = 0; rw [h0]
    | ⟨1, _⟩ => show win2_7.index t 1 * 1 = 0; rw [h1]
  exact Memref.read_access_unit_zero (Elt F) main_arg12 hz' (fun a => by rw [congrFun hz' a]; simp) (V c main_arg12)

/-- The head's bias' block is the whole one-entry array at every point. -/
theorem blk8_eq (c : Dev nD) (t : Fin cfg2.N) : iblk2 V c 8 t = V c main_v52 := by
  obtain ⟨-, -, -, -, -, -, -, -, ⟨h0, h1⟩⟩ := idx_facts t
  have hz' : (fun a => win2_8.index t a * main_v52.ty.shape.size a) = fun _ => 0 := funext fun a => by
    match a with
    | ⟨0, _⟩ => show win2_8.index t 0 * 1 = 0; rw [h0]
    | ⟨1, _⟩ => show win2_8.index t 1 * 1 = 0; rw [h1]
  exact Memref.read_access_unit_zero (Elt F) main_v52 hz' (fun a => by rw [congrFun hz' a]; simp) (V c main_v52)

end Blocks

/-! ## A vector made a column -/

/-- An `[a]` array cast to `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## The blocks under the host's reshapes -/

section Reshaped
variable {F : FTy → Type} [FloatOps F]
variable (V : (c : Dev nD) → (b : Ref sig .tc) → Buf (Elt F) ((c : Thread nD τ).loc b))

/-- The inverse degrees' block, when the column is a vector reshaped: entry 10000 t + k of the vector. -/
theorem dinv_row (c : Dev nD) (dinv : Cert.Spec.Arr F S250000 .f32)
    (hd : V c main_v15 = fun i => shapeCast S250000x1 dinv shapeCasts_S250000_S250000x1 i)
    (t : Fin cfg2.N) (k : Fin 10000) :
    (iblk2 V c 1 t : Vec F S10000x1 .f32) (ix2 k (0 : Fin 1)) = dinv (ix1 ⟨10000 * t.val + k.val, tile_row_lt t k⟩) := by
  rw [blk1_apply, hd]
  exact shapeCast_a_a1_apply dinv _ _ _

/-- The graph ids' block, when the column is a vector reshaped: entry 10000 t + k of the vector. -/
theorem ids_row (c : Dev nD) (batch : Cert.Spec.Arr F S250000 .i32)
    (hbatch : V c main_v50 = fun i => shapeCast S250000x1 batch shapeCasts_S250000_S250000x1 i)
    (t : Fin cfg2.N) (k : Fin 10000) :
    (iblk2 V c 6 t : Vec F S10000x1 .i32) (ix2 k (0 : Fin 1)) = batch (ix1 ⟨10000 * t.val + k.val, tile_row_lt t k⟩) := by
  rw [blk6_apply, hbatch]
  exact shapeCast_a_a1_apply batch _ _ _

/-- The bias row's block, when the row is a vector reshaped: the vector's entry at the column. -/
theorem bias_row (c : Dev nD) (bl : Cert.Spec.Arr F S64 .f32)
    (hb : V c main_v51 = fun i => shapeCast S1x64 bl shapeCasts_S64_S1x64 i)
    (t : Fin cfg2.N) (j : Fin 64) :
    (iblk2 V c 4 t : Vec F S1x64 .f32) (ix2 (0 : Fin 1) j) = bl (ix1 j) := by
  rw [blk4_eq, hb]
  exact shapeCast_a_1a_apply bl _ _ _

/-- The head's bias' block, when the one-entry array is a one-entry vector reshaped: that entry. -/
theorem bh_at (c : Dev nD) (bh : Cert.Spec.Arr F S1 .f32)
    (hbh : V c main_v52 = fun i => shapeCast S1x1 bh shapeCasts_S1_S1x1 i)
    (t : Fin cfg2.N) :
    (iblk2 V c 8 t : Vec F S1x1 .f32) (ix2 (0 : Fin 1) (0 : Fin 1)) = bh (ix1 (0 : Fin 1)) := by
  rw [blk8_eq, hbh]
  exact shapeCast_a_1a_apply bh _ _ _

end Reshaped

/-! ## The tiles and the two sums -/

section Sums
variable (V : (c : Dev nD) → (b : Ref sig .tc) → Buf (Elt Ideal) ((c : Thread nD τ).loc b))

/-- The last layer's tile at point n, from the six blocks the body loads there. -/
def tileAt (c : Dev nD) (n : ℕ) (hn : n < 25) : FVec Ideal S10000x64 .f32 :=
  tilePre64 (iblk2 V c 0 ⟨n, lt25 hn⟩) (iblk2 V c 1 ⟨n, lt25 hn⟩) (iblk2 V c 2 ⟨n, lt25 hn⟩) (iblk2 V c 3 ⟨n, lt25 hn⟩)
    (iblk2 V c 4 ⟨n, lt25 hn⟩) (iblk2 V c 5 ⟨n, lt25 hn⟩)

/-- The graph ids of the tile at point n. -/
def idsAt (c : Dev nD) (n : ℕ) (hn : n < 25) : Vec Ideal S10000x1 .i32 := iblk2 V c 6 ⟨n, lt25 hn⟩

/-- The tile at point n holds rows 10000 n … 10000 n + 9999 of the last layer computed on the whole arrays. -/
theorem tileAt_apply (c : Dev nD) (dinv : Cert.Spec.Arr Ideal S250000 .f32) (bl : Cert.Spec.Arr Ideal S64 .f32)
    (hd : V c main_v15 = fun i => shapeCast S250000x1 dinv shapeCasts_S250000_S250000x1 i)
    (hb : V c main_v51 = fun i => shapeCast S1x64 bl shapeCasts_S64_S1x64 i)
    (n : ℕ) (hn : n < 25) (k : Fin 10000) (j : Fin 64) :
    tileAt V c n hn (ix2 k j)
      = Cert.Spec.layerPre64 (V c main_v49) dinv (V c main_v39) (V c main_arg9) bl (V c main_arg11) (ix2 (tileRowN n hn k) j) := by
  unfold tileAt
  rw [blk3_eq, blk5_eq]
  exact tilePre64_apply (V c main_v49) dinv (V c main_v39) (V c main_arg9) bl (V c main_arg11) _ _ _ _ ⟨n, hn⟩
    (fun k q => blk0_apply V c ⟨n, lt25 hn⟩ k q) (fun k => dinv_row V c dinv hd ⟨n, lt25 hn⟩ k)
    (fun k q => blk2_apply V c ⟨n, lt25 hn⟩ k q) (fun j => bias_row V c bl hb ⟨n, lt25 hn⟩ j) k j

/-- The ids of the tile at point n are entries 10000 n … 10000 n + 9999 of the graph ids. -/
theorem idsAt_apply (c : Dev nD) (batch : Cert.Spec.Arr Ideal S250000 .i32)
    (hbatch : V c main_v50 = fun i => shapeCast S250000x1 batch shapeCasts_S250000_S250000x1 i)
    (n : ℕ) (hn : n < 25) (k : Fin 10000) :
    idsAt V c n hn (ix2 k (0 : Fin 1)) = batch (ix1 (tileRowN n hn k)) :=
  ids_row V c batch hbatch ⟨n, lt25 hn⟩ k

/-- The accumulator after the first point: the first tile pooled, added to zero. -/
theorem acc_zero (c : Dev nD) (h0 : 0 < 25) :
    (sumsAt2 V c 0 (lt25 h0)).1
      = shapeCast S64x64 (addf (k2_pay3 (F := Ideal)) (matmul dot_S10000x64_S10000x64_S64x64_0_0_1_1_n_n (some .fp32) (k2_pay5 (idsAt V c 0 h0))
          (tileAt V c 0 h0) (constant S64x64 .f32 0x00000000#32))) shapeCasts_S64x64_S64x64 := by
  rw [sumsAt2_zero]
  exact k2_pay7_eq _ _ _ _ _ _ _ _

/-- The accumulator after a later point: that point's tile pooled, added to what the point before left. -/
theorem acc_succ (c : Dev nD) (n : ℕ) (hn : n + 1 < 25) :
    (sumsAt2 V c (n + 1) (lt25 hn)).1
      = shapeCast S64x64 (addf (sumsAt2 V c n (lt25 (Nat.lt_of_succ_lt hn))).1 (matmul dot_S10000x64_S10000x64_S64x64_0_0_1_1_n_n (some .fp32)
          (k2_pay5 (idsAt V c (n + 1) hn)) (tileAt V c (n + 1) hn) (constant S64x64 .f32 0x00000000#32))) shapeCasts_S64x64_S64x64 := by
  rw [sumsAt2_succ]
  exact k2_pay7_eq _ _ _ _ _ _ _ _

/-- The counter after the first point. -/
theorem cnt_zero (c : Dev nD) (h0 : 0 < 25) :
    (sumsAt2 V c 0 (lt25 h0)).2 = k2_pay1 (k2_pay5 (idsAt V c 0 h0)) (k2_pay6 (F := Ideal)) (k2_pay4 (F := Ideal)) := by
  rw [sumsAt2_zero]
  rfl

/-- The counter after a later point. -/
theorem cnt_succ (c : Dev nD) (n : ℕ) (hn : n + 1 < 25) :
    (sumsAt2 V c (n + 1) (lt25 hn)).2
      = k2_pay1 (k2_pay5 (idsAt V c (n + 1) hn)) (k2_pay6 (F := Ideal)) (sumsAt2 V c n (lt25 (Nat.lt_of_succ_lt hn))).2 := by
  rw [sumsAt2_succ]
  rfl

/-- After the last point the accumulator holds the per-graph sums of the last layer's rows. -/
theorem acc_last (c : Dev nD) (dinv : Cert.Spec.Arr Ideal S250000 .f32) (bl : Cert.Spec.Arr Ideal S64 .f32) (batch : Cert.Spec.Arr Ideal S250000 .i32)
    (hd : V c main_v15 = fun i => shapeCast S250000x1 dinv shapeCasts_S250000_S250000x1 i)
    (hb : V c main_v51 = fun i => shapeCast S1x64 bl shapeCasts_S64_S1x64 i)
    (hbatch : V c main_v50 = fun i => shapeCast S250000x1 batch shapeCasts_S250000_S250000x1 i) (g j : Fin 64) :
    (sumsAt2 V c 24 h24).1 (ix2 g j)
      = Cert.Spec.pooled (Cert.Spec.layerPre64 (V c main_v49) dinv (V c main_v39) (V c main_arg9) bl (V c main_arg11)) batch (ix2 g j) :=
  pooled_of_steps _ batch (tileAt V c) (idsAt V c) (fun n hn => (sumsAt2 V c n (lt25 hn)).1)
    (tileAt_apply V c dinv bl hd hb) (idsAt_apply V c batch hbatch) (acc_zero V c) (acc_succ V c) g j

/-- After the last point the counter holds the number of rows of each graph. -/
theorem cnt_last (c : Dev nD) (batch : Cert.Spec.Arr Ideal S250000 .i32)
    (hbatch : V c main_v50 = fun i => shapeCast S250000x1 batch shapeCasts_S250000_S250000x1 i) (g : Fin 64) :
    (sumsAt2 V c 24 h24).2 (ix2 g (0 : Fin 1)) = Cert.Spec.counts batch (ix1 g) :=
  counts_of_steps batch (idsAt V c) (fun n hn => (sumsAt2 V c n (lt25 hn)).2)
    (idsAt_apply V c batch hbatch) (cnt_zero V c) (cnt_succ V c) g

end Sums

/-! ## The head -/

section Head

/-- The host's quotient of two arrays, read at an index. -/
theorem hostDivf_apply {s : Shape} {φ : FTy} (a b : FVec Ideal s φ) (i : s.Idx) : Host.divf a b i = Ideal.div (a i) (b i) := rfl

/-- The head at row g: the accumulator's row over max(count, 1), against the head's weights, plus its bias. -/
theorem head2_apply (a : Vec Ideal S64x64 .f32) (n : Vec Ideal S64x1 .f32) (x7 : Vec Ideal S64x1 .f32) (x8 : Vec Ideal S1x1 .f32) (g : Fin 64) :
    head2 a n x7 x8 (ix2 g (0 : Fin 1))
      = (∑ j : Fin 64, Ideal.div (a (ix2 g j)) (max (n (ix2 g (0 : Fin 1))) (Ideal.ofBits .f32 0x3F800000#32)) * x7 (ix2 j (0 : Fin 1)))
        + x8 (ix2 (0 : Fin 1) (0 : Fin 1)) := by
  unfold head2 k2_pay2
  rw [addf_apply]
  refine congrArg₂ (· + ·) ?_ ?_
  · refine (Cert.Lib.PlainMatmul.matmul_zero_apply dot_S64x64_S64x1_S64x1_1_0_0_1_n_n rfl rfl rfl rfl rfl rfl _ _ _ g 0).trans ?_
    refine Finset.sum_congr rfl fun j _ => ?_
    rw [divf_apply, broadcastTo_apply _ broadcasts_S64x1_S64x64 (ix2 g j) (ix2 g (0 : Fin 1)) (fun ax => by
      match ax with
      | ⟨0, _⟩ => rfl
      | ⟨1, _⟩ => rfl), maximumf_apply, broadcast_apply]
    rfl
  · rw [broadcastTo_apply _ broadcasts_S1x1_S64x1 (ix2 g (0 : Fin 1)) (ix2 (0 : Fin 1) (0 : Fin 1)) (fun ax => by
      match ax with
      | ⟨0, _⟩ => rfl
      | ⟨1, _⟩ => rfl), shapeCast_self]

/-- The model's head at row g: the same expression of the per-graph sums and counts. -/
theorem poolHeadCol_apply (h2 : Cert.Spec.Arr Ideal S250000x64 .f32) (batch : Cert.Spec.Arr Ideal S250000 .i32)
    (Wh : Cert.Spec.Arr Ideal S64x1 .f32) (bh : Cert.Spec.Arr Ideal S1 .f32) (g : Fin 64) :
    Cert.Spec.poolHeadCol h2 batch Wh bh (ix2 g (0 : Fin 1))
      = (∑ j : Fin 64, Ideal.div (Cert.Spec.pooled h2 batch (ix2 g j))
            (max (Cert.Spec.counts batch (ix1 g)) (Ideal.ofBits .f32 0x3F800000#32)) * Wh (ix2 j (0 : Fin 1)))
        + bh (ix1 (0 : Fin 1)) := by
  unfold Cert.Spec.poolHeadCol
  rw [addf_apply]
  refine congrArg₂ (· + ·) ?_ ?_
  · refine (Cert.Lib.PlainMatmul.dotGeneral_apply Cert.ReferenceIdeal.dot_S64x64_S64x1_S64x1_1_0_0_1_n_n rfl rfl rfl rfl rfl rfl _ _ _ _ g 0).trans ?_
    refine Finset.sum_congr rfl fun j _ => ?_
    rw [hostDivf_apply, broadcastInDim_apply ![0, 1] Cert.ReferenceIdeal.Facts₀.bcast_S64x1_S64x64_0_1 _ (ix2 g j) (ix2 g (0 : Fin 1)) (fun ax => by
      match ax with
      | ⟨0, _⟩ => rfl
      | ⟨1, _⟩ => rfl),
      broadcastInDim_apply ![0] Cert.ReferenceIdeal.Facts₀.bcast_S64_S64x1_0 _ (ix2 g (0 : Fin 1)) (ix1 g) (fun ax => by
      match ax with
      | ⟨0, _⟩ => rfl), maximumf_apply]
    rfl
  · rw [broadcastInDim_apply ![0, 1] Cert.ReferenceIdeal.Facts₀.bcast_S1x1_S64x1_0_1 _ (ix2 g (0 : Fin 1)) (ix2 (0 : Fin 1) (0 : Fin 1)) (fun ax => by
      match ax with
      | ⟨0, _⟩ => rfl
      | ⟨1, _⟩ => rfl),
      broadcastInDim_apply ![1] Cert.ReferenceIdeal.Facts₀.bcast_S1_S1x1_1 _ (ix2 (0 : Fin 1) (0 : Fin 1)) (ix1 (0 : Fin 1)) (fun ax => by
      match ax with
      | ⟨0, _⟩ => rfl)]

/-- The kernel's head of sums that are the model's per-graph sums and counts is the model's head. -/
theorem head2_eq (a : Vec Ideal S64x64 .f32) (n : Vec Ideal S64x1 .f32) (x7 : Vec Ideal S64x1 .f32) (x8 : Vec Ideal S1x1 .f32)
    (h2 : Cert.Spec.Arr Ideal S250000x64 .f32) (batch : Cert.Spec.Arr Ideal S250000 .i32) (bh : Cert.Spec.Arr Ideal S1 .f32)
    (ha : ∀ g j : Fin 64, a (ix2 g j) = Cert.Spec.pooled h2 batch (ix2 g j))
    (hn : ∀ g : Fin 64, n (ix2 g (0 : Fin 1)) = Cert.Spec.counts batch (ix1 g))
    (h8 : x8 (ix2 (0 : Fin 1) (0 : Fin 1)) = bh (ix1 (0 : Fin 1))) :
    head2 a n x7 x8 = Cert.Spec.poolHeadCol h2 batch x7 bh := by
  funext i
  obtain ⟨g, rfl⟩ : ∃ g : Fin 64, i = ix2 g (0 : Fin 1) := ⟨i 0, funext fun ax => by
    match ax with
    | ⟨0, _⟩ => rfl
    | ⟨1, _⟩ => exact Fin.ext (by have h1 : (i 1).val < 1 := (i 1).isLt; show (i 1).val = 0; omega)⟩
  rw [head2_apply, poolHeadCol_apply, hn, h8]
  refine congrArg₂ (· + ·) (Finset.sum_congr rfl fun j _ => ?_) rfl
  rw [ha]

end Head

/-! ## The result array after the run -/

section Final
variable {F : FTy → Type} [FloatOps F]
variable (V : (c : Dev nD) → (b : Ref sig .tc) → Buf (Elt F) ((c : Thread nD τ).loc b))

/-- The head of the finished sums. -/
def outHead (c : Dev nD) : Buf (Elt F) ((c : Thread nD τ).loc main_v53) :=
  head2 (sumsAt2 V c 24 h24).1 (sumsAt2 V c 24 h24).2 (iblk2 V c 7 tL) (iblk2 V c 8 tL)

/-- The one write-back, at the last point, writes the head of the finished sums: its block is the whole result array. -/
theorem flushed9_eq (c : Dev nD) (t : Fin cfg2.N) (hf : (cfg2.win 9).flush t = true) :
    (dat2 V c).flushed 9 t = ((cfg2.win 9).blk t).view.read (Elt F) (outHead V c) := by
  obtain rfl := flush_last t hf
  show (cfg2.win 9).cut (grid2.coords _) ((dat2 V c).after 9 _) = _
  rw [after2_9]
  have hz' : (fun a => win2_9.index tL a * main_v53.ty.shape.size a) = fun _ => 0 := funext fun a => by fin_cases a <;> decide
  exact (Memref.read_access_unit_zero (Elt F) main_v53 hz' (fun a => by rw [congrFun hz' a]; simp) (outHead V c)).symm

/-- So the result array ends holding the head of the finished sums. -/
theorem final9 (c : Dev nD) : (dat2 V c).arrAt 9 cfg2.N = outHead V c :=
  (dat2 V c).arrAt_eq_of_cover 9 (outHead V c) (flushed9_eq V c) fun i =>
    ⟨tL, (flush2_9 tL).mpr rfl, by
      show i ∈ ((View.whole main_v53).slice (win2_9.rect tL)).set
      rw [View.set_slice_whole, Rect.mem_set_unit]
      intro a
      have h0 : (i 0 : Nat) < 64 := (i 0).isLt
      have h1 : (i 1 : Nat) < 1 := (i 1).isLt
      match a with
      | ⟨0, _⟩ => show win2_9.index tL 0 * win2_9.size 0 ≤ (i 0 : Nat) ∧ (i 0 : Nat) < win2_9.index tL 0 * win2_9.size 0 + win2_9.xsize (grid2.coords tL) 0
                  rw [show win2_9.index tL 0 * win2_9.size 0 = 0 from by decide +kernel, show win2_9.xsize (grid2.coords tL) 0 = 64 from by decide +kernel]; omega
      | ⟨1, _⟩ => show win2_9.index tL 1 * win2_9.size 1 ≤ (i 1 : Nat) ∧ (i 1 : Nat) < win2_9.index tL 1 * win2_9.size 1 + win2_9.xsize (grid2.coords tL) 1
                  rw [show win2_9.index tL 1 * win2_9.size 1 = 0 from by decide +kernel, show win2_9.xsize (grid2.coords tL) 1 = 1 from by decide +kernel]; omega⟩

end Final

end Result2

/-- WHAT THE POOLING REGION LEAVES IN ITS RESULT ARRAY: the model's pooled head of the last layer computed on the whole
    arrays the region finds, when the inverse degrees, the bias row, the graph ids and the head's bias are the host's
    reshapes of vectors. -/
theorem final2 (V : (c : Dev nD) → (b : Ref sig .tc) → Buf (Elt Ideal) ((c : Thread nD τ).loc b)) (c : Dev nD)
    (dinv : Cert.Spec.Arr Ideal S250000 .f32) (bl : Cert.Spec.Arr Ideal S64 .f32) (batch : Cert.Spec.Arr Ideal S250000 .i32)
    (bh : Cert.Spec.Arr Ideal S1 .f32)
    (hd : V c main_v15 = fun i => shapeCast S250000x1 dinv shapeCasts_S250000_S250000x1 i)
    (hb : V c main_v51 = fun i => shapeCast S1x64 bl shapeCasts_S64_S1x64 i)
    (hbatch : V c main_v50 = fun i => shapeCast S250000x1 batch shapeCasts_S250000_S250000x1 i)
    (hbh : V c main_v52 = fun i => shapeCast S1x1 bh shapeCasts_S1_S1x1 i) :
    (dat2 (F := Ideal) V c).arrAt 9 cfg2.N
      = Cert.Spec.poolHeadCol (Cert.Spec.layerPre64 (V c main_v49) dinv (V c main_v39) (V c main_arg9) bl (V c main_arg11)) batch
          (V c main_arg12) bh := by
  rw [Result2.final9]
  unfold Result2.outHead
  rw [Result2.blk7_eq]
  exact Result2.head2_eq _ _ _ _ _ batch bh (Result2.acc_last V c dinv bl batch hd hb hbatch) (Result2.cnt_last V c batch hbatch)
    (Result2.bh_at V c bh hbh Result2.tL)

end Cert.KernelIdeal.Val

end
-- ==== Proof.Value.Bridge.lean ====
/-
  The kernel program's result is the model of its arguments, at the ideal instance: the three regions' values chained
  through the host stretches between them.
  Region 0 finds the neighbour sums of the features, the inverse degrees and the first layer's parameters in its windows'
  arrays and leaves the first hidden state; the next host stretch forms the neighbour sums of that state; region 1 leaves
  the second hidden state the same way; region 2 finds the neighbour sums of the second hidden state, pools the third
  layer per graph and leaves the head's column, which the closing reshape turns into the result vector.
-/
import proofs.«429062_j38955353375020_2_alg».proof.Proof.Value.KernelHost
import proofs.«429062_j38955353375020_2_alg».proof.Proof.Value.Final01
import proofs.«429062_j38955353375020_2_alg».proof.Proof.Value.Final2

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem

variable (m : (ℓ : Loc nD τ sig) → Buf (Elt Ideal) ℓ) (c : Dev nD)

/-- The first hidden state, as region 0 leaves it in its result array. -/
theorem hidden1_eq : V4 m c main_v27 = Cert.Spec.hidden1 (m ((c : Thread nD τ).loc main_arg0)) (m ((c : Thread nD τ).loc main_arg1)) (m ((c : Thread nD τ).loc main_arg3)) (m ((c : Thread nD τ).loc main_arg4)) (m ((c : Thread nD τ).loc main_arg5)) := by
  have h := final0 (V3 m) c _ _ (V3_v15 m c) (V3_v26 m c)
  rw [V3_v25, V3_arg0, V3_arg3, V3_arg5] at h
  exact ((W4_arr m c 6).trans h)

/-- The second hidden state, as region 1 leaves it in its result array. -/
theorem hidden2_eq : V6 m c main_v39
    = Cert.Spec.hidden2 (Cert.Spec.hidden1 (m ((c : Thread nD τ).loc main_arg0)) (m ((c : Thread nD τ).loc main_arg1)) (m ((c : Thread nD τ).loc main_arg3)) (m ((c : Thread nD τ).loc main_arg4)) (m ((c : Thread nD τ).loc main_arg5))) (m ((c : Thread nD τ).loc main_arg1)) (m ((c : Thread nD τ).loc main_arg6)) (m ((c : Thread nD τ).loc main_arg7)) (m ((c : Thread nD τ).loc main_arg8)) := by
  have h := final1 (V5 m) c _ _ (V5_v15 m c) (V5_v38 m c)
  rw [V5_v37, V5_v27, V5_arg6, V5_arg8, hidden1_eq] at h
  exact ((W6_arr m c 6).trans h)

/-- The program's result buffer at its end holds the model of the arguments. -/
theorem kernel_value : W9 m c (Proc.devRef .tc main_v54)
    = Cert.Spec.model (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  have h := final2 (V7 m) c _ _ _ _ (V7_v15 m c) (V7_v51 m c) (V7_v50 m c) (V7_v52 m c)
  rw [V7_v49, V7_v39, V7_arg9, V7_arg11, V7_arg12, hidden2_eq] at h
  rw [W9_v54, W8_arr m c 9, h]
  rfl

end Cert.KernelIdeal.Val

end
-- ==== Proof.Value.RefSide.lean ====
/-
  The reference program's result is the model: its composed term, opened, is the model's definitions opened.
-/
import proofs.«429062_j38955353375020_2_alg».proof.Proof.RefRun
import proofs.«429062_j38955353375020_2_alg».proof.Proof.Value.Spec

set_option maxRecDepth 65536

noncomputable section

namespace Cert.Val

open Cert.ReferenceIdeal Cert.ReferenceIdeal.Facts₀ Cert.ReferenceIdeal.Facts Idealize.ShloMosaic Idealize.ShloMosaic.TcCoe

variable {F : FTy → Type} [FloatOps F]

set_option maxHeartbeats 4000000 in
/-- The reference's returned vector is the model of its fourteen arguments. -/
theorem ref_result (m : (ℓ : Loc Cert.ReferenceIdeal.nD Cert.ReferenceIdeal.τ Cert.ReferenceIdeal.sig) → Buf (Elt F) ℓ)
    (c : Dev Cert.ReferenceIdeal.nD) :
    Cert.ReferenceIdeal.Value.res_out0 (F := F) m c
      = Cert.Spec.model
          (m ((c.tc : Thread Cert.ReferenceIdeal.nD Cert.ReferenceIdeal.τ).loc main_arg0))
          (m ((c.tc : Thread Cert.ReferenceIdeal.nD Cert.ReferenceIdeal.τ).loc main_arg1))
          (m ((c.tc : Thread Cert.ReferenceIdeal.nD Cert.ReferenceIdeal.τ).loc main_arg2))
          (m ((c.tc : Thread Cert.ReferenceIdeal.nD Cert.ReferenceIdeal.τ).loc main_arg3))
          (m ((c.tc : Thread Cert.ReferenceIdeal.nD Cert.ReferenceIdeal.τ).loc main_arg4))
          (m ((c.tc : Thread Cert.ReferenceIdeal.nD Cert.ReferenceIdeal.τ).loc main_arg5))
          (m ((c.tc : Thread Cert.ReferenceIdeal.nD Cert.ReferenceIdeal.τ).loc main_arg6))
          (m ((c.tc : Thread Cert.ReferenceIdeal.nD Cert.ReferenceIdeal.τ).loc main_arg7))
          (m ((c.tc : Thread Cert.ReferenceIdeal.nD Cert.ReferenceIdeal.τ).loc main_arg8))
          (m ((c.tc : Thread Cert.ReferenceIdeal.nD Cert.ReferenceIdeal.τ).loc main_arg9))
          (m ((c.tc : Thread Cert.ReferenceIdeal.nD Cert.ReferenceIdeal.τ).loc main_arg10))
          (m ((c.tc : Thread Cert.ReferenceIdeal.nD Cert.ReferenceIdeal.τ).loc main_arg11))
          (m ((c.tc : Thread Cert.ReferenceIdeal.nD Cert.ReferenceIdeal.τ).loc main_arg12))
          (m ((c.tc : Thread Cert.ReferenceIdeal.nD Cert.ReferenceIdeal.τ).loc main_arg13)) := by
  unfold Cert.ReferenceIdeal.Value.res_out0 Cert.ReferenceIdeal.Value.res_main_v90
  unfold Cert.Spec.model Cert.Spec.poolHead Cert.Spec.poolHeadCol Cert.Spec.pooled Cert.Spec.counts
    Cert.Spec.hidden2 Cert.Spec.hidden1 Cert.Spec.relu Cert.Spec.layerPre64 Cert.Spec.layerPre16
    Cert.Spec.agg64 Cert.Spec.agg16 Cert.Spec.dinvOf Cert.Spec.deg Cert.Spec.srcIdx Cert.Spec.dstIdx
    Cert.Spec.srcRaw Cert.Spec.dstRaw
  rfl

end Cert.Val

end
-- ==== Proof.lean ====
/-
  The certificate of one kernel against its reference: a three-layer graph network (mean aggregation over incoming
  edges, two linear maps and a bias per layer, an activation after the first two) followed by a mean pool per graph and
  a linear head.
  The kernel program computes degrees, inverse degrees and neighbour sums with host operations and runs three pipelined
  regions over 25 tiles of 10000 nodes: the first two layers tile by tile, and the third fused with the pooling, whose
  per-graph sums and counts live in two scratch buffers across the tiles. The reference does everything with whole-array
  host operations. At the ideal instance both are the same function of the arguments (Value/Spec.lean's `model`): a tile
  of a layer is the layer's rows (Value/TileAt.lean, Value/Final01.lean); a sum over the 250000 nodes of a graph is the
  sum over the tiles of the tile's sums, a node whose graph id is outside 0 … 63 contributing to no graph on either side
  (Value/PoolLaws.lean, Value/Final2.lean); the host stretches are shared (Value/KernelHost.lean, Value/RefSide.lean).
  The frames: each program runs to its end without fault and leaves its arguments as launched — for the kernel program
  at both instances from one text generic in the float family (KernelIdeal/Run.lean and its instance Kernel/Run.lean: the
  program as host segments and three regions, the third region's invariant carrying the two scratch buffers' contents
  from point to point), for the reference from its run (RefRun.lean). The idealization rewrote nothing.
-/
import proofs.«429062_j38955353375020_2_alg».proof.Defs
import proofs.«429062_j38955353375020_2_alg».proof.Proof.Gen.Kernel
import proofs.«429062_j38955353375020_2_alg».proof.Proof.Gen.KernelIdeal
import proofs.«429062_j38955353375020_2_alg».proof.Proof.Gen.ReferenceIdeal
import proofs.«429062_j38955353375020_2_alg».proof.Proof.Gen.Pre_finite_inputs
import proofs.«429062_j38955353375020_2_alg».proof.Proof.RefRun
import proofs.«429062_j38955353375020_2_alg».proof.Proof.Kernel.Run
import proofs.«429062_j38955353375020_2_alg».proof.Proof.KernelIdeal.Run
import proofs.«429062_j38955353375020_2_alg».proof.Proof.Value.Bridge
import proofs.«429062_j38955353375020_2_alg».proof.Proof.Value.RefSide

set_option maxRecDepth 16384

noncomputable section

namespace Cert.Proof

open Idealize.ShloMosaic Idealize.ShloMosaic.TcCoe Idealize.SL.Sem

/-- The kernel program as printed runs to its end and leaves its arguments as launched. -/
theorem frame_k : Cert.frame_Kernel := fun m ρ _ => Cert.Kernel.Fr.frame m ρ

/-- So does its idealization. -/
theorem frame_ki : Cert.frame_KernelIdeal := fun m ρ _ => Cert.KernelIdeal.Fr.frame m ρ

/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both idealized programs end with the model of those arguments in their
    result buffers. -/
theorem algebraic : Cert.algebraic_KernelIdeal_ReferenceIdeal := by
  intro m ρ m' ρ' _ hagree
  refine ⟨fun c => Cert.Spec.model (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · exact (θ_run Cert.KernelIdeal.defs _ _).mono (fun _ h c => ⟨(h c).1.trans (Cert.KernelIdeal.Val.kernel_value m c), (h c).2⟩)
      (Cert.KernelIdeal.Fr.run_value (F := Ideal) m ρ)
  · refine (θ_run Cert.ReferenceIdeal.defs _ _).mono (fun _ h c => ⟨(h c).1.trans ?_, (h c).2⟩) (Cert.ReferenceIdeal.Value.run (F := Ideal) m' ρ')
    have e := Cert.Val.ref_result (F := Ideal) m' c
    obtain ⟨h0, h1, h2, h3, h4, h5, h6, h7, h8, h9, h10, h11, h12, h13⟩ := hagree c
    rw [h0, h1, h2, h3, h4, h5, h6, h7, h8, h9, h10, h11, h12, h13] at e
    exact e

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
